-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_arg2 : FVec F S4096x32000 .f32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 32000#32
  let main_v18 : IVec S4096 32 := broadcastInDim S4096 ![] bcast_S_S4096 main_c_6
  let main_v19 : IVec S4096 1 := cmpi .slt main_arg1 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  let main_cst_8 : FVec F S_ .f32 := constant S_ .f32 0x00000000#32
  let main_v22 : FVec F S4096x32000 .f32 := broadcastInDim S4096x32000 ![] bcast_S_S4096x32000 main_cst_8
  let main_v23 : IVec S4096x32000 1 := cmpf .oge main_arg2 main_v22
  let main_c_9 : IVec S_ 1 := constantI S_ 1 1#1
  let main_v24 : IVec S_ 1 := (fun x v => Host.reduce IntOp.andi x v reducesTo_S4096x32000_S_d0_1 h_S_) main_v23 main_c_9
  let main_v25 : IVec S_ 1 := andi main_v21 main_v24
  main_v25

def fn {F : FTy → Type} [FloatOps F] (main_arg0 : FVec F S4096x32000 .f32) (main_arg1 : IVec S4096 32) (main_arg2 : FVec F S4096x32000 .f32) (main_arg3 : FVec F S4096 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x32000 .f32 := Host.absf main_arg2
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg1 main_v14
  let main_c_5 : IVec S_ 1 := constantI S_ 1 1#1
  fn_part1 (F := F) main_arg1 main_arg2 main_v13 main_v15 main_c_5
-- ==== Kernel.lean ====
abbrev S4096x32000 : Shape := ⟨2, ![4096, 32000]⟩
abbrev S4096 : Shape := ⟨1, ![4096]⟩
abbrev S4096x1 : Shape := ⟨2, ![4096, 1]⟩
abbrev S1x1 : Shape := ⟨2, ![1, 1]⟩
abbrev S32x32000 : Shape := ⟨2, ![32, 32000]⟩
abbrev S32x1 : Shape := ⟨2, ![32, 1]⟩
abbrev S32 : Shape := ⟨1, ![32]⟩
abbrev S1 : Shape := ⟨1, ![1]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x32000, .f32⟩
  | .hbm, ⟨3, _⟩ => ⟨S4096, .f32⟩
  | .hbm, ⟨4, _⟩ => ⟨S4096x1, .i32⟩
  | .hbm, ⟨5, _⟩ => ⟨S4096x1, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x32000, .f32⟩
  | .local _ .vmem, ⟨3, _⟩ => ⟨S32x32000, .f32⟩
  | .local _ .vmem, ⟨4, _⟩ => ⟨S32x1, .i32⟩
  | .local _ .vmem, ⟨5, _⟩ => ⟨S32x1, .i32⟩
  | .local _ .vmem, ⟨6, _⟩ => ⟨S32x1, .f32⟩
  | .local _ .vmem, ⟨7, _⟩ => ⟨S32x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v89 : BitVec 1 := Scalar.cmpi .eq arg0 c127_i32
  let v90 : BitVec 32 := Scalar.extui v89
  let c0_i32_41 : BitVec 32 := 0#32
  let v91 : BitVec 1 := Scalar.cmpi .ne v90 c0_i32_41
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x32000_S32x32000_0_0 : ∀ a, (![0, 0] : Fin 2 → Nat) a + S32x32000.size a ≤ S32x32000.size a
  h_S32x32000 : 0 < S32x32000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x32000_S32 : S32x32000.Reduces [1] S32
  shapeCasts_S32_S32x1 : S32.ShapeCasts S32x1
  broadcasts_S32x1_S32x32000 : S32x1.Broadcasts S32x32000
  iota_S32x32000_d1_w32 : S32x32000.Iotas .tc 32 [1]
  reduces_S32x1_S1 : S32x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S4096x32000.size a
  hwx0_0 : ∀ i : grid0.Coords, EltTy.bits .f32 = 32 ∨ (Rect.block (s := S4096x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32000.size a ≤ S4096x32000.size a
  hwx0_1 : ∀ i : grid0.Coords, EltTy.bits .f32 = 32 ∨ (Rect.block (s := S4096x32000) S32x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S4096x1.size a
  hwx0_2 : ∀ i : grid0.Coords, EltTy.bits .i32 = 32 ∨ (Rect.block (s := S4096x1) S32x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S4096x1.size a
  hwx0_3 : ∀ i : grid0.Coords, EltTy.bits .f32 = 32 ∨ (Rect.block (s := S4096x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x32000, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x32000, .f32⟩
  | .hbm, ⟨18, _⟩ => ⟨S4096x32000, .f32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S1, .i32⟩
  | .hbm, ⟨29, _⟩ => ⟨S_, .i32⟩
  | .hbm, ⟨30, _⟩ => ⟨S4096x1x1, .i32⟩
  | .hbm, ⟨31, _⟩ => ⟨S4096x1x1, .i1⟩
  | .hbm, ⟨32, _⟩ => ⟨S1x1x1, .i32⟩
  | .hbm, ⟨33, _⟩ => ⟨S4096x1x1, .i32⟩
  | .hbm, ⟨34, _⟩ => ⟨S4096x1x1, .i1⟩
  | .hbm, ⟨35, _⟩ => ⟨S4096x1x1, .i1⟩
  | .hbm, ⟨36, _⟩ => ⟨S_, .i1⟩
  | .hbm, ⟨37, _⟩ => ⟨S4096x1, .i1⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .i1⟩
  | .hbm, ⟨62, _⟩ => ⟨S_, .f32⟩
  | .hbm, ⟨63, _⟩ => ⟨S4096, .f32⟩
  | .hbm, ⟨64, _⟩ => ⟨S4096, .i1⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S4096x1, .f32⟩
  | .hbm, ⟨74, _⟩ => ⟨S4096x32000, .f32⟩
  | .hbm, ⟨75, _⟩ => ⟨S4096x32000, .f32⟩
  | .hbm, ⟨76, _⟩ => ⟨S_, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1, .f32⟩
  | .hbm, ⟨82, _⟩ => ⟨S4096x32000, .f32⟩
  | .hbm, ⟨83, _⟩ => ⟨S4096x32000, .f32⟩
  | .hbm, ⟨84, _⟩ => ⟨S4096x32000, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1, .f32⟩
  | .hbm, ⟨89, _⟩ => ⟨S4096x32000, .f32⟩
  | .hbm, ⟨90, _⟩ => ⟨S4096x32000, .f32⟩
  | .hbm, ⟨91, _⟩ => ⟨S_, .f32⟩
  | .hbm, ⟨92, _⟩ => ⟨S4096x32000, .f32⟩
  | .hbm, ⟨93, _⟩ => ⟨S4096x32000, .i1⟩
  | .hbm, ⟨94, _⟩ => ⟨S4096x32000, .i1⟩
  | .hbm, ⟨95, _⟩ => ⟨S4096x32000, .i1⟩
  | .hbm, ⟨96, _⟩ => ⟨S4096x32000, .f32⟩
  | .hbm, ⟨97, _⟩ => ⟨S4096x32000, .f32⟩
  | .hbm, ⟨98, _⟩ => ⟨S_, .f32⟩
  | .hbm, ⟨99, _⟩ => ⟨S4096x32000, .f32⟩
  | .hbm, ⟨100, _⟩ => ⟨S4096x32000, .f32⟩
  | .hbm, ⟨101, _⟩ => ⟨S4096x32000, .f32⟩
  | .hbm, ⟨102, _⟩ => ⟨S4096x32000, .f32⟩
  | .hbm, ⟨103, _⟩ => ⟨S_, .f32⟩
  | .hbm, ⟨104, _⟩ => ⟨S4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_cst : Ref sig .tc := ⟨.hbm, 42, rfl⟩
abbrev main_v3 : Ref sig .tc := ⟨.hbm, 43, rfl⟩
abbrev main_cst_0 : Ref sig .tc := ⟨.hbm, 44, rfl⟩
abbrev main_v4 : Ref sig .tc := ⟨.hbm, 45, rfl⟩
abbrev main_v5 : Ref sig .tc := ⟨.hbm, 46, rfl⟩
abbrev main_cst_1 : Ref sig .tc := ⟨.hbm, 47, rfl⟩
abbrev main_v6 : Ref sig .tc := ⟨.hbm, 48, rfl⟩
abbrev main_v7 : Ref sig .tc := ⟨.hbm, 49, rfl⟩
abbrev main_cst_2 : Ref sig .tc := ⟨.hbm, 50, rfl⟩
abbrev main_v8 : Ref sig .tc := ⟨.hbm, 51, rfl⟩
abbrev main_v9 : Ref sig .tc := ⟨.hbm, 52, rfl⟩
abbrev main_cst_3 : Ref sig .tc := ⟨.hbm, 53, rfl⟩
abbrev main_v10 : Ref sig .tc := ⟨.hbm, 54, rfl⟩
abbrev main_v11 : Ref sig .tc := ⟨.hbm, 55, rfl⟩
abbrev main_cst_4 : Ref sig .tc := ⟨.hbm, 56, rfl⟩
abbrev main_v12 : Ref sig .tc := ⟨.hbm, 57, rfl⟩
abbrev main_v13 : Ref sig .tc := ⟨.hbm, 58, rfl⟩
abbrev main_cst_5 : Ref sig .tc := ⟨.hbm, 59, rfl⟩
abbrev main_v14 : Ref sig .tc := ⟨.hbm, 60, rfl⟩
abbrev main_v15 : Ref sig .tc := ⟨.hbm, 61, rfl⟩
abbrev main_cst_6 : Ref sig .tc := ⟨.hbm, 62, rfl⟩
abbrev main_v16 : Ref sig .tc := ⟨.hbm, 63, rfl⟩
abbrev main_v17 : Ref sig .tc := ⟨.hbm, 64, rfl⟩
abbrev main_cst_7 : Ref sig .tc := ⟨.hbm, 65, rfl⟩
abbrev main_call2_v0 : Ref sig .tc := ⟨.hbm, 66, rfl⟩
abbrev main_call2_v1 : Ref sig .tc := ⟨.hbm, 67, rfl⟩
abbrev main_v18 : Ref sig .tc := ⟨.hbm, 68, rfl⟩
abbrev main_cst_8 : Ref sig .tc := ⟨.hbm, 69, rfl⟩
abbrev main_call3_v0 : Ref sig .tc := ⟨.hbm, 70, rfl⟩
abbrev main_call3_v1 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_call4_cst : Ref sig .tc := ⟨.hbm, 76, rfl⟩
abbrev main_call4_v0 : Ref sig .tc := ⟨.hbm, 77, rfl⟩
abbrev main_call4_cst_0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_cst_1 : Ref sig .tc := ⟨.hbm, 85, rfl⟩
abbrev main_call4_v7 : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_v23 : Ref sig .tc := ⟨.hbm, 90, rfl⟩
abbrev main_cst_9 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_cst_10 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_cst_11 : Ref sig .tc := ⟨.hbm, 103, rfl⟩
abbrev main_v34 : Ref sig .tc := ⟨.hbm, 104, rfl⟩
abbrev main_cst_12 : Ref sig .tc := ⟨.hbm, 105, rfl⟩
abbrev main_v35 : Ref sig .tc := ⟨.hbm, 106, rfl⟩
abbrev main_cst_13 : Ref sig .tc := ⟨.hbm, 107, rfl⟩
abbrev main_v36 : Ref sig .tc := ⟨.hbm, 108, rfl⟩
abbrev main_cst_14 : Ref sig .tc := ⟨.hbm, 109, rfl⟩
abbrev main_v37 : Ref sig .tc := ⟨.hbm, 110, rfl⟩
abbrev main_cst_15 : Ref sig .tc := ⟨.hbm, 111, rfl⟩
abbrev main_v38 : Ref sig .tc := ⟨.hbm, 112, rfl⟩
abbrev main_v39 : Ref sig .tc := ⟨.hbm, 113, rfl⟩
abbrev main_cst_16 : Ref sig .tc := ⟨.hbm, 114, rfl⟩
abbrev main_v40 : Ref sig .tc := ⟨.hbm, 115, rfl⟩
abbrev main_cst_17 : Ref sig .tc := ⟨.hbm, 116, rfl⟩
abbrev main_v41 : Ref sig .tc := ⟨.hbm, 117, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  bcast_S_S4096x32000 : S_.BroadcastsInDim S4096x32000 (![] : Fin 0 → Fin S4096x32000.rank)
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Pieces.lean ====
/-
  What one grid point leaves in the three one-element accumulators, as pure functions of the point's four input blocks
  (32 rows of logits and of soft labels, 32 labels, 32 confidences) and of what the point before left there.
  At a point that is neither the first nor the last each accumulator receives one store: the old value plus the
  block's contribution — the sum over the block's rows of the log-softmax at the labelled column; of the divergence
  term; of the temperature.
-/
import proofs.«423406_j41034117546381_2_alg».proof.Proof.Gen.KernelIdeal.Frame
import Idealize.ShloMosaic.Lib.Pipeline.Value

set_option maxRecDepth 16384

noncomputable section

namespace Cert.Loss.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The origin of a rank-2 rectangle written as the literal pair of zeros is the zero offset. -/
theorem hz : (![0, 0] : Fin 2 → Nat) = fun _ => 0 := by
  funext a; fin_cases a <;> rfl

/-- A middle point adds to the cross-entropy accumulator: its one store writes the old value plus the block's sum of the log-softmax at the labelled columns. -/
theorem sout_B_0 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S32x32000 .f32) (x1 : Vec F S32x32000 .f32) (x2 : Vec F S32x1 .i32) (x3 : Vec F S32x1 .f32) (xs0 xs1 xs2 : Vec F S1x1 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay13 (k0_pay11 x0) (k0_pay12 x2) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero (S := S1x1) hz]
  simp only [View.readAt_eq_ld, Memref.IsWhole.read_unread, View.ld_unit_zero (S := S32x32000) hz, View.ld_unit_zero (S := S32x1) hz, View.ld_unit_zero (S := S1x1) hz]

/-- A middle point adds to the divergence accumulator the block's sum of the divergence terms, at the block's temperatures. -/
theorem sout_B_1 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S32x32000 .f32) (x1 : Vec F S32x32000 .f32) (x2 : Vec F S32x1 .i32) (x3 : Vec F S32x1 .f32) (xs0 xs1 xs2 : Vec F S1x1 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay14 x0 x1 (k0_pay10 x3) xs1) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero (S := S1x1) hz]
  simp only [View.readAt_eq_ld, Memref.IsWhole.read_unread, View.ld_unit_zero (S := S32x32000) hz, View.ld_unit_zero (S := S32x1) hz, View.ld_unit_zero (S := S1x1) hz]

/-- A middle point adds to the temperature accumulator the sum of the block's 32 temperatures. -/
theorem sout_B_2 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S32x32000 .f32) (x1 : Vec F S32x32000 .f32) (x2 : Vec F S32x1 .i32) (x3 : Vec F S32x1 .f32) (xs0 xs1 xs2 : Vec F S1x1 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay10 x3) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_B
  dsimp only
  sl_unfold_words
  rw [View.canon_unit_zero (S := S1x1) hz]
  simp only [View.readAt_eq_ld, Memref.IsWhole.read_unread, View.ld_unit_zero (S := S32x32000) hz, View.ld_unit_zero (S := S32x1) hz, View.ld_unit_zero (S := S1x1) hz]

/-! ## The first point: each accumulator is set to zero and then receives the block's contribution -/

/-- The first point leaves in the cross-entropy accumulator the zero it stored there plus the first block's sum. -/
theorem sout_A_0 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S32x32000 .f32) (x1 : Vec F S32x32000 .f32) (x2 : Vec F S32x1 .i32) (x3 : Vec F S32x1 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 = k0_pay13 (k0_pay11 x0) (k0_pay12 x2) k0_pay7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The first point leaves in the divergence accumulator the zero it stored there plus the first block's sum. -/
theorem sout_A_1 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S32x32000 .f32) (x1 : Vec F S32x32000 .f32) (x2 : Vec F S32x1 .i32) (x3 : Vec F S32x1 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 = k0_pay1 (k0_pay14 x0 x1 (k0_pay10 x3) k0_pay8) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The first point leaves in the temperature accumulator the zero it stored there plus the first block's 32 temperatures. -/
theorem sout_A_2 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S32x32000 .f32) (x1 : Vec F S32x32000 .f32) (x2 : Vec F S32x1 .i32) (x3 : Vec F S32x1 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 = k0_pay2 (k0_pay10 x3) k0_pay9 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-! ## The last point: the accumulators receive the last block, and the four results are written from them -/

/-- The last point adds the last block to the cross-entropy accumulator, as a middle point does. -/
theorem sout_C_0 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay13 (k0_pay11 x0) (k0_pay12 x2) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The last point adds the last block to the divergence accumulator. -/
theorem sout_C_1 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay1 (k0_pay14 x0 x1 (k0_pay10 x3) xs1) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The last point adds the last block's temperatures to the temperature accumulator. -/
theorem sout_C_2 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    sout0_C_2 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay2 (k0_pay10 x3) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The loss written at the last point: half the mean divergence plus half the negated mean cross-entropy, from the two accumulators as the last point has just left them. -/
theorem out_C_4 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    out0_C_4 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay6 (k0_pay13 (k0_pay11 x0) (k0_pay12 x2) xs0) (k0_pay1 (k0_pay14 x0 x1 (k0_pay10 x3) xs1)) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The negated mean cross-entropy written at the last point, from the cross-entropy accumulator as just left. -/
theorem out_C_5 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    out0_C_5 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay3 (k0_pay13 (k0_pay11 x0) (k0_pay12 x2) xs0) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The mean divergence written at the last point, from the divergence accumulator as just left. -/
theorem out_C_6 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay4 (k0_pay1 (k0_pay14 x0 x1 (k0_pay10 x3) xs1)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

/-- The mean temperature written at the last point, from the temperature accumulator as just left. -/
theorem out_C_7 (c : Dev nD) (i : grid0.Coords) (arg1 : Memref sig .tc .vmem S32x32000 .f32) (harg1 : arg1.IsWhole) (arg2 : Memref sig .tc .vmem S32x32000 .f32) (harg2 : arg2.IsWhole) (arg3 : Memref sig .tc .vmem S32x1 .i32) (harg3 : arg3.IsWhole) (arg4 : Memref sig .tc .vmem S32x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S32x32000 .f32) (x1 : Vec F S32x32000 .f32) (x2 : Vec F S32x1 .i32) (x3 : Vec F S32x1 .f32) (xs0 xs1 xs2 : Vec F S1x1 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 xs0 xs1 xs2 = k0_pay5 (k0_pay2 (k0_pay10 x3) xs2) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 xs0 xs1 xs2)]
  unfold kernelRun0_C
  dsimp only
  sl_unfold_words
  rw [View.canon_unit_zero (S := S1x1) hz]
  simp only [View.readAt_eq_ld, Memref.IsWhole.read_unread, View.readCov_unit_zero (S := S1x1) _ hz, View.ld_unit_zero (S := S32x32000) hz, View.ld_unit_zero (S := S32x1) hz, View.ld_unit_zero (S := S1x1) hz]

end Cert.Loss.Ker

end
-- ==== Proof.Accum.lean ====
/-
  The accumulators point by point. After each grid point the three one-element accumulators hold, as functions of that
  point's four input blocks and of what the point before left: at the first point, zero plus the block's contribution;
  at every later point, the previous contents plus the block's contribution. The four results are written at the last
  point from the accumulators as that point leaves them.
-/
import proofs.«423406_j41034117546381_2_alg».proof.Proof.Pieces

set_option maxRecDepth 16384

noncomputable section

namespace Cert.Loss.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- The point's four input blocks, at their literal types: 32 rows of logits, of soft labels, 32 labels, 32 confidences. -/
abbrev lgB (c : Dev nD) (t : Fin cfg0.N) : Vec F S32x32000 .f32 := iblk m c 0 t
abbrev sfB (c : Dev nD) (t : Fin cfg0.N) : Vec F S32x32000 .f32 := iblk m c 1 t
abbrev labB (c : Dev nD) (t : Fin cfg0.N) : Vec F S32x1 .i32 := iblk m c 2 t
abbrev cfB (c : Dev nD) (t : Fin cfg0.N) : Vec F S32x1 .f32 := iblk m c 3 t

/-- The three accumulators after point n. -/
abbrev acc0 (c : Dev nD) (n : ℕ) (hn : n < cfg0.N) : Vec F S1x1 .f32 := (outsAt0 m c n hn).2.2.2.2.1
abbrev acc1 (c : Dev nD) (n : ℕ) (hn : n < cfg0.N) : Vec F S1x1 .f32 := (outsAt0 m c n hn).2.2.2.2.2.1
abbrev acc2 (c : Dev nD) (n : ℕ) (hn : n < cfg0.N) : Vec F S1x1 .f32 := (outsAt0 m c n hn).2.2.2.2.2.2

/-- A middle point's cross-entropy accumulator: the previous contents updated by the point's block. -/
theorem acc0_B (c : Dev nD) (t : Fin cfg0.N) (h0 : ¬t.val % 128 = 0) (h1 : ¬t.val % 128 = 127) :
    acc0 m c t.val t.isLt = k0_pay13 (k0_pay11 (lgB m c t)) (k0_pay12 (labB m c t)) (acc0 m c (t.val - 1) (Nat.lt_of_le_of_lt (Nat.sub_le _ _) t.isLt)) := by
  show (outsAt0 m c t.val t.isLt).2.2.2.2.1 = _
  rw [outsAt0_B m c t h0 h1]
  dsimp only
  exact sout_B_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) _ _ _

/-- The first point: the cross-entropy accumulator is the zero just stored updated by the point's block. -/
theorem acc0_A (c : Dev nD) (t : Fin cfg0.N) (h0 : t.val % 128 = 0) (h1 : ¬t.val % 128 = 127) :
    acc0 m c t.val t.isLt = k0_pay13 (k0_pay11 (lgB m c t)) (k0_pay12 (labB m c t)) k0_pay7 := by
  show (outsAt0 m c t.val t.isLt).2.2.2.2.1 = _
  rw [outsAt0_A m c t h0 h1]
  dsimp only
  exact sout_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- The first point: the divergence accumulator is the zero just stored updated by the point's block. -/
theorem acc1_A (c : Dev nD) (t : Fin cfg0.N) (h0 : t.val % 128 = 0) (h1 : ¬t.val % 128 = 127) :
    acc1 m c t.val t.isLt = k0_pay1 (k0_pay14 (lgB m c t) (sfB m c t) (k0_pay10 (cfB m c t)) k0_pay8) := by
  show (outsAt0 m c t.val t.isLt).2.2.2.2.2.1 = _
  rw [outsAt0_A m c t h0 h1]
  dsimp only
  exact sout_A_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- The first point: the temperature accumulator is the zero just stored updated by the point's block. -/
theorem acc2_A (c : Dev nD) (t : Fin cfg0.N) (h0 : t.val % 128 = 0) (h1 : ¬t.val % 128 = 127) :
    acc2 m c t.val t.isLt = k0_pay2 (k0_pay10 (cfB m c t)) k0_pay9 := by
  show (outsAt0 m c t.val t.isLt).2.2.2.2.2.2 = _
  rw [outsAt0_A m c t h0 h1]
  dsimp only
  exact sout_A_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- A middle point: the divergence accumulator is the previous contents updated by the point's block. -/
theorem acc1_B (c : Dev nD) (t : Fin cfg0.N) (h0 : ¬t.val % 128 = 0) (h1 : ¬t.val % 128 = 127) :
    acc1 m c t.val t.isLt = k0_pay1 (k0_pay14 (lgB m c t) (sfB m c t) (k0_pay10 (cfB m c t)) (acc1 m c (t.val - 1) (Nat.lt_of_le_of_lt (Nat.sub_le _ _) t.isLt))) := by
  show (outsAt0 m c t.val t.isLt).2.2.2.2.2.1 = _
  rw [outsAt0_B m c t h0 h1]
  dsimp only
  exact sout_B_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) _ _ _

/-- A middle point: the temperature accumulator is the previous contents updated by the point's block. -/
theorem acc2_B (c : Dev nD) (t : Fin cfg0.N) (h0 : ¬t.val % 128 = 0) (h1 : ¬t.val % 128 = 127) :
    acc2 m c t.val t.isLt = k0_pay2 (k0_pay10 (cfB m c t)) (acc2 m c (t.val - 1) (Nat.lt_of_le_of_lt (Nat.sub_le _ _) t.isLt)) := by
  show (outsAt0 m c t.val t.isLt).2.2.2.2.2.2 = _
  rw [outsAt0_B m c t h0 h1]
  dsimp only
  exact sout_B_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) _ _ _

/-- The last point: the cross-entropy accumulator is the previous contents updated by the point's block. -/
theorem acc0_C (c : Dev nD) (t : Fin cfg0.N) (h0 : ¬t.val % 128 = 0) (h1 : t.val % 128 = 127) :
    acc0 m c t.val t.isLt = k0_pay13 (k0_pay11 (lgB m c t)) (k0_pay12 (labB m c t)) (acc0 m c (t.val - 1) (Nat.lt_of_le_of_lt (Nat.sub_le _ _) t.isLt)) := by
  show (outsAt0 m c t.val t.isLt).2.2.2.2.1 = _
  rw [outsAt0_C m c t h0 h1]
  dsimp only
  exact sout_C_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-- The last point: the divergence accumulator is the previous contents updated by the point's block. -/
theorem acc1_C (c : Dev nD) (t : Fin cfg0.N) (h0 : ¬t.val % 128 = 0) (h1 : t.val % 128 = 127) :
    acc1 m c t.val t.isLt = k0_pay1 (k0_pay14 (lgB m c t) (sfB m c t) (k0_pay10 (cfB m c t)) (acc1 m c (t.val - 1) (Nat.lt_of_le_of_lt (Nat.sub_le _ _) t.isLt))) := by
  show (outsAt0 m c t.val t.isLt).2.2.2.2.2.1 = _
  rw [outsAt0_C m c t h0 h1]
  dsimp only
  exact sout_C_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-- The last point: the temperature accumulator is the previous contents updated by the point's block. -/
theorem acc2_C (c : Dev nD) (t : Fin cfg0.N) (h0 : ¬t.val % 128 = 0) (h1 : t.val % 128 = 127) :
    acc2 m c t.val t.isLt = k0_pay2 (k0_pay10 (cfB m c t)) (acc2 m c (t.val - 1) (Nat.lt_of_le_of_lt (Nat.sub_le _ _) t.isLt)) := by
  show (outsAt0 m c t.val t.isLt).2.2.2.2.2.2 = _
  rw [outsAt0_C m c t h0 h1]
  dsimp only
  exact sout_C_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-- What the last point writes into the output that holds the loss. -/
theorem out4_C (c : Dev nD) (t : Fin cfg0.N) (h0 : ¬t.val % 128 = 0) (h1 : t.val % 128 = 127) :
    (outsAt0 m c t.val t.isLt).1 = k0_pay6 (k0_pay13 (k0_pay11 (lgB m c t)) (k0_pay12 (labB m c t)) (acc0 m c (t.val - 1) (Nat.lt_of_le_of_lt (Nat.sub_le _ _) t.isLt))) (k0_pay1 (k0_pay14 (lgB m c t) (sfB m c t) (k0_pay10 (cfB m c t)) (acc1 m c (t.val - 1) (Nat.lt_of_le_of_lt (Nat.sub_le _ _) t.isLt)))) := by
  rw [outsAt0_C m c t h0 h1]
  dsimp only
  exact out_C_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-- What the last point writes into the output that holds the negated mean cross-entropy. -/
theorem out5_C (c : Dev nD) (t : Fin cfg0.N) (h0 : ¬t.val % 128 = 0) (h1 : t.val % 128 = 127) :
    (outsAt0 m c t.val t.isLt).2.1 = k0_pay3 (k0_pay13 (k0_pay11 (lgB m c t)) (k0_pay12 (labB m c t)) (acc0 m c (t.val - 1) (Nat.lt_of_le_of_lt (Nat.sub_le _ _) t.isLt))) := by
  rw [outsAt0_C m c t h0 h1]
  dsimp only
  exact out_C_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-- What the last point writes into the output that holds the mean divergence. -/
theorem out6_C (c : Dev nD) (t : Fin cfg0.N) (h0 : ¬t.val % 128 = 0) (h1 : t.val % 128 = 127) :
    (outsAt0 m c t.val t.isLt).2.2.1 = k0_pay4 (k0_pay1 (k0_pay14 (lgB m c t) (sfB m c t) (k0_pay10 (cfB m c t)) (acc1 m c (t.val - 1) (Nat.lt_of_le_of_lt (Nat.sub_le _ _) t.isLt)))) := by
  rw [outsAt0_C m c t h0 h1]
  dsimp only
  exact out_C_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

/-- What the last point writes into the output that holds the mean temperature. -/
theorem out7_C (c : Dev nD) (t : Fin cfg0.N) (h0 : ¬t.val % 128 = 0) (h1 : t.val % 128 = 127) :
    (outsAt0 m c t.val t.isLt).2.2.2.1 = k0_pay5 (k0_pay2 (k0_pay10 (cfB m c t)) (acc2 m c (t.val - 1) (Nat.lt_of_le_of_lt (Nat.sub_le _ _) t.isLt))) := by
  rw [outsAt0_C m c t h0 h1]
  dsimp only
  exact out_C_7 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _

end Cert.Loss.Ker

end
-- ==== Proof.Spec.lean ====
/-
  The loss as one function of the four argument arrays, over the extended reals.

  For a row of logits x : Fin 32000 → EReal write M x for its maximum (the fold of max from ⊥) and
  lsm x j = (x j - M x) - log (∑ k, exp (x k - M x)), the row's log-softmax at column j.
  Each sample i has a temperature temp (conf i): 3/2 above the word 0.9, else 2 above the word 0.6, else
  min (5/2 + (0.6 - conf) · 2) 3 (the two thresholds are the same f32 words on both sides and are never evaluated).
  The three sums over the batch are
    ceSum  = ∑ i, lsm (logits i) (label i),
    klSum  = ∑ i, ∑ j, (xlx (soft i j) - soft i j · lsm (logits i / temp (conf i)) j),
    tSum   = ∑ i, temp (conf i),
  with xlx s = s · log s for s ≠ 0 and 0 at s = 0, and the four results are
    ce = -(ceSum / 4096), kl = klSum / 4096, total = 1/2 · kl + 1/2 · ce, avgTemp = tSum / 4096.
  Both programs compute these; they differ in how the sums are grouped (blocks of 32 rows against the whole batch), in how
  the labelled column is picked (a sum against a column mask, against an indexed read), and in the test that guards
  s · log s (s > 0 against s ≠ 0, the same on s ≥ 0). Regrouping a finite sum is a law of the commutative monoid
  (EReal, +), so nothing here needs the inputs to be finite.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Fin

noncomputable section

namespace Cert.Loss

open Idealize.ShloMosaic

/-- Picking one column by a sum against its indicator: the other columns add 0. A law of any additive commutative
    monoid, so it holds of the extended reals whatever the picked value is (an infinity included). -/
theorem sum_pick {n : Nat} (h : Fin n) (f : Fin n → EReal) :
    (∑ j : Fin n, if j = h then f j else 0) = f h := by
  rw [Finset.sum_ite_eq' Finset.univ h f]
  simp

/-- Summing 4096 = 128 · 32 rows block by block: the sum over the batch is the sum over the 128 blocks of each
    block's 32 rows. Again only commutativity and associativity of +. -/
theorem sum_blocks (f : Fin 4096 → EReal) :
    (∑ i : Fin 4096, f i) = ∑ b : Fin 128, ∑ r : Fin 32, f ⟨b.val * 32 + r.val, by omega⟩ := by
  let e : Fin 128 × Fin 32 ≃ Fin 4096 :=
    { toFun := fun p => ⟨p.1.val * 32 + p.2.val, by omega⟩
      invFun := fun i => (⟨i.val / 32, by omega⟩, ⟨i.val % 32, Nat.mod_lt _ (by norm_num)⟩)
      left_inv := fun p => by
        rcases p with ⟨b, r⟩
        ext <;> simp <;> omega
      right_inv := fun i => by
        ext; simp; omega }
  rw [← Finset.sum_product', ← e.sum_comp]
  rfl

/-- The entropy term s · log s with the value 0 at s = 0, guarded as the reference guards it: the product is used
    wherever s ≠ 0 (the second test, s ≠ s, never holds of an extended real). -/
def xlxRef (s : EReal) : EReal :=
  Scalar.select (IntOp.ori (Ideal.cmp .une s 0) (Ideal.cmp .une s s)) (s * Ideal.log s) 0

/-- The same term guarded as the kernel guards it: the product is used where s > 0, and the logarithm is taken of
    s there and of 1 elsewhere. -/
def xlxKer (s : EReal) : EReal :=
  Scalar.select (Ideal.cmp .ogt s 0) (s * Ideal.log (Scalar.select (Ideal.cmp .ogt s 0) s 1)) 0

/-- On s ≥ 0 the two guards select the same value: at s = 0 both give 0, and for s > 0 both give s · log s.
    (For s < 0 they differ: the kernel's is 0 and the reference's is s · log s with log s the junk value ⊥.) -/
theorem xlx_agree {s : EReal} (hs : 0 ≤ s) : xlxKer s = xlxRef s := by
  rcases hs.eq_or_lt with h0 | hpos
  · subst h0
    simp [xlxKer, xlxRef, Ideal.cmp, Scalar.select, IntOp.ori]
  · have hne : s ≠ 0 := ne_of_gt hpos
    simp [xlxKer, xlxRef, Ideal.cmp, Scalar.select, IntOp.ori, hpos, hne]

/-! ## The loss, as functions of the argument arrays

Rows are Fin 4096 and columns Fin 32000; lg and sf are the logits and the soft labels, cf the confidences, lab the
label words. The constants are the f32 words both programs carry; a word is never evaluated here. -/

/-- The threshold words 0.6 and 0.9, and the values 3/2, 2, 5/2, 3, 1/2, 4096 as the words that denote them. -/
abbrev w06 : EReal := Ideal.ofBits .f32 0x3F19999A#32
abbrev w09 : EReal := Ideal.ofBits .f32 0x3F666666#32
abbrev w15 : EReal := Ideal.ofBits .f32 0x3FC00000#32
abbrev w2 : EReal := Ideal.ofBits .f32 0x40000000#32
abbrev w25 : EReal := Ideal.ofBits .f32 0x40200000#32
abbrev w3 : EReal := Ideal.ofBits .f32 0x40400000#32
abbrev w05 : EReal := Ideal.ofBits .f32 0x3F000000#32
abbrev w4096 : EReal := Ideal.ofBits .f32 0x45800000#32

/-- A sample's temperature from its confidence c: 3/2 if c > 0.9, else 2 if c > 0.6, else min (5/2 + (0.6 - c) · 2) 3. -/
def temp (c : EReal) : EReal :=
  Scalar.select (Ideal.cmp .ogt c w09) w15
    (Scalar.select (Ideal.cmp .ogt c w06) w2 (min (w25 + (w06 - c) * w2) w3))

/-- A row's maximum: the fold of max from ⊥ over its 32000 columns. -/
def rowMax (x : Fin 32000 → EReal) : EReal := (Finset.univ : Finset (Fin 32000)).fold max ⊥ x

/-- A row's log-softmax at column j: (x j - M) - log (∑ k, exp (x k - M)) with M the row's maximum. -/
def lsm (x : Fin 32000 → EReal) (j : Fin 32000) : EReal :=
  (x j - rowMax x) - Ideal.log (∑ k : Fin 32000, Ideal.exp (x k - rowMax x))

/-- Sample i's cross-entropy term: its log-softmax at the labelled column, written as the sum over the columns of the
    log-softmax against the indicator of the label's number (0 for a label no column carries). -/
def ceRow (lg : Fin 4096 → Fin 32000 → EReal) (lab : Fin 4096 → BitVec 32) (i : Fin 4096) : EReal :=
  ∑ j : Fin 32000, if j.val = (lab i).toNat then lsm (lg i) j else 0

/-- Sample i's divergence term: ∑ j, (s · log s - s · lsm (logits / temperature) j) over its soft labels s. -/
def klRow (lg sf : Fin 4096 → Fin 32000 → EReal) (cf : Fin 4096 → EReal) (i : Fin 4096) : EReal :=
  ∑ j : Fin 32000, (xlxKer (sf i j) - sf i j * lsm (fun k => Ideal.div (lg i k) (temp (cf i))) j)

/-- The mean cross-entropy, negated: -((∑ i, ceRow i) / 4096). -/
def ce (lg : Fin 4096 → Fin 32000 → EReal) (lab : Fin 4096 → BitVec 32) : EReal :=
  -(Ideal.div (∑ i : Fin 4096, ceRow lg lab i) w4096)

/-- The mean divergence: (∑ i, klRow i) / 4096. -/
def kl (lg sf : Fin 4096 → Fin 32000 → EReal) (cf : Fin 4096 → EReal) : EReal :=
  Ideal.div (∑ i : Fin 4096, klRow lg sf cf i) w4096

/-- The loss: 1/2 · kl + 1/2 · ce. -/
def total (lg sf : Fin 4096 → Fin 32000 → EReal) (lab : Fin 4096 → BitVec 32) (cf : Fin 4096 → EReal) : EReal :=
  w05 * kl lg sf cf + w05 * ce lg lab

/-- The mean temperature: (∑ i, temp (cf i)) / 4096. -/
def avgTemp (cf : Fin 4096 → EReal) : EReal := Ideal.div (∑ i : Fin 4096, temp (cf i)) w4096

/-- With the label's number below 32000 the cross-entropy term is the log-softmax at that column. -/
theorem ceRow_eq (lg : Fin 4096 → Fin 32000 → EReal) (lab : Fin 4096 → BitVec 32) (i : Fin 4096)
    (h : (lab i).toNat < 32000) : ceRow lg lab i = lsm (lg i) ⟨(lab i).toNat, h⟩ := by
  unfold ceRow
  rw [← sum_pick (⟨(lab i).toNat, h⟩ : Fin 32000) (lsm (lg i))]
  refine Finset.sum_congr rfl fun j _ => ?_
  simp only [Fin.ext_iff]

end Cert.Loss

end
-- ==== Proof.RowReduce.lean ====
/-
  Row reductions at the shapes of this loss. A reduction of a [rows × 32000] array over its columns, read at row p,
  ranges over the entries (p, k), k < 32000: the reduced index with column k put back is (p, k). With that, the
  maximum taken from −∞ is the row's maximum (the fold of max from ⊥), whether a vector unit's reduction or the
  host's reduce computes it, and a vector unit's sum over the columns is the row's sum.
-/
import Idealize.ShloMosaic.PureOps.Ideal.Laws
import Idealize.ShloMosaic.PureOps.Reduce
import Idealize.ShloMosaic.Lib.ValueIdx
import proofs.«423406_j41034117546381_2_alg».proof.Proof.Spec

noncomputable section

namespace Cert.Loss.Row

open Idealize.ShloMosaic Idealize.ShloMosaic.ValueIdx

/-- The word 0xFF800000 denotes −∞, the bottom of the extended reals. -/
theorem ofBits_negInf : Ideal.ofBits .f32 0xFF800000#32 = (⊥ : EReal) := by
  simp [Ideal.ofBits, Ideal.ieee]

/-- Row p of an [n × 32000] array with column k put back is the entry (p, k). -/
theorem lift_row {n : Nat} (h : (⟨2, ![n, 32000]⟩ : Shape).Reduces [1] (⟨1, ![n]⟩ : Shape)) (p : Fin n)
    (k : Fin ((⟨2, ![n, 32000]⟩ : Shape).size 1)) : h.lift (ix1 p) k = ix2 p (⟨k.val, k.isLt⟩ : Fin 32000) := by
  funext c; apply Fin.ext
  fin_cases c <;> rfl

/-- A vector unit's maximum over the columns, from −∞, at row p: the row's maximum. -/
theorem vecMax_row {n : Nat} (v : FVec Ideal ⟨2, ![n, 32000]⟩ .f32)
    (h : (⟨2, ![n, 32000]⟩ : Shape).Reduces [1] (⟨1, ![n]⟩ : Shape)) (hφ : FKind.Formats .f32)
    (hacc : (0xFF800000#32 : BitVec 32) = FKind.maximumf.neutral .f32 hφ) (p : Fin n) :
    multiReduction .maximumf [1] (⟨1, ![n]⟩ : Shape) v 0xFF800000#32 h hφ hacc (ix1 p)
      = rowMax fun k => v (ix2 p k) := by
  rw [Ideal.multiReduction_maximumf_single v _ h hφ hacc (ix1 p)]
  unfold rowMax
  have hf : (v ∘ h.lift (ix1 p)) = fun k : Fin 32000 => v (ix2 p k) := funext fun k => congrArg v (lift_row h p k)
  show Finset.fold max (FloatOps.ofBits .f32 0xFF800000#32) (v ∘ h.lift (ix1 p)) (Finset.univ : Finset (Fin 32000)) = _
  rw [hf]
  exact congrArg (fun b => Finset.fold max b (fun k : Fin 32000 => v (ix2 p k)) Finset.univ) ofBits_negInf

/-- The host's reduce with a maximum body over the columns, from −∞, at row p: the row's maximum. -/
theorem hostMax_row {n : Nat} (x : FVec Ideal ⟨2, ![n, 32000]⟩ .f32)
    (h' : (⟨2, ![n, 32000]⟩ : Shape).ReducesTo [1] (⟨1, ![n]⟩ : Shape))
    (h : (⟨2, ![n, 32000]⟩ : Shape).Reduces [1] (⟨1, ![n]⟩ : Shape)) (hu : 0 < (⟨0, ![]⟩ : Shape).numel) (p : Fin n) :
    Host.reduce FloatOps.maximumf x (constant (F := Ideal) (⟨0, ![]⟩ : Shape) .f32 0xFF800000#32) h' hu (ix1 p)
      = rowMax fun k => x (ix2 p k) := by
  rw [Host.reduce_eq_fold_single FloatOps.maximumf x _ h' h hu]
  unfold rowMax
  have hf : (x ∘ h.lift (ix1 p)) = fun k : Fin 32000 => x (ix2 p k) := funext fun k => congrArg x (lift_row h p k)
  show Finset.fold max (Ideal.ofBits .f32 0xFF800000#32) (x ∘ h.lift (ix1 p)) (Finset.univ : Finset (Fin 32000)) = _
  rw [hf]
  exact congrArg (fun b => Finset.fold max b (fun k : Fin 32000 => x (ix2 p k)) Finset.univ) ofBits_negInf

/-- A vector unit's sum over the columns, from 0, at row p: the row's sum. -/
theorem vecSum_row {n : Nat} (v : FVec Ideal ⟨2, ![n, 32000]⟩ .f32)
    (h : (⟨2, ![n, 32000]⟩ : Shape).Reduces [1] (⟨1, ![n]⟩ : Shape)) (hφ : FKind.Formats .f32)
    (hacc : (0x00000000#32 : BitVec 32) = FKind.add.neutral .f32 hφ) (p : Fin n) :
    multiReduction .add [1] (⟨1, ![n]⟩ : Shape) v 0x00000000#32 h hφ hacc (ix1 p) = ∑ k : Fin 32000, v (ix2 p k) := by
  rw [Ideal.multiReduction_add_single v _ h hφ hacc (ix1 p)]
  exact Finset.sum_congr rfl fun k _ => congrArg v (lift_row h p k)

/-- The maximum of −∞ and a value is the value (the reference takes this maximum once more after its reduce). -/
theorem max_bot_left (y : EReal) : max (⊥ : EReal) y = y := max_eq_right bot_le

/-- 0 − x is −x on the extended reals (the kernel negates the mean by subtracting it from 0). -/
theorem zero_sub_eq_neg (x : EReal) : (0 : EReal) - x = -x := by
  rw [sub_eq_add_neg, zero_add]

end Cert.Loss.Row

end
-- ==== Proof.Layout.lean ====
/-
  Re-layings of small vectors, read at an index. A vector of n entries kept as an [n × 1] column reads, at (r, 0), its
  entry r; such a column spread over m columns reads, at (r, j), the column's entry (r, 0); a one-entry vector kept as a
  [1 × 1] array reads its entry; and the sum of an [n × 1] column over its rows is the sum of its n entries.
-/
import Idealize.ShloMosaic.Lib.Pipeline.Value
import Idealize.ShloMosaic.Lib.ValueIdx
import Idealize.ShloMosaic.PureOps.Ideal.Laws

noncomputable section

namespace Cert.Loss.Lay

open Idealize.ShloMosaic Idealize.ShloMosaic.ValueIdx

variable {α : Type}

/-- [n] kept as an [n × 1] column: the entry (r, 0) is entry r. -/
theorem col_of_vec {n : Nat} (v : (⟨1, ![n]⟩ : Shape).Idx → α)
    (h : (⟨1, ![n]⟩ : Shape).ShapeCasts (⟨2, ![n, 1]⟩ : Shape)) (r : Fin n) :
    shapeCast (⟨2, ![n, 1]⟩ : Shape) v h (ix2 r (0 : Fin 1)) = v (ix1 r) := by
  refine shapeCast_apply v h _ _ ?_
  rw [Shape.rowMajor_val_one, Shape.rowMajor_val_two]
  show r.val = r.val * 1 + (0 : Fin 1).val
  simp

/-- An [n × 1] column spread over m columns: the entry (r, j) is the column's entry (r, 0). -/
theorem spread_col {n m : Nat} (u : (⟨2, ![n, 1]⟩ : Shape).Idx → α)
    (h : (⟨2, ![n, 1]⟩ : Shape).Broadcasts (⟨2, ![n, m]⟩ : Shape)) (hn : n ≠ 1) (r : Fin n) (j : Fin m) :
    broadcastTo (⟨2, ![n, m]⟩ : Shape) u h (ix2 r j) = u (ix2 r (0 : Fin 1)) := by
  refine broadcastTo_apply u h _ _ fun a => ?_
  fin_cases a
  · simp [hn]
  · simp

/-- A one-entry vector kept as a [1 × 1] array reads its entry. -/
theorem one_of_vec1 (v : (⟨1, ![1]⟩ : Shape).Idx → α)
    (h : (⟨1, ![1]⟩ : Shape).ShapeCasts (⟨2, ![1, 1]⟩ : Shape)) :
    shapeCast (⟨2, ![1, 1]⟩ : Shape) v h (ix2 (0 : Fin 1) (0 : Fin 1)) = v (ix1 (0 : Fin 1)) :=
  col_of_vec v h 0

/-- The reduced index of a sum of an [n × 1] column over its rows, with row k put back, is (k, 0). -/
theorem lift_rows {n : Nat} (h : (⟨2, ![n, 1]⟩ : Shape).Reduces [0] (⟨1, ![1]⟩ : Shape))
    (k : Fin ((⟨2, ![n, 1]⟩ : Shape).size 0)) :
    h.lift (ix1 (0 : Fin 1)) k = ix2 (⟨k.val, k.isLt⟩ : Fin n) (0 : Fin 1) := by
  funext c; apply Fin.ext
  fin_cases c <;> rfl

/-- A vector unit's sum of an [n × 1] column over its rows, from 0: the sum of the n entries. -/
theorem sum_rows {n : Nat} (v : FVec Ideal (⟨2, ![n, 1]⟩ : Shape) .f32)
    (h : (⟨2, ![n, 1]⟩ : Shape).Reduces [0] (⟨1, ![1]⟩ : Shape)) (hφ : FKind.Formats .f32)
    (hacc : (0x00000000#32 : BitVec 32) = FKind.add.neutral .f32 hφ) :
    multiReduction .add [0] (⟨1, ![1]⟩ : Shape) v 0x00000000#32 h hφ hacc (ix1 (0 : Fin 1))
      = ∑ r : Fin n, v (ix2 r (0 : Fin 1)) := by
  rw [Ideal.multiReduction_add_single v _ h hφ hacc (ix1 (0 : Fin 1))]
  exact Finset.sum_congr rfl fun k _ => congrArg v (lift_rows h k)

end Cert.Loss.Lay

end
-- ==== Proof.PayValue.lean ====
/-
  The body's arithmetic, read as numbers. Each store's value is a pure function of the point's input blocks and of the
  accumulators' old contents; here each is read, over the extended reals, at the one index of a [1 × 1] array (or at a
  row of a 32-row column): the three zeros of the first point; the temperature of each of the block's 32 samples; the
  accumulators' updates as the old value plus a sum over the block; and the four results as quotients by 4096.
-/
import proofs.«423406_j41034117546381_2_alg».proof.Proof.Gen.KernelIdeal.Skeleton
import proofs.«423406_j41034117546381_2_alg».proof.Proof.Spec
import proofs.«423406_j41034117546381_2_alg».proof.Proof.RowReduce
import proofs.«423406_j41034117546381_2_alg».proof.Proof.Layout
import Idealize.ShloMosaic.Lib.IdealHost

noncomputable section

namespace Cert.Loss.Pay

open Cert.KernelIdeal Cert.KernelIdeal.Gen Cert.Loss
open Idealize.ShloMosaic Idealize.ShloMosaic.TcCoe Idealize.ShloMosaic.ValueIdx

/-- The one index of a [1 × 1] array. -/
abbrev o : S1x1.Idx := ix2 (0 : Fin 1) (0 : Fin 1)

/-- Every index of a [1 × 1] array is that one. -/
theorem idx_eq_o (y : S1x1.Idx) : y = o := by
  funext a
  apply Fin.ext
  have hb : (y a).val < 1 := by
    have := (y a).isLt
    fin_cases a <;> simpa using this
  fin_cases a <;> (show (y _).val = 0; omega)

/-- The first point stores the zero word, which denotes 0. -/
theorem pay7_zero (y : S1x1.Idx) : k0_pay7 (F := Ideal) y = 0 := by
  show Ideal.ofBits .f32 0x00000000#32 = 0
  exact Ideal.ofBits_zero_f32
theorem pay8_zero (y : S1x1.Idx) : k0_pay8 (F := Ideal) y = 0 := by
  show Ideal.ofBits .f32 0x00000000#32 = 0
  exact Ideal.ofBits_zero_f32
theorem pay9_zero (y : S1x1.Idx) : k0_pay9 (F := Ideal) y = 0 := by
  show Ideal.ofBits .f32 0x00000000#32 = 0
  exact Ideal.ofBits_zero_f32

/-- The re-laying of a [1 × 1] value as a [1 × 1] value is the value. -/
theorem pay1_id (v : FVec Ideal S1x1 .f32) : k0_pay1 v = v := by
  unfold k0_pay1
  exact shapeCast_self v _

/-- A sample's temperature, entry by entry of the block's column of confidences. -/
theorem pay10_apply (x3 : Vec Ideal S32x1 .f32) (y : S32x1.Idx) : k0_pay10 x3 y = temp (x3 y) := by
  unfold k0_pay10
  simp only [shapeCast_self]
  rfl

/-- The mean divergence written at the end: the accumulator divided by 4096. -/
theorem pay4_apply (s : Vec Ideal S1x1 .f32) (y : S1x1.Idx) : k0_pay4 s y = Ideal.div (s y) w4096 := rfl

/-- The mean temperature written at the end: the accumulator divided by 4096. -/
theorem pay5_apply (s : Vec Ideal S1x1 .f32) (y : S1x1.Idx) : k0_pay5 s y = Ideal.div (s y) w4096 := rfl

/-- The negated mean cross-entropy written at the end: 0 minus the accumulator divided by 4096, that is its negation. -/
theorem pay3_apply (s : Vec Ideal S1x1 .f32) (y : S1x1.Idx) : k0_pay3 s y = -(Ideal.div (s y) w4096) := by
  show Ideal.ofBits .f32 0x00000000#32 - Ideal.div (s y) w4096 = _
  rw [Ideal.ofBits_zero_f32, Row.zero_sub_eq_neg]

/-- The loss written at the end: half the mean divergence plus half the negated mean cross-entropy. -/
theorem pay6_apply (s0 s1 : Vec Ideal S1x1 .f32) (y : S1x1.Idx) :
    k0_pay6 s0 s1 y = w05 * Ideal.div (s1 y) w4096 + w05 * -(Ideal.div (s0 y) w4096) := by
  show w05 * k0_pay4 s1 y + w05 * k0_pay3 s0 y = _
  rw [pay4_apply, pay3_apply]

/-- The temperature accumulator's update: the old value plus the sum of the block's 32 temperatures. -/
theorem pay2_apply (tmp : FVec Ideal S32x1 .f32) (old : Vec Ideal S1x1 .f32) :
    k0_pay2 tmp old o = old o + ∑ r : Fin 32, tmp (ix2 r (0 : Fin 1)) := by
  unfold k0_pay2
  simp only [shapeCast_self]
  show old o + shapeCast S1x1 (multiReduction .add [0] S1 tmp 0x00000000#32 reduces_S32x1_S1 (.inl rfl) rfl) shapeCasts_S1_S1x1 o = _
  refine congrArg (fun z => old o + z) ?_
  exact (Lay.one_of_vec1 _ _).trans (Lay.sum_rows tmp reduces_S32x1_S1 (.inl rfl) rfl)

/-! ## A block's log-softmax, its column mask, and the two sums over the block -/

/-- A block's row maxima, kept as a column and spread over the 32000 columns. -/
abbrev maxSpread (x : Vec Ideal S32x32000 .f32) : FVec Ideal S32x32000 .f32 :=
  broadcastTo S32x32000 (shapeCast S32x1 (multiReduction (F := Ideal) .maximumf [1] S32 x 0xFF800000#32 reduces_S32x32000_S32 (.inl rfl) rfl)
    shapeCasts_S32_S32x1) broadcasts_S32x1_S32x32000

/-- At (r, k) it is the maximum of row r. -/
theorem maxSpread_apply (x : Vec Ideal S32x32000 .f32) (r : Fin 32) (k : Fin 32000) :
    maxSpread x (ix2 r k) = rowMax fun k => x (ix2 r k) :=
  (Lay.spread_col _ _ (by decide) r k).trans
    ((Lay.col_of_vec _ _ r).trans (Row.vecMax_row x reduces_S32x32000_S32 (.inl rfl) rfl r))

/-- A block's row sums, kept as a column. -/
abbrev sumCol (v : FVec Ideal S32x32000 .f32) : FVec Ideal S32x1 .f32 :=
  shapeCast S32x1 (multiReduction (F := Ideal) .add [1] S32 v 0x00000000#32 reduces_S32x32000_S32 (.inl rfl) rfl) shapeCasts_S32_S32x1

/-- At (r, 0) it is the sum of row r. -/
theorem sumCol_apply (v : FVec Ideal S32x32000 .f32) (r : Fin 32) :
    sumCol v (ix2 r (0 : Fin 1)) = ∑ k : Fin 32000, v (ix2 r k) :=
  (Lay.col_of_vec _ _ r).trans (Row.vecSum_row v reduces_S32x32000_S32 (.inl rfl) rfl r)

/-- The block shifted by its row maxima. -/
abbrev shifted (x : Vec Ideal S32x32000 .f32) : FVec Ideal S32x32000 .f32 := subf x (maxSpread x)

theorem shifted_apply (x : Vec Ideal S32x32000 .f32) (r : Fin 32) (k : Fin 32000) :
    shifted x (ix2 r k) = x (ix2 r k) - rowMax fun k => x (ix2 r k) := by
  show x (ix2 r k) - maxSpread x (ix2 r k) = _
  rw [maxSpread_apply]

/-- The logarithm of the row sums of the exponentials, spread over the columns. -/
abbrev logSumSpread (x : Vec Ideal S32x32000 .f32) : FVec Ideal S32x32000 .f32 :=
  broadcastTo S32x32000 (log (sumCol (exp (shifted x)))) broadcasts_S32x1_S32x32000

/-- The logarithm of a 32-entry column, spread over the columns: at (r, j) the logarithm of the column's entry r. -/
theorem spread_log (u : FVec Ideal S32x1 .f32) (r : Fin 32) (j : Fin 32000) :
    broadcastTo S32x32000 (log u) broadcasts_S32x1_S32x32000 (ix2 r j) = Ideal.log (u (ix2 r (0 : Fin 1))) :=
  Lay.spread_col (log u) broadcasts_S32x1_S32x32000 (by decide) r j

/-- A row's sum of the exponentials of the shifted entries. -/
theorem sumExp_apply (x : Vec Ideal S32x32000 .f32) (r : Fin 32) :
    sumCol (exp (shifted x)) (ix2 r (0 : Fin 1)) = ∑ k : Fin 32000, Ideal.exp (x (ix2 r k) - rowMax fun k => x (ix2 r k)) := by
  rw [sumCol_apply]
  refine Finset.sum_congr rfl fun k _ => ?_
  show Ideal.exp (shifted x (ix2 r k)) = _
  rw [shifted_apply]

theorem logSumSpread_apply (x : Vec Ideal S32x32000 .f32) (r : Fin 32) (j : Fin 32000) :
    logSumSpread x (ix2 r j) = Ideal.log (∑ k : Fin 32000, Ideal.exp (x (ix2 r k) - rowMax fun k => x (ix2 r k))) :=
  (spread_log (sumCol (exp (shifted x))) r j).trans (congrArg Ideal.log (sumExp_apply x r))

/-- The body's log-softmax of a block is the shifted block minus that logarithm. -/
theorem pay11_eq (x : Vec Ideal S32x32000 .f32) : k0_pay11 x = subf (shifted x) (logSumSpread x) := rfl

/-- So at (r, j) it is row r's log-softmax at column j. -/
theorem lsmBlock (x : Vec Ideal S32x32000 .f32) (r : Fin 32) (j : Fin 32000) :
    k0_pay11 x (ix2 r j) = lsm (fun k => x (ix2 r k)) j := by
  rw [pay11_eq]
  show shifted x (ix2 r j) - logSumSpread x (ix2 r j) = _
  rw [shifted_apply, logSumSpread_apply]
  rfl

/-! ## The column mask and the two accumulator updates -/

/-- The column mask of a block: at (r, j) the bit that says column j, as a word, equals row r's label. -/
theorem maskBlock (x2 : Vec Ideal S32x1 .i32) (r : Fin 32) (j : Fin 32000) :
    k0_pay12 (F := Ideal) x2 (ix2 r j) = IntOp.cmpi .eq (BitVec.ofNat 32 j.val) (x2 (ix2 r (0 : Fin 1))) := by
  unfold k0_pay12
  simp only [shapeCast_self]
  show IntOp.cmpi .eq (iota .tc S32x32000 32 [1] iota_S32x32000_d1_w32 (ix2 r j))
      (broadcastTo S32x32000 x2 broadcasts_S32x1_S32x32000 (ix2 r j)) = _
  rw [iota_single_apply, Lay.spread_col x2 broadcasts_S32x1_S32x32000 (by decide) r j]

/-- The sum of a 32-entry column over its rows, kept as a [1 × 1] value: the sum of the 32 entries. -/
abbrev totalCol (u : FVec Ideal S32x1 .f32) : FVec Ideal S1x1 .f32 :=
  shapeCast S1x1 (multiReduction (F := Ideal) .add [0] S1 u 0x00000000#32 reduces_S32x1_S1 (.inl rfl) rfl) shapeCasts_S1_S1x1

theorem totalCol_apply (u : FVec Ideal S32x1 .f32) : totalCol u o = ∑ r : Fin 32, u (ix2 r (0 : Fin 1)) :=
  (Lay.one_of_vec1 _ _).trans (Lay.sum_rows u reduces_S32x1_S1 (.inl rfl) rfl)

/-- The sum of a whole 32-row block, row sums first: the double sum over rows and columns. -/
theorem totalBlock_apply (v : FVec Ideal S32x32000 .f32) :
    totalCol (sumCol v) o = ∑ r : Fin 32, ∑ k : Fin 32000, v (ix2 r k) := by
  rw [totalCol_apply]
  exact Finset.sum_congr rfl fun r _ => sumCol_apply v r

/-- The body's cross-entropy update is the old value plus the block total of the masked log-softmax. -/
theorem pay13_eq (v34 : FVec Ideal S32x32000 .f32) (v37 : IVec S32x32000 1) (old : Vec Ideal S1x1 .f32) :
    k0_pay13 v34 v37 old = addf old (totalCol (sumCol (select v37 v34 (broadcast S32x32000 (Scalar.ofBits (F := Ideal) .f32 0x00000000#32))))) := by
  unfold k0_pay13
  simp only [shapeCast_self]

/-- At its one index: the old value plus, over the block's rows and columns, the log-softmax where the mask is set and 0 elsewhere. -/
theorem pay13_apply (v34 : FVec Ideal S32x32000 .f32) (v37 : IVec S32x32000 1) (old : Vec Ideal S1x1 .f32) :
    k0_pay13 v34 v37 old o = old o + ∑ r : Fin 32, ∑ j : Fin 32000, Scalar.select (v37 (ix2 r j)) (v34 (ix2 r j)) 0 := by
  rw [pay13_eq]
  show old o + totalCol (sumCol (select v37 v34 (broadcast S32x32000 (Scalar.ofBits (F := Ideal) .f32 0x00000000#32)))) o = _
  rw [totalBlock_apply]
  refine congrArg (fun z => old o + z) (Finset.sum_congr rfl fun r _ => Finset.sum_congr rfl fun j _ => ?_)
  show Scalar.select (v37 (ix2 r j)) (v34 (ix2 r j)) (Ideal.ofBits .f32 0x00000000#32) = _
  rw [Ideal.ofBits_zero_f32]

/-! ## The divergence accumulator's update -/

/-- The entropy term s · log s of each soft label of a block, guarded as the body guards it (the product where s > 0,
    with the logarithm taken of s there and of 1 elsewhere; 0 where s ≤ 0). -/
abbrev xlBlock (x1 : Vec Ideal S32x32000 .f32) : FVec Ideal S32x32000 .f32 :=
  select (cmpf .ogt x1 (broadcast S32x32000 (Scalar.ofBits (F := Ideal) .f32 0x00000000#32)))
    (mulf x1 (log (select (cmpf .ogt x1 (broadcast S32x32000 (Scalar.ofBits (F := Ideal) .f32 0x00000000#32))) x1
      (broadcast S32x32000 (Scalar.ofBits (F := Ideal) .f32 0x3F800000#32)))))
    (broadcast S32x32000 (Scalar.ofBits (F := Ideal) .f32 0x00000000#32))

theorem xlBlock_apply (x1 : Vec Ideal S32x32000 .f32) (i : S32x32000.Idx) : xlBlock x1 i = xlxKer (x1 i) := by
  show Scalar.select (Ideal.cmp .ogt (x1 i) (Ideal.ofBits .f32 0x00000000#32))
      (x1 i * Ideal.log (Scalar.select (Ideal.cmp .ogt (x1 i) (Ideal.ofBits .f32 0x00000000#32)) (x1 i) (Ideal.ofBits .f32 0x3F800000#32)))
      (Ideal.ofBits .f32 0x00000000#32) = _
  rw [Ideal.ofBits_zero_f32, Ideal.ofBits_one_f32]
  rfl

/-- The block of logits divided, row by row, by the row's temperature. -/
abbrev scaled (x0 : Vec Ideal S32x32000 .f32) (tmp : FVec Ideal S32x1 .f32) : FVec Ideal S32x32000 .f32 :=
  divf x0 (broadcastTo S32x32000 tmp broadcasts_S32x1_S32x32000)

theorem scaled_apply (x0 : Vec Ideal S32x32000 .f32) (tmp : FVec Ideal S32x1 .f32) (r : Fin 32) (k : Fin 32000) :
    scaled x0 tmp (ix2 r k) = Ideal.div (x0 (ix2 r k)) (tmp (ix2 r (0 : Fin 1))) := by
  show Ideal.div (x0 (ix2 r k)) (broadcastTo S32x32000 tmp broadcasts_S32x1_S32x32000 (ix2 r k)) = _
  rw [Lay.spread_col tmp broadcasts_S32x1_S32x32000 (by decide) r k]

/-- The body's divergence update: the old value plus the block total of (entropy term − soft label · log-softmax of the
    scaled logits). -/
theorem pay14_eq (x0 x1 : Vec Ideal S32x32000 .f32) (tmp : FVec Ideal S32x1 .f32) (old : Vec Ideal S1x1 .f32) :
    k0_pay14 x0 x1 tmp old = addf old (totalCol (sumCol (subf (xlBlock x1)
      (mulf x1 (subf (shifted (scaled x0 tmp)) (logSumSpread (scaled x0 tmp))))))) := rfl

theorem pay14_apply (x0 x1 : Vec Ideal S32x32000 .f32) (tmp : FVec Ideal S32x1 .f32) (old : Vec Ideal S1x1 .f32) :
    k0_pay14 x0 x1 tmp old o = old o + ∑ r : Fin 32, ∑ j : Fin 32000,
      (xlxKer (x1 (ix2 r j)) - x1 (ix2 r j) * lsm (fun k => Ideal.div (x0 (ix2 r k)) (tmp (ix2 r (0 : Fin 1)))) j) := by
  rw [pay14_eq]
  show old o + totalCol (sumCol (subf (xlBlock x1) (mulf x1 (subf (shifted (scaled x0 tmp)) (logSumSpread (scaled x0 tmp)))))) o = _
  rw [totalBlock_apply]
  refine congrArg (fun z => old o + z) (Finset.sum_congr rfl fun r _ => Finset.sum_congr rfl fun j _ => ?_)
  show xlBlock x1 (ix2 r j) - x1 (ix2 r j) * (subf (shifted (scaled x0 tmp)) (logSumSpread (scaled x0 tmp))) (ix2 r j) = _
  rw [xlBlock_apply, ← pay11_eq, lsmBlock]
  refine congrArg (fun f => xlxKer (x1 (ix2 r j)) - x1 (ix2 r j) * lsm f j) (funext fun k => ?_)
  exact scaled_apply x0 tmp r k

end Cert.Loss.Pay

end
-- ==== Proof.AccumValue.lean ====
/-
  The accumulators as sums over the blocks. Over the extended reals each accumulator, after point n, is the sum over
  the points 0..n of that point's contribution: the first point stores 0 and adds its block, every later point adds
  its block to what the point before left. The contributions are sums over the block's 32 rows (and 32000 columns) of
  the masked log-softmax, of the divergence term, and of the temperature.
-/
import proofs.«423406_j41034117546381_2_alg».proof.Proof.Accum
import proofs.«423406_j41034117546381_2_alg».proof.Proof.PayValue

set_option maxRecDepth 16384

noncomputable section

namespace Cert.Loss.Ker

open Cert.KernelIdeal Cert.KernelIdeal.Gen Cert.Loss Cert.Loss.Pay
open Idealize.ShloMosaic Idealize.ShloMosaic.TcCoe Idealize.ShloMosaic.ValueIdx

variable (m : (ℓ : Loc nD τ sig) → Buf (Elt Ideal) ℓ)

/-- A quantity that starts at 0 plus the first term and grows by one term per step is the sum of the terms so far. -/
theorem sum_of_steps {N : ℕ} (a : (n : ℕ) → n < N → EReal) (f : Fin N → EReal)
    (h0 : ∀ h : 0 < N, a 0 h = 0 + f ⟨0, h⟩)
    (hs : ∀ n (h : n + 1 < N), a (n + 1) h = a n (Nat.lt_of_succ_lt h) + f ⟨n + 1, h⟩) :
    ∀ n (hn : n < N), a n hn = ∑ b : Fin (n + 1), f ⟨b.val, lt_of_lt_of_le b.isLt hn⟩
  | 0, hn => by rw [h0 hn, zero_add]; simp
  | n + 1, hn => by
    rw [hs n hn, sum_of_steps a f h0 hs n (Nat.lt_of_succ_lt hn)]
    conv_rhs => rw [Fin.sum_univ_castSucc]
    rfl

/-- The grid has 128 points, so a point's number is its own residue modulo 128. -/
theorem val_mod (t : Fin cfg0.N) : t.val % 128 = t.val :=
  Nat.mod_eq_of_lt (lt_of_lt_of_eq t.isLt (show cfg0.N = 128 from N_0))

/-- Point t's contribution to the cross-entropy accumulator: over its 32 rows and the 32000 columns, the log-softmax
    where the column mask is set and 0 elsewhere. -/
def ceB (c : Dev nD) (t : Fin cfg0.N) : EReal :=
  ∑ r : Fin 32, ∑ j : Fin 32000, Scalar.select (k0_pay12 (F := Ideal) (labB m c t) (ix2 r j)) (k0_pay11 (lgB m c t) (ix2 r j)) 0

/-- Point t's contribution to the divergence accumulator. -/
def klB (c : Dev nD) (t : Fin cfg0.N) : EReal :=
  ∑ r : Fin 32, ∑ j : Fin 32000, (xlxKer (sfB m c t (ix2 r j)) - sfB m c t (ix2 r j)
    * lsm (fun k => Ideal.div (lgB m c t (ix2 r k)) (k0_pay10 (cfB m c t) (ix2 r (0 : Fin 1)))) j)

/-- Point t's contribution to the temperature accumulator: the sum of its 32 temperatures. -/
def tB (c : Dev nD) (t : Fin cfg0.N) : EReal := ∑ r : Fin 32, k0_pay10 (cfB m c t) (ix2 r (0 : Fin 1))

/-- The first point leaves 0 plus its contribution in each accumulator. -/
theorem acc_first (c : Dev nD) (h : 0 < cfg0.N) :
    acc0 m c 0 h o = 0 + ceB m c ⟨0, h⟩ ∧ acc1 m c 0 h o = 0 + klB m c ⟨0, h⟩ ∧ acc2 m c 0 h o = 0 + tB m c ⟨0, h⟩ := by
  have h0 : (⟨0, h⟩ : Fin cfg0.N).val % 128 = 0 := rfl
  have h1 : ¬(⟨0, h⟩ : Fin cfg0.N).val % 128 = 127 := by show ¬(0 : ℕ) % 128 = 127; decide
  refine ⟨?_, ?_, ?_⟩
  · rw [show acc0 m c 0 h = _ from acc0_A m c ⟨0, h⟩ h0 h1, pay13_apply, pay7_zero]; rfl
  · rw [show acc1 m c 0 h = _ from acc1_A m c ⟨0, h⟩ h0 h1, pay1_id, pay14_apply, pay8_zero]; rfl
  · rw [show acc2 m c 0 h = _ from acc2_A m c ⟨0, h⟩ h0 h1, pay2_apply, pay9_zero]; rfl

/-- Every later point adds its contribution to what the point before left. -/
theorem acc_step (c : Dev nD) (n : ℕ) (h : n + 1 < cfg0.N) :
    acc0 m c (n + 1) h o = acc0 m c n (Nat.lt_of_succ_lt h) o + ceB m c ⟨n + 1, h⟩
    ∧ acc1 m c (n + 1) h o = acc1 m c n (Nat.lt_of_succ_lt h) o + klB m c ⟨n + 1, h⟩
    ∧ acc2 m c (n + 1) h o = acc2 m c n (Nat.lt_of_succ_lt h) o + tB m c ⟨n + 1, h⟩ := by
  have hN : n + 1 < 128 := lt_of_lt_of_eq h (show cfg0.N = 128 from N_0)
  have h0 : ¬(⟨n + 1, h⟩ : Fin cfg0.N).val % 128 = 0 := by show ¬(n + 1) % 128 = 0; omega
  by_cases h1 : (⟨n + 1, h⟩ : Fin cfg0.N).val % 128 = 127
  · refine ⟨?_, ?_, ?_⟩
    · rw [show acc0 m c (n + 1) h = _ from acc0_C m c ⟨n + 1, h⟩ h0 h1, pay13_apply]; rfl
    · rw [show acc1 m c (n + 1) h = _ from acc1_C m c ⟨n + 1, h⟩ h0 h1, pay1_id, pay14_apply]; rfl
    · rw [show acc2 m c (n + 1) h = _ from acc2_C m c ⟨n + 1, h⟩ h0 h1, pay2_apply]; rfl
  · refine ⟨?_, ?_, ?_⟩
    · rw [show acc0 m c (n + 1) h = _ from acc0_B m c ⟨n + 1, h⟩ h0 h1, pay13_apply]; rfl
    · rw [show acc1 m c (n + 1) h = _ from acc1_B m c ⟨n + 1, h⟩ h0 h1, pay1_id, pay14_apply]; rfl
    · rw [show acc2 m c (n + 1) h = _ from acc2_B m c ⟨n + 1, h⟩ h0 h1, pay2_apply]; rfl

/-- After point n each accumulator holds the sum of the contributions of the points 0..n. -/
theorem acc0_sum (c : Dev nD) (n : ℕ) (hn : n < cfg0.N) :
    acc0 m c n hn o = ∑ b : Fin (n + 1), ceB m c ⟨b.val, lt_of_lt_of_le b.isLt hn⟩ :=
  sum_of_steps (fun n hn => acc0 m c n hn o) (ceB m c) (fun h => (acc_first m c h).1) (fun n h => (acc_step m c n h).1) n hn
theorem acc1_sum (c : Dev nD) (n : ℕ) (hn : n < cfg0.N) :
    acc1 m c n hn o = ∑ b : Fin (n + 1), klB m c ⟨b.val, lt_of_lt_of_le b.isLt hn⟩ :=
  sum_of_steps (fun n hn => acc1 m c n hn o) (klB m c) (fun h => (acc_first m c h).2.1) (fun n h => (acc_step m c n h).2.1) n hn
theorem acc2_sum (c : Dev nD) (n : ℕ) (hn : n < cfg0.N) :
    acc2 m c n hn o = ∑ b : Fin (n + 1), tB m c ⟨b.val, lt_of_lt_of_le b.isLt hn⟩ :=
  sum_of_steps (fun n hn => acc2 m c n hn o) (tB m c) (fun h => (acc_first m c h).2.2) (fun n h => (acc_step m c n h).2.2) n hn

end Cert.Loss.Ker

end
-- ==== Proof.Outputs.lean ====
/-
  The four one-element output arrays after the run. Each is written back once, by the last grid point, with the value
  that point computed from the accumulators as it left them; so each ends holding that value: the loss, the negated
  mean cross-entropy, the mean divergence and the mean temperature, each a quotient by 4096 of a sum over all 128 points.
-/
import proofs.«423406_j41034117546381_2_alg».proof.Proof.AccumValue

set_option maxRecDepth 16384

noncomputable section

namespace Cert.Loss.Ker

open Cert.KernelIdeal Cert.KernelIdeal.Gen Cert.Loss Cert.Loss.Pay
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The three accumulators' final contents: the sums of the contributions of the points 0..t, at the flushing point t. -/
def ceUpTo (c : Dev nD) (t : Fin cfg0.N) : EReal := ∑ b : Fin (t.val + 1), ceB m c ⟨b.val, lt_of_lt_of_le b.isLt t.isLt⟩
def klUpTo (c : Dev nD) (t : Fin cfg0.N) : EReal := ∑ b : Fin (t.val + 1), klB m c ⟨b.val, lt_of_lt_of_le b.isLt t.isLt⟩
def tUpTo (c : Dev nD) (t : Fin cfg0.N) : EReal := ∑ b : Fin (t.val + 1), tB m c ⟨b.val, lt_of_lt_of_le b.isLt t.isLt⟩

/-- What the last point writes back into the loss's output, at its one index. -/
theorem flushed4 (c : Dev nD) (t : Fin cfg0.N) (hf : (cfg0.win 4).flush t = true) (y : S1x1.Idx) :
    (dats m 0 c).flushed 4 t y = w05 * Ideal.div (klUpTo m c t) w4096 + w05 * -(Ideal.div (ceUpTo m c t) w4096) := by
  have h1 : t.val % 128 = 127 := (flush0_4 t).mp hf
  have h0 : ¬t.val % 128 = 0 := by omega
  show (cfg0.win 4).cut (grid0.coords t) ((dats m 0 c).after 4 t) y = _
  rw [after0_4, out4_C m c t h0 h1, ← acc0_C m c t h0 h1, ← acc1_C m c t h0 h1]
  show k0_pay6 (acc0 m c t.val t.isLt) (acc1 m c t.val t.isLt) y = _
  rw [pay6_apply, idx_eq_o y, acc0_sum, acc1_sum]
  rfl

/-- What the last point writes back into the negated mean cross-entropy's output. -/
theorem flushed5 (c : Dev nD) (t : Fin cfg0.N) (hf : (cfg0.win 5).flush t = true) (y : S1x1.Idx) :
    (dats m 0 c).flushed 5 t y = -(Ideal.div (ceUpTo m c t) w4096) := by
  have h1 : t.val % 128 = 127 := (flush0_5 t).mp hf
  have h0 : ¬t.val % 128 = 0 := by omega
  show (cfg0.win 5).cut (grid0.coords t) ((dats m 0 c).after 5 t) y = _
  rw [after0_5, out5_C m c t h0 h1, ← acc0_C m c t h0 h1]
  show k0_pay3 (acc0 m c t.val t.isLt) y = _
  rw [pay3_apply, idx_eq_o y, acc0_sum]
  rfl

/-- What the last point writes back into the mean divergence's output. -/
theorem flushed6 (c : Dev nD) (t : Fin cfg0.N) (hf : (cfg0.win 6).flush t = true) (y : S1x1.Idx) :
    (dats m 0 c).flushed 6 t y = Ideal.div (klUpTo m c t) w4096 := by
  have h1 : t.val % 128 = 127 := (flush0_6 t).mp hf
  have h0 : ¬t.val % 128 = 0 := by omega
  show (cfg0.win 6).cut (grid0.coords t) ((dats m 0 c).after 6 t) y = _
  rw [after0_6, out6_C m c t h0 h1, ← acc1_C m c t h0 h1]
  show k0_pay4 (acc1 m c t.val t.isLt) y = _
  rw [pay4_apply, idx_eq_o y, acc1_sum]
  rfl

/-- What the last point writes back into the mean temperature's output. -/
theorem flushed7 (c : Dev nD) (t : Fin cfg0.N) (hf : (cfg0.win 7).flush t = true) (y : S1x1.Idx) :
    (dats m 0 c).flushed 7 t y = Ideal.div (tUpTo m c t) w4096 := by
  have h1 : t.val % 128 = 127 := (flush0_7 t).mp hf
  have h0 : ¬t.val % 128 = 0 := by omega
  show (cfg0.win 7).cut (grid0.coords t) ((dats m 0 c).after 7 t) y = _
  rw [after0_7, out7_C m c t h0 h1, ← acc2_C m c t h0 h1]
  show k0_pay5 (acc2 m c t.val t.isLt) y = _
  rw [pay5_apply, idx_eq_o y, acc2_sum]
  rfl

/-- The last grid point, the only one that writes the outputs back. -/
abbrev tLast : Fin cfg0.N := ⟨127, by decide⟩

/-- A point that writes an output back is the last point. -/
theorem eq_tLast (t : Fin cfg0.N) (h : t.val % 128 = 127) : t = tLast := by
  apply Fin.ext
  have := val_mod t
  show t.val = 127
  omega

/-- Every index of that one-element output array lies in the block the last point writes back. -/
theorem mem_last4 (i : S1x1.Idx) : i ∈ ((cfg0.win 4).blk tLast).view.set := by
  show i ∈ ((View.whole main_v2_0).slice (win0_4.rect tLast)).set
  rw [View.set_slice_whole, Rect.mem_set_unit]
  have e0 : win0_4.index tLast (0 : Fin 2) = 0 := by decide
  have e1 : win0_4.index tLast (1 : Fin 2) = 0 := by decide
  have i0 : (i 0).val < 1 := (i 0).isLt
  have i1 : (i 1).val < 1 := (i 1).isLt
  intro a
  match a with
  | ⟨0, _⟩ =>
    show win0_4.index tLast (0 : Fin 2) * 1 ≤ (i 0).val ∧ (i 0).val < win0_4.index tLast (0 : Fin 2) * 1 + 1
    omega
  | ⟨1, _⟩ =>
    show win0_4.index tLast (1 : Fin 2) * 1 ≤ (i 1).val ∧ (i 1).val < win0_4.index tLast (1 : Fin 2) * 1 + 1
    omega

/-- The loss's output array after the run. -/
theorem final4 (c : Dev nD) (i : S1x1.Idx) :
    (dats m 0 c).arrAt 4 cfg0.N i = w05 * Ideal.div (klUpTo m c tLast) w4096 + w05 * -(Ideal.div (ceUpTo m c tLast) w4096) := by
  have hG : ∀ t, (cfg0.win 4).flush t = true →
      (dats m 0 c).flushed 4 t = ((cfg0.win 4).blk t).view.read (Elt Ideal) (fun _ => w05 * Ideal.div (klUpTo m c tLast) w4096 + w05 * -(Ideal.div (ceUpTo m c tLast) w4096)) := by
    intro t hf
    funext y
    rw [View.read_apply]
    refine (flushed4 m c t hf y).trans ?_
    rw [eq_tLast t ((flush0_4 t).mp hf)]
    rfl
  exact congrFun ((dats m 0 c).arrAt_eq_of_cover 4 (fun _ => w05 * Ideal.div (klUpTo m c tLast) w4096 + w05 * -(Ideal.div (ceUpTo m c tLast) w4096)) hG
    (fun i => ⟨tLast, (flush0_4 tLast).mpr (by decide), mem_last4 i⟩)) i

/-- Every index of that one-element output array lies in the block the last point writes back. -/
theorem mem_last5 (i : S1x1.Idx) : i ∈ ((cfg0.win 5).blk tLast).view.set := by
  show i ∈ ((View.whole main_v2_1).slice (win0_5.rect tLast)).set
  rw [View.set_slice_whole, Rect.mem_set_unit]
  have e0 : win0_5.index tLast (0 : Fin 2) = 0 := by decide
  have e1 : win0_5.index tLast (1 : Fin 2) = 0 := by decide
  have i0 : (i 0).val < 1 := (i 0).isLt
  have i1 : (i 1).val < 1 := (i 1).isLt
  intro a
  match a with
  | ⟨0, _⟩ =>
    show win0_5.index tLast (0 : Fin 2) * 1 ≤ (i 0).val ∧ (i 0).val < win0_5.index tLast (0 : Fin 2) * 1 + 1
    omega
  | ⟨1, _⟩ =>
    show win0_5.index tLast (1 : Fin 2) * 1 ≤ (i 1).val ∧ (i 1).val < win0_5.index tLast (1 : Fin 2) * 1 + 1
    omega

/-- The negated mean cross-entropy's output array after the run. -/
theorem final5 (c : Dev nD) (i : S1x1.Idx) :
    (dats m 0 c).arrAt 5 cfg0.N i = -(Ideal.div (ceUpTo m c tLast) w4096) := by
  have hG : ∀ t, (cfg0.win 5).flush t = true →
      (dats m 0 c).flushed 5 t = ((cfg0.win 5).blk t).view.read (Elt Ideal) (fun _ => -(Ideal.div (ceUpTo m c tLast) w4096)) := by
    intro t hf
    funext y
    rw [View.read_apply]
    refine (flushed5 m c t hf y).trans ?_
    rw [eq_tLast t ((flush0_5 t).mp hf)]
    rfl
  exact congrFun ((dats m 0 c).arrAt_eq_of_cover 5 (fun _ => -(Ideal.div (ceUpTo m c tLast) w4096)) hG
    (fun i => ⟨tLast, (flush0_5 tLast).mpr (by decide), mem_last5 i⟩)) i

/-- Every index of that one-element output array lies in the block the last point writes back. -/
theorem mem_last6 (i : S1x1.Idx) : i ∈ ((cfg0.win 6).blk tLast).view.set := by
  show i ∈ ((View.whole main_v2_2).slice (win0_6.rect tLast)).set
  rw [View.set_slice_whole, Rect.mem_set_unit]
  have e0 : win0_6.index tLast (0 : Fin 2) = 0 := by decide
  have e1 : win0_6.index tLast (1 : Fin 2) = 0 := by decide
  have i0 : (i 0).val < 1 := (i 0).isLt
  have i1 : (i 1).val < 1 := (i 1).isLt
  intro a
  match a with
  | ⟨0, _⟩ =>
    show win0_6.index tLast (0 : Fin 2) * 1 ≤ (i 0).val ∧ (i 0).val < win0_6.index tLast (0 : Fin 2) * 1 + 1
    omega
  | ⟨1, _⟩ =>
    show win0_6.index tLast (1 : Fin 2) * 1 ≤ (i 1).val ∧ (i 1).val < win0_6.index tLast (1 : Fin 2) * 1 + 1
    omega

/-- The mean divergence's output array after the run. -/
theorem final6 (c : Dev nD) (i : S1x1.Idx) :
    (dats m 0 c).arrAt 6 cfg0.N i = Ideal.div (klUpTo m c tLast) w4096 := by
  have hG : ∀ t, (cfg0.win 6).flush t = true →
      (dats m 0 c).flushed 6 t = ((cfg0.win 6).blk t).view.read (Elt Ideal) (fun _ => Ideal.div (klUpTo m c tLast) w4096) := by
    intro t hf
    funext y
    rw [View.read_apply]
    refine (flushed6 m c t hf y).trans ?_
    rw [eq_tLast t ((flush0_6 t).mp hf)]
    rfl
  exact congrFun ((dats m 0 c).arrAt_eq_of_cover 6 (fun _ => Ideal.div (klUpTo m c tLast) w4096) hG
    (fun i => ⟨tLast, (flush0_6 tLast).mpr (by decide), mem_last6 i⟩)) i

/-- Every index of that one-element output array lies in the block the last point writes back. -/
theorem mem_last7 (i : S1x1.Idx) : i ∈ ((cfg0.win 7).blk tLast).view.set := by
  show i ∈ ((View.whole main_v2_3).slice (win0_7.rect tLast)).set
  rw [View.set_slice_whole, Rect.mem_set_unit]
  have e0 : win0_7.index tLast (0 : Fin 2) = 0 := by decide
  have e1 : win0_7.index tLast (1 : Fin 2) = 0 := by decide
  have i0 : (i 0).val < 1 := (i 0).isLt
  have i1 : (i 1).val < 1 := (i 1).isLt
  intro a
  match a with
  | ⟨0, _⟩ =>
    show win0_7.index tLast (0 : Fin 2) * 1 ≤ (i 0).val ∧ (i 0).val < win0_7.index tLast (0 : Fin 2) * 1 + 1
    omega
  | ⟨1, _⟩ =>
    show win0_7.index tLast (1 : Fin 2) * 1 ≤ (i 1).val ∧ (i 1).val < win0_7.index tLast (1 : Fin 2) * 1 + 1
    omega

/-- The mean temperature's output array after the run. -/
theorem final7 (c : Dev nD) (i : S1x1.Idx) :
    (dats m 0 c).arrAt 7 cfg0.N i = Ideal.div (tUpTo m c tLast) w4096 := by
  have hG : ∀ t, (cfg0.win 7).flush t = true →
      (dats m 0 c).flushed 7 t = ((cfg0.win 7).blk t).view.read (Elt Ideal) (fun _ => Ideal.div (tUpTo m c tLast) w4096) := by
    intro t hf
    funext y
    rw [View.read_apply]
    refine (flushed7 m c t hf y).trans ?_
    rw [eq_tLast t ((flush0_7 t).mp hf)]
    rfl
  exact congrFun ((dats m 0 c).arrAt_eq_of_cover 7 (fun _ => Ideal.div (tUpTo m c tLast) w4096) hG
    (fun i => ⟨tLast, (flush0_7 tLast).mpr (by decide), mem_last7 i⟩)) i

end Cert.Loss.Ker

end
-- ==== Proof.InputBlocks.lean ====
/-
  The input blocks are rows of the argument arrays. Grid point t stages rows 32·t .. 32·t + 31 of the logits and of the
  soft labels (all 32000 columns), and entries 32·t .. 32·t + 31 of the labels and of the confidences, the latter two
  kept as [4096 × 1] columns by the two reshapes that precede the kernel. So row r of point t's block is sample 32·t + r.
-/
import proofs.«423406_j41034117546381_2_alg».proof.Proof.Accum
import proofs.«423406_j41034117546381_2_alg».proof.Proof.Layout

set_option maxRecDepth 16384

noncomputable section

namespace Cert.Loss.Ker

open Cert.KernelIdeal Cert.KernelIdeal.Gen
open Idealize.ShloMosaic Idealize.ShloMosaic.TcCoe Idealize.ShloMosaic.ValueIdx Idealize.ShloMosaic.Tactic
open Idealize.ShloMosaic.Pipeline (Dat Cfg Window)

variable {F : FTy → Type} [FloatOps F]
variable (m : (ℓ : Loc nD τ sig) → Buf (Elt F) ℓ)

/-- A grid point's number is below 128. -/
theorem tlt (t : Fin cfg0.N) : t.val < 128 := lt_of_lt_of_eq t.isLt (show cfg0.N = 128 from N_0)

/-- Sample 32·t + r, for a row r of point t's block. -/
abbrev smp (t : Fin cfg0.N) (r : Fin 32) : Fin 4096 := ⟨t.val * 32 + r.val, by have := tlt t; omega⟩

/-- The block index maps of the four input windows, decided over the grid: block t on the row axis, block 0 on the other. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r, column k of point t's block of logits is the logit of sample 32·t + r at column k. -/
theorem lgB_apply (c : Dev nD) (t : Fin cfg0.N) (r : Fin 32) (k : Fin 32000) :
    lgB m c t (ix2 r k) = m ((c : Thread nD τ).loc main_arg0) (ix2 (smp t r) k) := by
  obtain ⟨e0, e1, -⟩ := idx_in t
  show V m c main_arg0 (((cfg0.win 0).blk t).view.emb (ix2 r k)) = _
  rw [V_main_arg0]
  refine congrArg _ (funext fun a => Fin.ext ?_)
  match a with
  | ⟨0, _⟩ => show win0_0.index t (0 : Fin 2) * 32 + 1 * r.val = t.val * 32 + r.val; omega
  | ⟨1, _⟩ => show win0_0.index t (1 : Fin 2) * 32000 + 1 * k.val = k.val; omega

/-- Row r, column k of point t's block of soft labels is the soft label of sample 32·t + r at column k. -/
theorem sfB_apply (c : Dev nD) (t : Fin cfg0.N) (r : Fin 32) (k : Fin 32000) :
    sfB m c t (ix2 r k) = m ((c : Thread nD τ).loc main_arg2) (ix2 (smp t r) k) := by
  obtain ⟨-, -, e0, e1, -⟩ := idx_in t
  show V m c main_arg2 (((cfg0.win 1).blk t).view.emb (ix2 r k)) = _
  rw [V_main_arg2]
  refine congrArg _ (funext fun a => Fin.ext ?_)
  match a with
  | ⟨0, _⟩ => show win0_1.index t (0 : Fin 2) * 32 + 1 * r.val = t.val * 32 + r.val; omega
  | ⟨1, _⟩ => show win0_1.index t (1 : Fin 2) * 32000 + 1 * k.val = k.val; omega

/-- The labels as the kernel finds them: the argument kept as a [4096 × 1] column by the reshape before the kernel. -/
theorem V_labels (c : Dev nD) :
    (V m c main_v0 : S4096x1.Idx → BitVec 32) = shapeCast S4096x1 (m ((c : Thread nD τ).loc main_arg1)) shapeCasts_S4096_S4096x1 := by
  show StableHlo.after hostOps0 (fun b => m (c, b)) (Proc.devRef .tc main_v0) = _
  after_results
  rfl

/-- The confidences as the kernel finds them: likewise a [4096 × 1] column. -/
theorem V_confs (c : Dev nD) :
    (V m c main_v1 : S4096x1.Idx → Elt F .f32) = shapeCast S4096x1 (m ((c : Thread nD τ).loc main_arg3)) shapeCasts_S4096_S4096x1 := by
  show StableHlo.after hostOps0 (fun b => m (c, b)) (Proc.devRef .tc main_v1) = _
  after_results
  rfl

/-- Row r of point t's block of labels is the label of sample 32·t + r. -/
theorem labB_apply (c : Dev nD) (t : Fin cfg0.N) (r : Fin 32) :
    labB m c t (ix2 r (0 : Fin 1)) = m ((c : Thread nD τ).loc main_arg1) (ix1 (smp t r)) := by
  obtain ⟨-, -, -, -, e0, e1, -⟩ := idx_in t
  show V m c main_v0 (((cfg0.win 2).blk t).view.emb (ix2 r (0 : Fin 1))) = _
  have e : ((cfg0.win 2).blk t).view.emb (ix2 r (0 : Fin 1)) = ix2 (smp t r) (0 : Fin 1) := by
    funext a; apply Fin.ext
    match a with
    | ⟨0, _⟩ => show win0_2.index t (0 : Fin 2) * 32 + 1 * r.val = t.val * 32 + r.val; omega
    | ⟨1, _⟩ => show win0_2.index t (1 : Fin 2) * 1 + 1 * 0 = 0; omega
  rw [e, V_labels]
  exact Lay.col_of_vec _ _ (smp t r)

/-- Row r of point t's block of confidences is the confidence of sample 32·t + r. -/
theorem cfB_apply (c : Dev nD) (t : Fin cfg0.N) (r : Fin 32) :
    cfB m c t (ix2 r (0 : Fin 1)) = m ((c : Thread nD τ).loc main_arg3) (ix1 (smp t r)) := by
  obtain ⟨-, -, -, -, -, -, e0, e1⟩ := idx_in t
  show V m c main_v1 (((cfg0.win 3).blk t).view.emb (ix2 r (0 : Fin 1))) = _
  have e : ((cfg0.win 3).blk t).view.emb (ix2 r (0 : Fin 1)) = ix2 (smp t r) (0 : Fin 1) := by
    funext a; apply Fin.ext
    match a with
    | ⟨0, _⟩ => show win0_3.index t (0 : Fin 2) * 32 + 1 * r.val = t.val * 32 + r.val; omega
    | ⟨1, _⟩ => show win0_3.index t (1 : Fin 2) * 1 + 1 * 0 = 0; omega
  rw [e, V_confs]
  exact Lay.col_of_vec _ _ (smp t r)

end Cert.Loss.Ker

end
-- ==== Proof.Labels.lean ====
/-
  The label words. A label is a 32-bit word h read as a signed integer; the added precondition says 0 ≤ h < 32000
  (two signed comparisons). From it: h is below 2³¹ as a natural number, so signed and unsigned readings agree and
  h.toNat < 32000; the reference's wrap of a negative index does not fire; its range test 0 ≤ h ≤ 31999 holds; and a
  column number j < 32000, written as a word, equals h exactly when j = h.toNat, which is how the kernel's column mask
  picks the labelled column.
-/
import Idealize.ShloMosaic.Lib.StableHlo.Predicate

namespace Cert.Loss.Label

open Idealize.ShloMosaic Idealize.ShloMosaic.StableHlo.Predicate

/-- The two signed comparisons of the precondition bound the word as a natural number. -/
theorem toNat_lt_of_pre {h : BitVec 32} (h0 : IntOp.cmpi .sge h 0#32 = 1#1) (h1 : IntOp.cmpi .slt h 32000#32 = 1#1) :
    h.toNat < 32000 := by
  have a : (0#32 : BitVec 32).sle h = true := by
    simpa [IntOp.cmpi, ofBool_eq_one_iff] using h0
  have b : h.slt 32000#32 = true := by
    simpa [IntOp.cmpi, ofBool_eq_one_iff] using h1
  have a' : (0 : Int) ≤ h.toInt := by simpa [BitVec.sle] using a
  have b' : h.toInt < 32000 := by simpa [BitVec.slt] using b
  have hlt := h.isLt
  rw [BitVec.toInt_eq_msb_cond] at a' b'
  cases hm : h.msb
  · simp only [hm, Bool.false_eq_true, if_false] at a' b'
    omega
  · simp only [hm, if_true] at a' b'
    omega

/-- A word below 32000 is not negative: the signed test against 0 fails, so the wrapped index is the index. -/
theorem not_slt_zero {h : BitVec 32} (hh : h.toNat < 32000) : ¬ IntOp.cmpi .slt h 0#32 = 1#1 := by
  rw [slt_iff_toNat (by omega) (by decide)]
  simp

/-- … and it passes the reference's range test 0 ≤ h ≤ 31999. -/
theorem in_range {h : BitVec 32} (hh : h.toNat < 32000) :
    IntOp.cmpi .sge h 0#32 = 1#1 ∧ IntOp.cmpi .sle h 31999#32 = 1#1 := by
  refine ⟨(sge_iff_toNat (by omega) (by decide)).mpr (by simp), (sle_iff_toNat (by omega) (by decide)).mpr ?_⟩
  show h.toNat ≤ (31999#32 : BitVec 32).toNat
  simp; omega

/-- The column mask: column j, as a word, is the label exactly when j is the label's number. -/
theorem col_eq_iff {h : BitVec 32} (hh : h.toNat < 32000) (j : Fin 32000) :
    IntOp.cmpi .eq (BitVec.ofNat 32 j.val) h = 1#1 ↔ j.val = h.toNat := by
  rw [cmpi_eq_iff]
  constructor
  · intro e; rw [← e]; simp [BitVec.toNat_ofNat]; omega
  · intro e; apply BitVec.eq_of_toNat_eq; simp [BitVec.toNat_ofNat, e]

end Cert.Loss.Label
-- ==== Proof.KernelValue.lean ====
/-
  The kernel's four results as functions of the argument arrays. Each accumulator's final content is a sum over the 128
  grid points of a sum over the point's 32 rows; row r of point t is sample 32·t + r, so regrouping gives the sum over
  the 4096 samples of the sample's term: its temperature; its divergence term; and, when the sample's label is the
  number of a column, its log-softmax at that column (the column mask picks exactly that column).
-/
import proofs.«423406_j41034117546381_2_alg».proof.Proof.Outputs
import proofs.«423406_j41034117546381_2_alg».proof.Proof.InputBlocks
import proofs.«423406_j41034117546381_2_alg».proof.Proof.Labels

set_option maxRecDepth 16384

noncomputable section

namespace Cert.Loss.Ker

open Cert.KernelIdeal Cert.KernelIdeal.Gen Cert.Loss Cert.Loss.Pay
open Idealize.ShloMosaic Idealize.ShloMosaic.TcCoe Idealize.ShloMosaic.ValueIdx

variable (m : (ℓ : Loc nD τ sig) → Buf (Elt Ideal) ℓ)

/-- The four argument arrays of a device, as functions of the sample (and the column). -/
abbrev lgA (c : Dev nD) (i : Fin 4096) (j : Fin 32000) : EReal := m ((c : Thread nD τ).loc main_arg0) (ix2 i j)
abbrev labA (c : Dev nD) (i : Fin 4096) : BitVec 32 := m ((c : Thread nD τ).loc main_arg1) (ix1 i)
abbrev sfA (c : Dev nD) (i : Fin 4096) (j : Fin 32000) : EReal := m ((c : Thread nD τ).loc main_arg2) (ix2 i j)
abbrev cfA (c : Dev nD) (i : Fin 4096) : EReal := m ((c : Thread nD τ).loc main_arg3) (ix1 i)

/-- A sum over the 128 points of a sum over each point's 32 rows is the sum over the 4096 samples. -/
theorem sum_points (f : Fin 4096 → EReal) :
    (∑ b : Fin (tLast.val + 1), ∑ r : Fin 32, f (smp ⟨b.val, lt_of_lt_of_le b.isLt tLast.isLt⟩ r)) = ∑ i : Fin 4096, f i :=
  (sum_blocks f).symm

/-- The temperature accumulator ends at the sum of the 4096 temperatures. -/
theorem tTotal (c : Dev nD) : tUpTo m c tLast = ∑ i : Fin 4096, temp (cfA m c i) := by
  rw [← sum_points]
  refine Finset.sum_congr rfl fun b _ => Finset.sum_congr rfl fun r _ => ?_
  rw [pay10_apply, cfB_apply]

/-- The divergence accumulator ends at the sum of the 4096 divergence terms. -/
theorem klTotal (c : Dev nD) : klUpTo m c tLast = ∑ i : Fin 4096, klRow (lgA m c) (sfA m c) (cfA m c) i := by
  rw [← sum_points]
  refine Finset.sum_congr rfl fun b _ => Finset.sum_congr rfl fun r _ => ?_
  unfold klRow
  refine Finset.sum_congr rfl fun j _ => ?_
  rw [sfB_apply, pay10_apply, cfB_apply]
  refine congrArg (fun f => xlxKer (sfA m c _ j) - sfA m c _ j * lsm f j) (funext fun k => ?_)
  rw [lgB_apply]

/-- With every label the number of a column, the cross-entropy accumulator ends at the sum of the 4096 log-softmax values
    at the labelled columns: the column mask is set exactly at the label's column. -/
theorem ceTotal (c : Dev nD) (hlab : ∀ i : Fin 4096, (labA m c i).toNat < 32000) :
    ceUpTo m c tLast = ∑ i : Fin 4096, ceRow (lgA m c) (labA m c) i := by
  rw [← sum_points]
  refine Finset.sum_congr rfl fun b _ => Finset.sum_congr rfl fun r _ => ?_
  unfold ceRow
  refine Finset.sum_congr rfl fun j _ => ?_
  rw [maskBlock, lsmBlock, labB_apply]
  have hcol := Label.col_eq_iff (hlab (smp ⟨b.val, lt_of_lt_of_le b.isLt tLast.isLt⟩ r)) j
  have hrow : (fun k => lgB m c ⟨b.val, lt_of_lt_of_le b.isLt tLast.isLt⟩ (ix2 r k)) = lgA m c (smp ⟨b.val, lt_of_lt_of_le b.isLt tLast.isLt⟩ r) :=
    funext fun k => lgB_apply m c _ r k
  rw [hrow]
  unfold Scalar.select
  exact if_congr hcol rfl rfl

end Cert.Loss.Ker

end
-- ==== Proof.KernelRun.lean ====
/-
  The kernel's run, read. After the four output arrays, four reshapes turn each [1 × 1] array into a scalar; a scalar
  read at its one index is the array's one entry. So every weakly fair execution of the kernel's program ends with the
  four scalar results at the loss, the negated mean cross-entropy, the mean divergence and the mean temperature of the
  argument arrays, and with the argument arrays unchanged.
-/
import proofs.«423406_j41034117546381_2_alg».proof.Proof.KernelValue

set_option maxRecDepth 16384

noncomputable section

namespace Cert.Loss.Ker

open Cert.KernelIdeal Cert.KernelIdeal.Gen Cert.Loss Cert.Loss.Pay
open Idealize.ShloMosaic Idealize.ShloMosaic.TcCoe Idealize.ShloMosaic.ValueIdx Idealize.ShloMosaic.Tactic
open Idealize.SL.Sem

variable (m : (ℓ : Loc nD τ sig) → Buf (Elt Ideal) ℓ)

/-- The scalar the first reshape after the kernel leaves: the loss output's one entry, whatever index reads it. -/
theorem tail3 (c : Dev nD) (v : EReal) (hfin : ∀ i : S1x1.Idx, (dats m 0 c).arrAt 4 cfg0.N i = v) (i : S_.Idx) :
    Pipeline.afterTail₀ cfgs (dats m) 0 (V0 m) [hostOps1] c main_v3 i = v := by
  unfold Pipeline.afterTail₀
  show StableHlo.after hostOps1 _ (Proc.devRef .tc main_v3) i = _
  after_results
  show shapeCast S_ (Pipeline.withArrays (cfgs 0).spec c (V0 m c) (fun w => (dats m 0 c).arrAt w (cfgs 0).N) (Proc.tc.devRef main_v2_0)) shapeCasts_S1x1_S_ i = v
  rw [Pipeline.withArrays_arr spec0 launch0.win.arr_inj c _ _ 4]
  exact hfin _

/-- The scalar the second reshape leaves: the negated mean cross-entropy output's one entry. -/
theorem tail4 (c : Dev nD) (v : EReal) (hfin : ∀ i : S1x1.Idx, (dats m 0 c).arrAt 5 cfg0.N i = v) (i : S_.Idx) :
    Pipeline.afterTail₀ cfgs (dats m) 0 (V0 m) [hostOps1] c main_v4 i = v := by
  unfold Pipeline.afterTail₀
  show StableHlo.after hostOps1 _ (Proc.devRef .tc main_v4) i = _
  after_results
  show shapeCast S_ (Pipeline.withArrays (cfgs 0).spec c (V0 m c) (fun w => (dats m 0 c).arrAt w (cfgs 0).N) (Proc.tc.devRef main_v2_1)) shapeCasts_S1x1_S_ i = v
  rw [Pipeline.withArrays_arr spec0 launch0.win.arr_inj c _ _ 5]
  exact hfin _

/-- The scalar the third reshape leaves: the mean divergence output's one entry. -/
theorem tail5 (c : Dev nD) (v : EReal) (hfin : ∀ i : S1x1.Idx, (dats m 0 c).arrAt 6 cfg0.N i = v) (i : S_.Idx) :
    Pipeline.afterTail₀ cfgs (dats m) 0 (V0 m) [hostOps1] c main_v5 i = v := by
  unfold Pipeline.afterTail₀
  show StableHlo.after hostOps1 _ (Proc.devRef .tc main_v5) i = _
  after_results
  show shapeCast S_ (Pipeline.withArrays (cfgs 0).spec c (V0 m c) (fun w => (dats m 0 c).arrAt w (cfgs 0).N) (Proc.tc.devRef main_v2_2)) shapeCasts_S1x1_S_ i = v
  rw [Pipeline.withArrays_arr spec0 launch0.win.arr_inj c _ _ 6]
  exact hfin _

/-- The scalar the fourth reshape leaves: the mean temperature output's one entry. -/
theorem tail6 (c : Dev nD) (v : EReal) (hfin : ∀ i : S1x1.Idx, (dats m 0 c).arrAt 7 cfg0.N i = v) (i : S_.Idx) :
    Pipeline.afterTail₀ cfgs (dats m) 0 (V0 m) [hostOps1] c main_v6 i = v := by
  unfold Pipeline.afterTail₀
  show StableHlo.after hostOps1 _ (Proc.devRef .tc main_v6) i = _
  after_results
  show shapeCast S_ (Pipeline.withArrays (cfgs 0).spec c (V0 m c) (fun w => (dats m 0 c).arrAt w (cfgs 0).N) (Proc.tc.devRef main_v2_3)) shapeCasts_S1x1_S_ i = v
  rw [Pipeline.withArrays_arr spec0 launch0.win.arr_inj c _ _ 7]
  exact hfin _

/-- The four final values in terms of the argument arrays, when every label is the number of a column. -/
theorem val_total (c : Dev nD) (hlab : ∀ i : Fin 4096, (labA m c i).toNat < 32000) :
    w05 * Ideal.div (klUpTo m c tLast) w4096 + w05 * -(Ideal.div (ceUpTo m c tLast) w4096)
      = total (lgA m c) (sfA m c) (labA m c) (cfA m c) := by
  rw [klTotal, ceTotal m c hlab]; rfl
theorem val_ce (c : Dev nD) (hlab : ∀ i : Fin 4096, (labA m c i).toNat < 32000) :
    -(Ideal.div (ceUpTo m c tLast) w4096) = ce (lgA m c) (labA m c) := by
  rw [ceTotal m c hlab]; rfl
theorem val_kl (c : Dev nD) : Ideal.div (klUpTo m c tLast) w4096 = kl (lgA m c) (sfA m c) (cfA m c) := by
  rw [klTotal]; rfl
theorem val_temp (c : Dev nD) : Ideal.div (tUpTo m c tLast) w4096 = avgTemp (cfA m c) := by
  rw [tTotal]; rfl

/-- THE KERNEL'S RUN: every weakly fair execution terminates with the four scalar results at the loss, the negated mean
    cross-entropy, the mean divergence and the mean temperature of the argument arrays, the arguments unchanged —
    when every label is the number of a column. -/
theorem run (ρ : Dev nD → PrngReg) (hlab : ∀ (c : Dev nD) (i : Fin 4096), (labA m c i).toNat < 32000) :
    θ_run defs (onTc (τ := τ) (main (F := Ideal))) ⟨m, fun _ => 0, ρ⟩ fun r => ∀ c : Dev nD,
      r.2.mem ((c.tc : Thread nD τ).loc main_v3) = (fun _ => total (lgA m c) (sfA m c) (labA m c) (cfA m c))
      ∧ r.2.mem ((c.tc : Thread nD τ).loc main_v4) = (fun _ => ce (lgA m c) (labA m c))
      ∧ r.2.mem ((c.tc : Thread nD τ).loc main_v5) = (fun _ => kl (lgA m c) (sfA m c) (cfA m c))
      ∧ r.2.mem ((c.tc : Thread nD τ).loc main_v6) = (fun _ => avgTemp (cfA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      funext fun i => (congrFun ((h c).2 main_v3 (Pipeline.mem_restRefs_of main_v3 (by decide) (by decide))) i).trans
        (tail3 m c _ (fun y => (final4 m c y).trans (val_total m c (hlab c))) i),
      funext fun i => (congrFun ((h c).2 main_v4 (Pipeline.mem_restRefs_of main_v4 (by decide) (by decide))) i).trans
        (tail4 m c _ (fun y => (final5 m c y).trans (val_ce m c (hlab c))) i),
      funext fun i => (congrFun ((h c).2 main_v5 (Pipeline.mem_restRefs_of main_v5 (by decide) (by decide))) i).trans
        (tail5 m c _ (fun y => (final6 m c y).trans (val_kl m c)) i),
      funext fun i => (congrFun ((h c).2 main_v6 (Pipeline.mem_restRefs_of main_v6 (by decide) (by decide))) i).trans
        (tail6 m c _ (fun y => (final7 m c y).trans (val_temp m c)) i),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.Loss.Ker

end
-- ==== Proof.PreDecode.lean ====
/-
  What the precondition says of the labels and of the soft labels. The printed precondition is a conjunction of six
  "for all entries" tests; the last three say: every label is ≥ 0 as a signed word, every label is < 32000 as a signed
  word, every soft label is ≥ 0. From them: every label is, as a natural number, below 32000, and every soft label is a
  non-negative extended real. (The first three tests, that the float inputs are finite, are not used: every law this
  proof applies is a law of the commutative monoid of the extended reals under +.)
-/
import proofs.«423406_j41034117546381_2_alg».proof.Pre_finite_inputs
import proofs.«423406_j41034117546381_2_alg».proof.Proof.Labels
import Idealize.ShloMosaic.Lib.ReduceAll
import Idealize.ShloMosaic.Lib.ValueIdx
import Idealize.ShloMosaic.PureOps.Ideal.Laws

noncomputable section

namespace Cert.Loss.Pre

open Cert.Pre_finite_inputs Idealize.ShloMosaic Idealize.ShloMosaic.ValueIdx

variable [Cert.Pre_finite_inputs.Facts]

instance : Subsingleton S_.Idx := ⟨fun a b => funext fun d => d.elim0⟩

/-- The two facts the proof takes from the precondition. -/
theorem decode (a0 : FVec Ideal S4096x32000 .f32) (a1 : IVec S4096 32) (a2 : FVec Ideal S4096x32000 .f32) (a3 : FVec Ideal S4096 .f32)
    (h : Cert.Pre_finite_inputs.fn (F := Ideal) a0 a1 a2 a3 = fun _ => 1#1) :
    (∀ i : Fin 4096, (a1 (ix1 i)).toNat < 32000) ∧ (∀ (i : Fin 4096) (j : Fin 32000), 0 ≤ a2 (ix2 i j)) := by
  have e := congrFun h ix0
  dsimp only [Cert.Pre_finite_inputs.fn, Cert.Pre_finite_inputs.fn_part1] at e
  obtain ⟨e5, eoge⟩ := IntOp.andi_eq_one.1 e
  obtain ⟨e4, eslt⟩ := IntOp.andi_eq_one.1 e5
  obtain ⟨-, esge⟩ := IntOp.andi_eq_one.1 e4
  refine ⟨fun i => ?_, fun i j => ?_⟩
  · have h0 : IntOp.cmpi .sge (a1 (ix1 i)) 0#32 = 1#1 := Host.reduce_andi_all _ _ _ _ ix0 esge (ix1 i)
    have h1 : IntOp.cmpi .slt (a1 (ix1 i)) 32000#32 = 1#1 := Host.reduce_andi_all _ _ _ _ ix0 eslt (ix1 i)
    exact Label.toNat_lt_of_pre h0 h1
  · have h2 : Ideal.cmp .oge (a2 (ix2 i j)) (Ideal.ofBits .f32 0x00000000#32) = 1#1 :=
      Host.reduce_andi_all _ _ _ _ ix0 eoge (ix2 i j)
    rw [Ideal.ofBits_zero_f32] at h2
    simpa [Ideal.cmp, StableHlo.Predicate.ofBool_eq_one_iff] using h2

end Cert.Loss.Pre

end
-- ==== Proof.Assemble.lean ====
import proofs.«423406_j41034117546381_2_alg».proof.Defs
import proofs.«423406_j41034117546381_2_alg».proof.Proof.Gen.Kernel
import proofs.«423406_j41034117546381_2_alg».proof.Proof.Gen.Kernel.Frame
import proofs.«423406_j41034117546381_2_alg».proof.Proof.Gen.KernelIdeal
import proofs.«423406_j41034117546381_2_alg».proof.Proof.Gen.KernelIdeal.Frame
import proofs.«423406_j41034117546381_2_alg».proof.Proof.Gen.ReferenceIdeal
import proofs.«423406_j41034117546381_2_alg».proof.Proof.Gen.Pre_finite_inputs
import proofs.«423406_j41034117546381_2_alg».proof.Proof.KernelRun
import proofs.«423406_j41034117546381_2_alg».proof.Proof.PreDecode
import Idealize.ShloMosaic.Adequacy
import Idealize.ShloMosaic.Init
noncomputable section
namespace Cert.Loss.Asm
open Idealize.ShloMosaic Idealize.ShloMosaic.ValueIdx Idealize.SL.Sem Cert.Loss

/-
  The assembly's two conditional steps: from the reference's run, read as the loss functions of its own arguments, the
  claim that the two programs agree, and the reference's frame.
-/

/-- The reference's argument arrays as functions, as on the kernel's side. -/
abbrev lgR (m' : (ℓ : Loc Cert.ReferenceIdeal.nD Cert.ReferenceIdeal.τ Cert.ReferenceIdeal.sig) → Buf (Elt Ideal) ℓ) (c : Dev Cert.ReferenceIdeal.nD) (i : Fin 4096) (j : Fin 32000) : EReal :=
  m' ((c.tc : Thread Cert.ReferenceIdeal.nD Cert.ReferenceIdeal.τ).loc Cert.ReferenceIdeal.main_arg0) (ix2 i j)
abbrev labR (m' : (ℓ : Loc Cert.ReferenceIdeal.nD Cert.ReferenceIdeal.τ Cert.ReferenceIdeal.sig) → Buf (Elt Ideal) ℓ) (c : Dev Cert.ReferenceIdeal.nD) (i : Fin 4096) : BitVec 32 :=
  m' ((c.tc : Thread Cert.ReferenceIdeal.nD Cert.ReferenceIdeal.τ).loc Cert.ReferenceIdeal.main_arg1) (ix1 i)
abbrev sfR (m' : (ℓ : Loc Cert.ReferenceIdeal.nD Cert.ReferenceIdeal.τ Cert.ReferenceIdeal.sig) → Buf (Elt Ideal) ℓ) (c : Dev Cert.ReferenceIdeal.nD) (i : Fin 4096) (j : Fin 32000) : EReal :=
  m' ((c.tc : Thread Cert.ReferenceIdeal.nD Cert.ReferenceIdeal.τ).loc Cert.ReferenceIdeal.main_arg2) (ix2 i j)
abbrev cfR (m' : (ℓ : Loc Cert.ReferenceIdeal.nD Cert.ReferenceIdeal.τ Cert.ReferenceIdeal.sig) → Buf (Elt Ideal) ℓ) (c : Dev Cert.ReferenceIdeal.nD) (i : Fin 4096) : EReal :=
  m' ((c.tc : Thread Cert.ReferenceIdeal.nD Cert.ReferenceIdeal.τ).loc Cert.ReferenceIdeal.main_arg3) (ix1 i)

/-- What is asked of the reference's run: from any memory whose labels are numbers of columns and whose soft labels are
    non-negative, every weakly fair execution terminates with the four results at the loss functions of the reference's own
    argument arrays, and the arguments unchanged. -/
abbrev RefRuns : Prop :=
  ∀ (m' : (ℓ : Loc Cert.ReferenceIdeal.nD Cert.ReferenceIdeal.τ Cert.ReferenceIdeal.sig) → Buf (Elt Ideal) ℓ) (ρ' : Dev Cert.ReferenceIdeal.nD → PrngReg),
      (∀ c i, (labR m' c i).toNat < 32000) → (∀ c i j, 0 ≤ sfR m' c i j) →
      θ_run (Cert.ReferenceIdeal.defs (F := Ideal)) (onTc (τ := Cert.ReferenceIdeal.τ) (Cert.ReferenceIdeal.main (F := Ideal))) ⟨m', fun _ => 0, ρ'⟩ fun r => ∀ c : Dev Cert.ReferenceIdeal.nD,
        r.2.mem ((c.tc : Thread Cert.ReferenceIdeal.nD Cert.ReferenceIdeal.τ).loc Cert.ReferenceIdeal.main_v39) = (fun _ => total (lgR m' c) (sfR m' c) (labR m' c) (cfR m' c))
        ∧ r.2.mem ((c.tc : Thread Cert.ReferenceIdeal.nD Cert.ReferenceIdeal.τ).loc Cert.ReferenceIdeal.main_v5) = (fun _ => ce (lgR m' c) (labR m' c))
        ∧ r.2.mem ((c.tc : Thread Cert.ReferenceIdeal.nD Cert.ReferenceIdeal.τ).loc Cert.ReferenceIdeal.main_v36) = (fun _ => kl (lgR m' c) (sfR m' c) (cfR m' c))
        ∧ r.2.mem ((c.tc : Thread Cert.ReferenceIdeal.nD Cert.ReferenceIdeal.τ).loc Cert.ReferenceIdeal.main_v41) = (fun _ => avgTemp (cfR m' c))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)

/-- The two programs agree: given the reference's run so read, the kernel's run (read in the same functions of its own
    arguments), the precondition's two facts and the agreement of the argument arrays give the equal results. -/
theorem algebraic_of
    (href : RefRuns) :
    @Cert.algebraic_KernelIdeal_ReferenceIdeal Cert.KernelIdeal.Gen.facts Cert.ReferenceIdeal.Gen.facts Cert.Pre_finite_inputs.Gen.facts := by
  intro m ρ m' ρ' hpre hagree
  have hd := fun c => Cert.Loss.Pre.decode _ _ _ _ (hpre c)
  have eA0 : ∀ c, lgR m' c = Cert.Loss.Ker.lgA m c := fun c => funext fun i => funext fun j => congrFun (hagree c).1 (ix2 i j)
  have eA1 : ∀ c, labR m' c = Cert.Loss.Ker.labA m c := fun c => funext fun i => congrFun (hagree c).2.1 (ix1 i)
  have eA2 : ∀ c, sfR m' c = Cert.Loss.Ker.sfA m c := fun c => funext fun i => funext fun j => congrFun (hagree c).2.2.1 (ix2 i j)
  have eA3 : ∀ c, cfR m' c = Cert.Loss.Ker.cfA m c := fun c => funext fun i => congrFun (hagree c).2.2.2 (ix1 i)
  refine ⟨fun c => fun _ => total (Cert.Loss.Ker.lgA m c) (Cert.Loss.Ker.sfA m c) (Cert.Loss.Ker.labA m c) (Cert.Loss.Ker.cfA m c),
    fun c => fun _ => ce (Cert.Loss.Ker.lgA m c) (Cert.Loss.Ker.labA m c),
    fun c => fun _ => kl (Cert.Loss.Ker.lgA m c) (Cert.Loss.Ker.sfA m c) (Cert.Loss.Ker.cfA m c),
    fun c => fun _ => avgTemp (Cert.Loss.Ker.cfA m c), ?_, ?_⟩
  · exact Cert.Loss.Ker.run m ρ (fun c i => (hd c).1 i)
  · refine (θ_run (Cert.ReferenceIdeal.defs (F := Ideal)) _ _).mono (fun r h c => ?_)
      (href m' ρ' (fun c i => by rw [eA1 c]; exact (hd c).1 i) (fun c i j => by rw [eA2 c]; exact (hd c).2 i j))
    obtain ⟨h0, h1, h2, h3, ha⟩ := h c
    refine ⟨?_, ?_, ?_, ?_, ha⟩
    · show r.2.mem ((c.tc : Thread Cert.ReferenceIdeal.nD Cert.ReferenceIdeal.τ).loc Cert.ReferenceIdeal.main_v39) = (fun _ => total (Cert.Loss.Ker.lgA m c) (Cert.Loss.Ker.sfA m c) (Cert.Loss.Ker.labA m c) (Cert.Loss.Ker.cfA m c))
      rw [h0, eA0 c, eA1 c, eA2 c, eA3 c]
    · show r.2.mem ((c.tc : Thread Cert.ReferenceIdeal.nD Cert.ReferenceIdeal.τ).loc Cert.ReferenceIdeal.main_v5) = (fun _ => ce (Cert.Loss.Ker.lgA m c) (Cert.Loss.Ker.labA m c))
      rw [h1, eA0 c, eA1 c]
    · show r.2.mem ((c.tc : Thread Cert.ReferenceIdeal.nD Cert.ReferenceIdeal.τ).loc Cert.ReferenceIdeal.main_v36) = (fun _ => kl (Cert.Loss.Ker.lgA m c) (Cert.Loss.Ker.sfA m c) (Cert.Loss.Ker.cfA m c))
      rw [h2, eA0 c, eA2 c, eA3 c]
    · show r.2.mem ((c.tc : Thread Cert.ReferenceIdeal.nD Cert.ReferenceIdeal.τ).loc Cert.ReferenceIdeal.main_v41) = (fun _ => avgTemp (Cert.Loss.Ker.cfA m c))
      rw [h3, eA3 c]

/-- The reference's frame: under the precondition its labels and soft labels meet the two bounds, so it runs, and its
    arguments end unchanged. -/
theorem frame_ref_of (href : RefRuns) :
    @Cert.frame_ReferenceIdeal Cert.ReferenceIdeal.Gen.facts Cert.Pre_finite_inputs.Gen.facts := by
  intro m ρ hpre
  have hd := fun c => Cert.Loss.Pre.decode _ _ _ _ (hpre c)
  exact (θ_run (Cert.ReferenceIdeal.defs (F := Ideal)) _ _).mono (fun r h c => (h c).2.2.2.2)
    (href m ρ (fun c i => (hd c).1 i) (fun c i j => (hd c).2 i j))

end Cert.Loss.Asm
end
-- ==== Proof.RefOps.lean ====
/-
  The reference program's @main as the list of its 114 host operations, cut into eight stretches at the points
  where one stage of the loss hands its array to the next, and the run of @main read back: every weakly fair
  execution terminates with every buffer at the fold of the operations' results over the launch contents. A called
  function's operations stand at its call site over the call's buffers. The stretches, in order:
    A: the log-softmax of the logits (the first call of log_softmax), into main_v0;
    B: the label column laid out as a start index and the indexed read of the log-softmax at it (take_along_axis), into main_v2;
    C: the mean of the picked entries, negated: the cross-entropy result main_v5;
    D: the temperature vector from the confidences, into main_v19;
    E: the logits divided by the temperatures, into main_v22;
    F: the log-softmax of the divided logits (the second call of log_softmax), into main_v23;
    G: the entropy term s · log s of the soft labels less s times that log-softmax, into main_v33;
    H: the three means: the divergence main_v36, the total main_v39, the mean temperature main_v41;
  The value modules read each stretch's fold at its result buffer and carry the buffers that stay live across the
  later stretches.
-/
import proofs.«423406_j41034117546381_2_alg».proof.Proof.Gen.ReferenceIdeal
import Idealize.ShloMosaic.Lib.StableHlo.Run

noncomputable section

namespace Cert.Loss.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch A: the log-softmax of the logits (the first call of log_softmax), into main_v0. -/
abbrev opsA : List (HloOp τ sig (Elt F)) :=
  [ TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v0) subf ]

/-- Stretch B: the label column laid out as a start index and the indexed read of the log-softmax at it (take_along_axis), into main_v2. -/
abbrev opsB : List (HloOp τ sig (Elt F)) :=
  [ unary main_arg1 main_v1 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v1) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v1) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v1) (TRef.of (T := ⟨S4096x1, .i32⟩) main_call1_v4) select,
    TRef.reshape (TRef.of (T := ⟨S4096x1, .i32⟩) main_call1_v4) (TRef.of (T := ⟨S4096x1x1, .i32⟩) main_call1_v5) rfl shapeCasts_S4096x1_S4096x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x32000, .f32⟩) main_v0) (TRef.of (T := ⟨S4096x1x1, .i32⟩) main_call1_v5) (TRef.of (T := ⟨S4096x1, .f32⟩) main_call1_v13) (fun x i => Host.gather gather_S4096x32000_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v2) select ]

/-- Stretch C: the mean of the picked entries, negated: the cross-entropy result main_v5. -/
abbrev opsC : List (HloOp τ sig (Elt F)) :=
  [ nullary main_cst (constant S_ .f32 0x00000000#32),
    binary main_v2 main_cst main_v3 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_0 (constant S_ .f32 0x45800000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)) ]

/-- Stretch D: the temperature vector from the confidences, into main_v19. -/
abbrev opsD : List (HloOp τ sig (Elt F)) :=
  [ nullary main_cst_1 (constant S_ .f32 0x3F19999A#32),
    unary main_cst_1 main_v6 (broadcastInDim S4096 ![] bcast_S_S4096 : (⟨S_, .f32⟩ : BufTy).Contents (Elt F) → (⟨S4096, .f32⟩ : BufTy).Contents (Elt F)),
    binary main_v6 main_arg3 main_v7 (subf : (⟨S4096, .f32⟩ : BufTy).Contents (Elt F) → (⟨S4096, .f32⟩ : BufTy).Contents (Elt F) → (⟨S4096, .f32⟩ : BufTy).Contents (Elt F)),
    nullary main_cst_2 (constant S_ .f32 0x40000000#32),
    unary main_cst_2 main_v8 (broadcastInDim S4096 ![] bcast_S_S4096 : (⟨S_, .f32⟩ : BufTy).Contents (Elt F) → (⟨S4096, .f32⟩ : BufTy).Contents (Elt F)),
    binary main_v7 main_v8 main_v9 (mulf : (⟨S4096, .f32⟩ : BufTy).Contents (Elt F) → (⟨S4096, .f32⟩ : BufTy).Contents (Elt F) → (⟨S4096, .f32⟩ : BufTy).Contents (Elt F)),
    nullary main_cst_3 (constant S_ .f32 0x40200000#32),
    unary main_cst_3 main_v10 (broadcastInDim S4096 ![] bcast_S_S4096 : (⟨S_, .f32⟩ : BufTy).Contents (Elt F) → (⟨S4096, .f32⟩ : BufTy).Contents (Elt F)),
    binary main_v10 main_v9 main_v11 (addf : (⟨S4096, .f32⟩ : BufTy).Contents (Elt F) → (⟨S4096, .f32⟩ : BufTy).Contents (Elt F) → (⟨S4096, .f32⟩ : BufTy).Contents (Elt F)),
    nullary main_cst_4 (constant S_ .f32 0x40400000#32),
    unary main_cst_4 main_v12 (broadcastInDim S4096 ![] bcast_S_S4096 : (⟨S_, .f32⟩ : BufTy).Contents (Elt F) → (⟨S4096, .f32⟩ : BufTy).Contents (Elt F)),
    binary main_v11 main_v12 main_v13 (minimumf : (⟨S4096, .f32⟩ : BufTy).Contents (Elt F) → (⟨S4096, .f32⟩ : BufTy).Contents (Elt F) → (⟨S4096, .f32⟩ : BufTy).Contents (Elt F)),
    nullary main_cst_5 (constant S_ .f32 0x3F666666#32),
    unary main_cst_5 main_v14 (broadcastInDim S4096 ![] bcast_S_S4096 : (⟨S_, .f32⟩ : BufTy).Contents (Elt F) → (⟨S4096, .f32⟩ : BufTy).Contents (Elt F)),
    binary main_arg3 main_v14 main_v15 (cmpf .ogt : (⟨S4096, .f32⟩ : BufTy).Contents (Elt F) → (⟨S4096, .f32⟩ : BufTy).Contents (Elt F) → (⟨S4096, .i1⟩ : BufTy).Contents (Elt F)),
    nullary main_cst_6 (constant S_ .f32 0x3F19999A#32),
    unary main_cst_6 main_v16 (broadcastInDim S4096 ![] bcast_S_S4096 : (⟨S_, .f32⟩ : BufTy).Contents (Elt F) → (⟨S4096, .f32⟩ : BufTy).Contents (Elt F)),
    binary main_arg3 main_v16 main_v17 (cmpf .ogt : (⟨S4096, .f32⟩ : BufTy).Contents (Elt F) → (⟨S4096, .f32⟩ : BufTy).Contents (Elt F) → (⟨S4096, .i1⟩ : BufTy).Contents (Elt F)),
    nullary main_cst_7 (constant S_ .f32 0x40000000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S4096, .f32⟩) main_call2_v1) (broadcastInDim S4096 ![] bcast_S_S4096),
    TRef.ternary (TRef.of (T := ⟨S4096, .i1⟩) main_v17) (TRef.of (T := ⟨S4096, .f32⟩) main_call2_v1) (TRef.of (T := ⟨S4096, .f32⟩) main_v13) (TRef.of (T := ⟨S4096, .f32⟩) main_v18) select,
    nullary main_cst_8 (constant S_ .f32 0x3FC00000#32),
    TRef.unary (TRef.of (T := ⟨S_, .f32⟩) main_cst_8) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v15) (TRef.of (T := ⟨S4096, .f32⟩) main_call3_v1) (TRef.of (T := ⟨S4096, .f32⟩) main_v18) (TRef.of (T := ⟨S4096, .f32⟩) main_v19) select ]

/-- Stretch E: the logits divided by the temperatures, into main_v22. -/
abbrev opsE : List (HloOp τ sig (Elt F)) :=
  [ unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x32000 ![0, 1] bcast_S4096x1_S4096x32000_0_1 : (⟨S4096x1, .f32⟩ : BufTy).Contents (Elt F) → (⟨S4096x32000, .f32⟩ : BufTy).Contents (Elt F)),
    binary main_arg0 main_v21 main_v22 (Host.divf : (⟨S4096x32000, .f32⟩ : BufTy).Contents (Elt F) → (⟨S4096x32000, .f32⟩ : BufTy).Contents (Elt F) → (⟨S4096x32000, .f32⟩ : BufTy).Contents (Elt F)) ]

/-- Stretch F: the log-softmax of the divided logits (the second call of log_softmax), into main_v23. -/
abbrev opsF : List (HloOp τ sig (Elt F)) :=
  [ TRef.nullary (TRef.of (T := ⟨S_, .f32⟩) main_call4_cst) (constant S_ .f32 0xFF800000#32),
    TRef.binary (TRef.of (T := ⟨S4096x32000, .f32⟩) main_v22) (TRef.of (T := ⟨S_, .f32⟩) main_call4_cst) (TRef.of (T := ⟨S4096, .f32⟩) main_call4_v0) (fun x v => Host.reduce FloatOps.maximumf x v reducesTo_S4096x32000_S4096_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x32000, .f32⟩) main_call4_v4) (broadcastInDim S4096x32000 ![0, 1] bcast_S4096x1_S4096x32000_0_1),
    TRef.binary (TRef.of (T := ⟨S4096x32000, .f32⟩) main_v22) (TRef.of (T := ⟨S4096x32000, .f32⟩) main_call4_v4) (TRef.of (T := ⟨S4096x32000, .f32⟩) main_call4_v5) subf,
    TRef.unary (TRef.of (T := ⟨S4096x32000, .f32⟩) main_call4_v5) (TRef.of (T := ⟨S4096x32000, .f32⟩) main_call4_v6) Host.exp,
    TRef.nullary (TRef.of (T := ⟨S_, .f32⟩) main_call4_cst_1) (constant S_ .f32 0x00000000#32),
    TRef.binary (TRef.of (T := ⟨S4096x32000, .f32⟩) main_call4_v6) (TRef.of (T := ⟨S_, .f32⟩) main_call4_cst_1) (TRef.of (T := ⟨S4096, .f32⟩) main_call4_v7) (fun x v => Host.reduceAdd x v reducesTo_S4096x32000_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x32000, .f32⟩) main_call4_v10) (broadcastInDim S4096x32000 ![0, 1] bcast_S4096x1_S4096x32000_0_1),
    TRef.binary (TRef.of (T := ⟨S4096x32000, .f32⟩) main_call4_v5) (TRef.of (T := ⟨S4096x32000, .f32⟩) main_call4_v10) (TRef.of (T := ⟨S4096x32000, .f32⟩) main_v23) subf ]

/-- Stretch G: the entropy term s · log s of the soft labels less s times that log-softmax, into main_v33. -/
abbrev opsG : List (HloOp τ sig (Elt F)) :=
  [ nullary main_cst_9 (constant S_ .f32 0x00000000#32),
    unary main_cst_9 main_v24 (broadcastInDim S4096x32000 ![] bcast_S_S4096x32000 : (⟨S_, .f32⟩ : BufTy).Contents (Elt F) → (⟨S4096x32000, .f32⟩ : BufTy).Contents (Elt F)),
    binary main_arg2 main_v24 main_v25 (cmpf .une : (⟨S4096x32000, .f32⟩ : BufTy).Contents (Elt F) → (⟨S4096x32000, .f32⟩ : BufTy).Contents (Elt F) → (⟨S4096x32000, .i1⟩ : BufTy).Contents (Elt F)),
    binary main_arg2 main_arg2 main_v26 (cmpf .une : (⟨S4096x32000, .f32⟩ : BufTy).Contents (Elt F) → (⟨S4096x32000, .f32⟩ : BufTy).Contents (Elt F) → (⟨S4096x32000, .i1⟩ : BufTy).Contents (Elt F)),
    binary main_v25 main_v26 main_v27 (ori : (⟨S4096x32000, .i1⟩ : BufTy).Contents (Elt F) → (⟨S4096x32000, .i1⟩ : BufTy).Contents (Elt F) → (⟨S4096x32000, .i1⟩ : BufTy).Contents (Elt F)),
    unary main_arg2 main_v28 (Host.log : (⟨S4096x32000, .f32⟩ : BufTy).Contents (Elt F) → (⟨S4096x32000, .f32⟩ : BufTy).Contents (Elt F)),
    binary main_arg2 main_v28 main_v29 (mulf : (⟨S4096x32000, .f32⟩ : BufTy).Contents (Elt F) → (⟨S4096x32000, .f32⟩ : BufTy).Contents (Elt F) → (⟨S4096x32000, .f32⟩ : BufTy).Contents (Elt F)),
    nullary main_cst_10 (constant S_ .f32 0x00000000#32),
    unary main_cst_10 main_v30 (broadcastInDim S4096x32000 ![] bcast_S_S4096x32000 : (⟨S_, .f32⟩ : BufTy).Contents (Elt F) → (⟨S4096x32000, .f32⟩ : BufTy).Contents (Elt F)),
    TRef.ternary (TRef.of (T := ⟨S4096x32000, .i1⟩) main_v27) (TRef.of (T := ⟨S4096x32000, .f32⟩) main_v29) (TRef.of (T := ⟨S4096x32000, .f32⟩) main_v30) (TRef.of (T := ⟨S4096x32000, .f32⟩) main_v31) select,
    binary main_arg2 main_v23 main_v32 (mulf : (⟨S4096x32000, .f32⟩ : BufTy).Contents (Elt F) → (⟨S4096x32000, .f32⟩ : BufTy).Contents (Elt F) → (⟨S4096x32000, .f32⟩ : BufTy).Contents (Elt F)),
    binary main_v31 main_v32 main_v33 (subf : (⟨S4096x32000, .f32⟩ : BufTy).Contents (Elt F) → (⟨S4096x32000, .f32⟩ : BufTy).Contents (Elt F) → (⟨S4096x32000, .f32⟩ : BufTy).Contents (Elt F)) ]

/-- Stretch H: the three means: the divergence main_v36, the total main_v39, the mean temperature main_v41. -/
abbrev opsH : List (HloOp τ sig (Elt F)) :=
  [ nullary main_cst_11 (constant S_ .f32 0x00000000#32),
    binary main_v33 main_cst_11 main_v34 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_cst_12 (constant S_ .f32 0x00000000#32),
    binary main_v34 main_cst_12 main_v35 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_13 (constant S_ .f32 0x45800000#32),
    binary main_v35 main_cst_13 main_v36 (Host.divf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v36 main_v37 (mulf : (⟨S_, .f32⟩ : BufTy).Contents (Elt F) → (⟨S_, .f32⟩ : BufTy).Contents (Elt F) → (⟨S_, .f32⟩ : BufTy).Contents (Elt F)),
    nullary main_cst_15 (constant S_ .f32 0x3F000000#32),
    binary main_cst_15 main_v5 main_v38 (mulf : (⟨S_, .f32⟩ : BufTy).Contents (Elt F) → (⟨S_, .f32⟩ : BufTy).Contents (Elt F) → (⟨S_, .f32⟩ : BufTy).Contents (Elt F)),
    binary main_v37 main_v38 main_v39 (addf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v19 main_cst_16 main_v40 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_17 (constant S_ .f32 0x45800000#32),
    binary main_v40 main_cst_17 main_v41 (Host.divf : (⟨S_, .f32⟩ : BufTy).Contents (Elt F) → (⟨S_, .f32⟩ : BufTy).Contents (Elt F) → (⟨S_, .f32⟩ : BufTy).Contents (Elt F)) ]

/-- @main's operations, in order. -/
abbrev ops : List (HloOp τ sig (Elt F)) := opsA ++ (opsB ++ (opsC ++ (opsD ++ (opsE ++ (opsF ++ (opsG ++ opsH))))))

set_option maxRecDepth 8192 in
set_option maxHeartbeats 4000000 in
/-- @main is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsA_fresh : ∀ op ∈ (opsA : List (HloOp τ sig (Elt F))), op.fresh = ∅ := by
  intro _ h; (repeat (cases h with | head => rfl | tail _ h => ?_)); exact nomatch h

theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsB_fresh : ∀ op ∈ (opsB : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨nullary_bufs_sub .., binary_bufs_sub .., nullary_bufs_sub .., binary_bufs_sub .., unary_bufs_sub ..⟩
theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub ..⟩
theorem opsD_fresh : ∀ op ∈ (opsD : List (HloOp τ sig (Elt F))), op.fresh = ∅ := by
  intro _ h; (repeat (cases h with | head => rfl | tail _ h => ?_)); exact nomatch h

theorem opsE_sub : (opsE : List (HloOp τ sig (Elt F))).Forall fun op => op.bufs ⊆ tcRefs τ sig :=
  ⟨unary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h

theorem opsF_sub : (opsF : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem opsF_fresh : ∀ op ∈ (opsF : List (HloOp τ sig (Elt F))), op.fresh = ∅ := by
  intro _ h; (repeat (cases h with | head => rfl | tail _ h => ?_)); exact nomatch h

theorem opsG_sub : (opsG : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., nullary_bufs_sub .., unary_bufs_sub .., ternary_bufs_sub .., binary_bufs_sub .., binary_bufs_sub ..⟩
theorem opsG_fresh : ∀ op ∈ (opsG : List (HloOp τ sig (Elt F))), op.fresh = ∅ := by
  intro _ h; (repeat (cases h with | head => rfl | tail _ h => ?_)); exact nomatch h

theorem opsH_sub : (opsH : List (HloOp τ sig (Elt F))).Forall fun op => op.bufs ⊆ tcRefs τ sig :=
  ⟨nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub ..⟩
theorem opsH_fresh : ∀ op ∈ (opsH : List (HloOp τ sig (Elt F))), op.fresh = ∅ := by
  intro _ h; (repeat (cases h with | head => rfl | tail _ h => ?_)); exact nomatch h

/-- Every operation's buffers are TensorCore buffers. -/
theorem ops_sub : (ops : List (HloOp τ sig (Elt F))).Forall fun op => op.bufs ⊆ tcRefs τ sig := by
  simp only [ops, List.forall_append]
  exact ⟨opsA_sub, opsB_sub, opsC_sub, opsD_sub, opsE_sub, opsF_sub, opsG_sub, opsH_sub⟩

/-- Every operation determines its results. -/
theorem ops_fresh : ∀ op ∈ (ops : List (HloOp τ sig (Elt F))), op.fresh = ∅ := by
  intro op h
  simp only [ops, List.mem_append] at h
  rcases h with h | h | h | h | h | h | h | h
  exacts [opsA_fresh op h, opsB_fresh op h, opsC_fresh op h, opsD_fresh op h, opsE_fresh op h, opsF_fresh op h,
    opsG_fresh op h, opsH_fresh op h]

/-- The fold over two lines run one after the other is the second's fold over the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The fold over @main's operations is the eight stretches' folds, one over the other. -/
theorem after_ops (V : Valuation τ sig (Elt F)) :
    after ops V = after opsH (after opsG (after opsF (after opsE (after opsD (after opsC (after opsB (after opsA V))))))) := by
  simp only [ops, after_append]

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.Loss.RefRun

end
-- ==== Proof.RefPlain.lean ====
/-
  The stretches of @main's operations restated with every operation over its bare buffers. A called function's
  operations are printed over typed references (a buffer with the type of the tensor value it holds), which move the
  operation's function to the buffer's own contents type along an equation of types; at a literal buffer that equation
  holds by computation and the move is the identity. Each typed operation is therefore the bare one with the same
  function (the five facts below, stated for any function so that nothing about the function is ever compared), and each
  stretch is equal to its bare restatement, operation by operation. The folds are read on the bare stretches, where no
  move along a type equation is left.
-/
import proofs.«423406_j41034117546381_2_alg».proof.Proof.RefOps

noncomputable section

namespace Cert.Loss.RefRun

open Cert.ReferenceIdeal Cert.ReferenceIdeal.Gen Idealize.ShloMosaic Idealize.ShloMosaic.TcCoe Idealize.SL.Sem Idealize.ShloMosaic.StableHlo

variable {F : FTy → Type} [FloatOps F]

/-! ## A typed operation at a literal buffer is the bare operation -/

theorem nullary_plain (y : Ref sig .tc) (dy sy) (v : y.ty.Contents (Elt F)) (hy) :
    (TRef.nullary (TRef.of (T := y.ty) y rfl dy sy) v : HloOp τ sig (Elt F)) = nullary y v hy := rfl

theorem unary_plain (x y : Ref sig .tc) (dx sx dy sy) (f : x.ty.Contents (Elt F) → y.ty.Contents (Elt F)) (hx hy) :
    (TRef.unary (TRef.of (T := x.ty) x rfl dx sx) (TRef.of (T := y.ty) y rfl dy sy) f : HloOp τ sig (Elt F))
      = unary x y f hx hy := rfl

theorem binary_plain (a b y : Ref sig .tc) (da sa db sb dy sy)
    (f : a.ty.Contents (Elt F) → b.ty.Contents (Elt F) → y.ty.Contents (Elt F)) (ha hb hy) :
    (TRef.binary (TRef.of (T := a.ty) a rfl da sa) (TRef.of (T := b.ty) b rfl db sb) (TRef.of (T := y.ty) y rfl dy sy) f :
        HloOp τ sig (Elt F))
      = binary a b y f ha hb hy := rfl

theorem ternary_plain (c a b y : Ref sig .tc) (dc sc da sa db sb dy sy)
    (f : c.ty.Contents (Elt F) → a.ty.Contents (Elt F) → b.ty.Contents (Elt F) → y.ty.Contents (Elt F)) (hc ha hb hy) :
    (TRef.ternary (TRef.of (T := c.ty) c rfl dc sc) (TRef.of (T := a.ty) a rfl da sa) (TRef.of (T := b.ty) b rfl db sb)
        (TRef.of (T := y.ty) y rfl dy sy) f : HloOp τ sig (Elt F))
      = ternary c a b y f hc ha hb hy := rfl

theorem reshape_plain (x y : Ref sig .tc) (dx sx dy sy) (he : x.ty.elt = y.ty.elt) (hn : x.ty.shape.ShapeCasts y.ty.shape)
    (he' hn' hx hy) :
    (TRef.reshape (TRef.of (T := x.ty) x rfl dx sx) (TRef.of (T := y.ty) y rfl dy sy) he hn : HloOp τ sig (Elt F))
      = reshape x y he' hn' hx hy := rfl

/-- Two lists with equal heads and equal tails are equal. -/
theorem cons_congr {α : Type} {a b : α} {l m : List α} (h : a = b) (t : l = m) : a :: l = b :: m := h ▸ t ▸ rfl

/-! ## The stretches over bare buffers -/

/-- Stretch A over bare buffers. -/
abbrev opsA' : List (HloOp τ sig (Elt F)) :=
  [ nullary main_call0_cst (constant S_ .f32 0xFF800000#32 : (⟨S_, .f32⟩ : BufTy).Contents (Elt F)),
    binary main_arg0 main_call0_cst main_call0_v0 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_call0_cst_0 (constant S_ .f32 0xFF800000#32 : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 ((maximumf) : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x32000 ![0, 1] bcast_S4096x1_S4096x32000_0_1) : (⟨S4096x1, .f32⟩ : BufTy).Contents (Elt F) → (⟨S4096x32000, .f32⟩ : BufTy).Contents (Elt F)),
    binary main_arg0 main_call0_v4 main_call0_v5 ((subf) : (⟨S4096x32000, .f32⟩ : BufTy).Contents (Elt F) → (⟨S4096x32000, .f32⟩ : BufTy).Contents (Elt F) → (⟨S4096x32000, .f32⟩ : BufTy).Contents (Elt F)),
    unary main_call0_v5 main_call0_v6 ((Host.exp) : (⟨S4096x32000, .f32⟩ : BufTy).Contents (Elt F) → (⟨S4096x32000, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 ((Host.log) : (⟨S4096x1, .f32⟩ : BufTy).Contents (Elt F) → (⟨S4096x1, .f32⟩ : BufTy).Contents (Elt F)),
    unary main_call0_v9 main_call0_v10 ((broadcastInDim S4096x32000 ![0, 1] bcast_S4096x1_S4096x32000_0_1) : (⟨S4096x1, .f32⟩ : BufTy).Contents (Elt F) → (⟨S4096x32000, .f32⟩ : BufTy).Contents (Elt F)),
    binary main_call0_v5 main_call0_v10 main_v0 ((subf) : (⟨S4096x32000, .f32⟩ : BufTy).Contents (Elt F) → (⟨S4096x32000, .f32⟩ : BufTy).Contents (Elt F) → (⟨S4096x32000, .f32⟩ : BufTy).Contents (Elt F)) ]

theorem opsA_eq : (opsA : List (HloOp τ sig (Elt F))) = opsA' :=
  cons_congr (nullary_plain ..)
  (cons_congr (binary_plain ..)
  (cons_congr (nullary_plain ..)
  (cons_congr (unary_plain ..)
  (cons_congr (binary_plain ..)
  (cons_congr (unary_plain ..)
  (cons_congr (unary_plain ..)
  (cons_congr (binary_plain ..)
  (cons_congr (unary_plain ..)
  (cons_congr (nullary_plain ..)
  (cons_congr (binary_plain ..)
  (cons_congr (unary_plain ..)
  (cons_congr (unary_plain ..)
  (cons_congr (unary_plain ..)
  (cons_congr (binary_plain ..) (rfl)))))))))))))))

/-- Stretch B over bare buffers. -/
abbrev opsB' : List (HloOp τ sig (Elt F)) :=
  [ unary main_arg1 main_v1 (broadcastInDim S4096x1 ![0] bcast_S4096_S4096x1_0 : (⟨S4096, .i32⟩ : BufTy).Contents (Elt F) → (⟨S4096x1, .i32⟩ : BufTy).Contents (Elt F)),
    nullary main_call1_c (constantI S_ 32 0#32 : (⟨S_, .i32⟩ : BufTy).Contents (Elt F)),
    unary main_call1_c main_call1_v0 ((broadcastInDim S4096x1 ![] bcast_S_S4096x1) : (⟨S_, .i32⟩ : BufTy).Contents (Elt F) → (⟨S4096x1, .i32⟩ : BufTy).Contents (Elt F)),
    binary main_v1 main_call1_v0 main_call1_v1 ((cmpi .slt) : (⟨S4096x1, .i32⟩ : BufTy).Contents (Elt F) → (⟨S4096x1, .i32⟩ : BufTy).Contents (Elt F) → (⟨S4096x1, .i1⟩ : BufTy).Contents (Elt F)),
    nullary main_call1_c_0 (constantI S_ 32 32000#32 : (⟨S_, .i32⟩ : BufTy).Contents (Elt F)),
    unary main_call1_c_0 main_call1_v2 ((broadcastInDim S4096x1 ![] bcast_S_S4096x1) : (⟨S_, .i32⟩ : BufTy).Contents (Elt F) → (⟨S4096x1, .i32⟩ : BufTy).Contents (Elt F)),
    binary main_v1 main_call1_v2 main_call1_v3 ((addi) : (⟨S4096x1, .i32⟩ : BufTy).Contents (Elt F) → (⟨S4096x1, .i32⟩ : BufTy).Contents (Elt F) → (⟨S4096x1, .i32⟩ : BufTy).Contents (Elt F)),
    ternary main_call1_v1 main_call1_v3 main_v1 main_call1_v4 ((select) : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    reshape main_call1_v4 main_call1_v5 rfl shapeCasts_S4096x1_S4096x1x1,
    nullary main_call1_c_1 (constantI S1 32 31999#32 : (⟨S1, .i32⟩ : BufTy).Contents (Elt F)),
    nullary main_call1_c_2 (constantI S_ 32 0#32 : (⟨S_, .i32⟩ : BufTy).Contents (Elt F)),
    unary main_call1_c_2 main_call1_v6 ((broadcastInDim S4096x1x1 ![] bcast_S_S4096x1x1) : (⟨S_, .i32⟩ : BufTy).Contents (Elt F) → (⟨S4096x1x1, .i32⟩ : BufTy).Contents (Elt F)),
    binary main_call1_v5 main_call1_v6 main_call1_v7 ((cmpi .sge) : (⟨S4096x1x1, .i32⟩ : BufTy).Contents (Elt F) → (⟨S4096x1x1, .i32⟩ : BufTy).Contents (Elt F) → (⟨S4096x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S4096x1x1 ![0, 1, 2] bcast_S1x1x1_S4096x1x1_0_1_2) : (⟨S1x1x1, .i32⟩ : BufTy).Contents (Elt F) → (⟨S4096x1x1, .i32⟩ : BufTy).Contents (Elt F)),
    binary main_call1_v5 main_call1_v9 main_call1_v10 ((cmpi .sle) : (⟨S4096x1x1, .i32⟩ : BufTy).Contents (Elt F) → (⟨S4096x1x1, .i32⟩ : BufTy).Contents (Elt F) → (⟨S4096x1x1, .i1⟩ : BufTy).Contents (Elt F)),
    binary main_call1_v7 main_call1_v10 main_call1_v11 ((andi) : (⟨S4096x1x1, .i1⟩ : BufTy).Contents (Elt F) → (⟨S4096x1x1, .i1⟩ : BufTy).Contents (Elt F) → (⟨S4096x1x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S4096x1x1_S4096x1_d2 h_S_) : (⟨S4096x1x1, .i1⟩ : BufTy).Contents (Elt F) → (⟨S_, .i1⟩ : BufTy).Contents (Elt F) → (⟨S4096x1, .i1⟩ : BufTy).Contents (Elt F)),
    binary main_v0 main_call1_v5 main_call1_v13 ((fun x i => Host.gather gather_S4096x32000_S4096x1x1_S4096x1_n_1_0_0_1_2_11 x i) : (⟨S4096x32000, .f32⟩ : BufTy).Contents (Elt F) → (⟨S4096x1x1, .i32⟩ : BufTy).Contents (Elt F) → (⟨S4096x1, .f32⟩ : BufTy).Contents (Elt F)),
    nullary main_call1_cst (constant S_ .f32 0x7FC00000#32 : (⟨S_, .f32⟩ : BufTy).Contents (Elt F)),
    unary main_call1_cst main_call1_v14 ((broadcastInDim S4096x1 ![] bcast_S_S4096x1) : (⟨S_, .f32⟩ : BufTy).Contents (Elt F) → (⟨S4096x1, .f32⟩ : BufTy).Contents (Elt F)),
    ternary main_call1_v12 main_call1_v13 main_call1_v14 main_v2 ((select) : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)) ]

theorem opsB_eq : (opsB : List (HloOp τ sig (Elt F))) = opsB' :=
  cons_congr rfl (cons_congr (nullary_plain ..)
  (cons_congr (unary_plain ..)
  (cons_congr (binary_plain ..)
  (cons_congr (nullary_plain ..)
  (cons_congr (unary_plain ..)
  (cons_congr (binary_plain ..)
  (cons_congr (ternary_plain ..)
  (cons_congr (reshape_plain ..)
  (cons_congr (nullary_plain ..)
  (cons_congr (nullary_plain ..)
  (cons_congr (unary_plain ..)
  (cons_congr (binary_plain ..)
  (cons_congr (unary_plain ..)
  (cons_congr (unary_plain ..)
  (cons_congr (binary_plain ..)
  (cons_congr (binary_plain ..)
  (cons_congr (nullary_plain ..)
  (cons_congr (binary_plain ..)
  (cons_congr (binary_plain ..)
  (cons_congr (nullary_plain ..)
  (cons_congr (unary_plain ..)
  (cons_congr (ternary_plain ..) (rfl)))))))))))))))))))))))

/-- Stretch C over bare buffers. -/
abbrev opsC' : List (HloOp τ sig (Elt F)) :=
  [ nullary main_cst (constant S_ .f32 0x00000000#32),
    binary main_v2 main_cst main_v3 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_0 (constant S_ .f32 0x45800000#32),
    binary main_v3 main_cst_0 main_v4 (Host.divf : (⟨S_, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)) ]

theorem opsC_eq : (opsC : List (HloOp τ sig (Elt F))) = opsC' :=
  cons_congr rfl (cons_congr rfl (cons_congr rfl (cons_congr rfl (cons_congr rfl (rfl)))))

/-- Stretch D over bare buffers. -/
abbrev opsD' : List (HloOp τ sig (Elt F)) :=
  [ nullary main_cst_1 (constant S_ .f32 0x3F19999A#32),
    unary main_cst_1 main_v6 (broadcastInDim S4096 ![] bcast_S_S4096 : (⟨S_, .f32⟩ : BufTy).Contents (Elt F) → (⟨S4096, .f32⟩ : BufTy).Contents (Elt F)),
    binary main_v6 main_arg3 main_v7 (subf : (⟨S4096, .f32⟩ : BufTy).Contents (Elt F) → (⟨S4096, .f32⟩ : BufTy).Contents (Elt F) → (⟨S4096, .f32⟩ : BufTy).Contents (Elt F)),
    nullary main_cst_2 (constant S_ .f32 0x40000000#32),
    unary main_cst_2 main_v8 (broadcastInDim S4096 ![] bcast_S_S4096 : (⟨S_, .f32⟩ : BufTy).Contents (Elt F) → (⟨S4096, .f32⟩ : BufTy).Contents (Elt F)),
    binary main_v7 main_v8 main_v9 (mulf : (⟨S4096, .f32⟩ : BufTy).Contents (Elt F) → (⟨S4096, .f32⟩ : BufTy).Contents (Elt F) → (⟨S4096, .f32⟩ : BufTy).Contents (Elt F)),
    nullary main_cst_3 (constant S_ .f32 0x40200000#32),
    unary main_cst_3 main_v10 (broadcastInDim S4096 ![] bcast_S_S4096 : (⟨S_, .f32⟩ : BufTy).Contents (Elt F) → (⟨S4096, .f32⟩ : BufTy).Contents (Elt F)),
    binary main_v10 main_v9 main_v11 (addf : (⟨S4096, .f32⟩ : BufTy).Contents (Elt F) → (⟨S4096, .f32⟩ : BufTy).Contents (Elt F) → (⟨S4096, .f32⟩ : BufTy).Contents (Elt F)),
    nullary main_cst_4 (constant S_ .f32 0x40400000#32),
    unary main_cst_4 main_v12 (broadcastInDim S4096 ![] bcast_S_S4096 : (⟨S_, .f32⟩ : BufTy).Contents (Elt F) → (⟨S4096, .f32⟩ : BufTy).Contents (Elt F)),
    binary main_v11 main_v12 main_v13 (minimumf : (⟨S4096, .f32⟩ : BufTy).Contents (Elt F) → (⟨S4096, .f32⟩ : BufTy).Contents (Elt F) → (⟨S4096, .f32⟩ : BufTy).Contents (Elt F)),
    nullary main_cst_5 (constant S_ .f32 0x3F666666#32),
    unary main_cst_5 main_v14 (broadcastInDim S4096 ![] bcast_S_S4096 : (⟨S_, .f32⟩ : BufTy).Contents (Elt F) → (⟨S4096, .f32⟩ : BufTy).Contents (Elt F)),
    binary main_arg3 main_v14 main_v15 (cmpf .ogt : (⟨S4096, .f32⟩ : BufTy).Contents (Elt F) → (⟨S4096, .f32⟩ : BufTy).Contents (Elt F) → (⟨S4096, .i1⟩ : BufTy).Contents (Elt F)),
    nullary main_cst_6 (constant S_ .f32 0x3F19999A#32),
    unary main_cst_6 main_v16 (broadcastInDim S4096 ![] bcast_S_S4096 : (⟨S_, .f32⟩ : BufTy).Contents (Elt F) → (⟨S4096, .f32⟩ : BufTy).Contents (Elt F)),
    binary main_arg3 main_v16 main_v17 (cmpf .ogt : (⟨S4096, .f32⟩ : BufTy).Contents (Elt F) → (⟨S4096, .f32⟩ : BufTy).Contents (Elt F) → (⟨S4096, .i1⟩ : BufTy).Contents (Elt F)),
    nullary main_cst_7 (constant S_ .f32 0x40000000#32),
    unary main_cst_7 main_call2_v0 ((id) : (⟨S_, .f32⟩ : BufTy).Contents (Elt F) → (⟨S_, .f32⟩ : BufTy).Contents (Elt F)),
    unary main_call2_v0 main_call2_v1 ((broadcastInDim S4096 ![] bcast_S_S4096) : (⟨S_, .f32⟩ : BufTy).Contents (Elt F) → (⟨S4096, .f32⟩ : BufTy).Contents (Elt F)),
    ternary main_v17 main_call2_v1 main_v13 main_v18 ((select) : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    nullary main_cst_8 (constant S_ .f32 0x3FC00000#32),
    unary main_cst_8 main_call3_v0 ((id) : (⟨S_, .f32⟩ : BufTy).Contents (Elt F) → (⟨S_, .f32⟩ : BufTy).Contents (Elt F)),
    unary main_call3_v0 main_call3_v1 ((broadcastInDim S4096 ![] bcast_S_S4096) : (⟨S_, .f32⟩ : BufTy).Contents (Elt F) → (⟨S4096, .f32⟩ : BufTy).Contents (Elt F)),
    ternary main_v15 main_call3_v1 main_v18 main_v19 ((select) : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ]

theorem opsD_eq : (opsD : List (HloOp τ sig (Elt F))) = opsD' :=
  cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr (unary_plain ..)
  (cons_congr (unary_plain ..)
  (cons_congr (ternary_plain ..)
  (cons_congr rfl (cons_congr (unary_plain ..)
  (cons_congr (unary_plain ..)
  (cons_congr (ternary_plain ..) (rfl))))))))))))))))))))))))))

/-- Stretch E over bare buffers. -/
abbrev opsE' : List (HloOp τ sig (Elt F)) :=
  [ unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x32000 ![0, 1] bcast_S4096x1_S4096x32000_0_1 : (⟨S4096x1, .f32⟩ : BufTy).Contents (Elt F) → (⟨S4096x32000, .f32⟩ : BufTy).Contents (Elt F)),
    binary main_arg0 main_v21 main_v22 (Host.divf : (⟨S4096x32000, .f32⟩ : BufTy).Contents (Elt F) → (⟨S4096x32000, .f32⟩ : BufTy).Contents (Elt F) → (⟨S4096x32000, .f32⟩ : BufTy).Contents (Elt F)) ]

theorem opsE_eq : (opsE : List (HloOp τ sig (Elt F))) = opsE' :=
  cons_congr rfl (cons_congr rfl (cons_congr rfl (rfl)))

/-- Stretch F over bare buffers. -/
abbrev opsF' : List (HloOp τ sig (Elt F)) :=
  [ nullary main_call4_cst (constant S_ .f32 0xFF800000#32 : (⟨S_, .f32⟩ : BufTy).Contents (Elt F)),
    binary main_v22 main_call4_cst main_call4_v0 ((fun x v => Host.reduce FloatOps.maximumf x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_call4_cst_0 (constant S_ .f32 0xFF800000#32 : (⟨S_, .f32⟩ : BufTy).Contents (Elt F)),
    unary main_call4_cst_0 main_call4_v1 ((broadcastInDim S4096 ![] bcast_S_S4096) : (⟨S_, .f32⟩ : BufTy).Contents (Elt F) → (⟨S4096, .f32⟩ : BufTy).Contents (Elt F)),
    binary main_call4_v1 main_call4_v0 main_call4_v2 ((maximumf) : (⟨S4096, .f32⟩ : BufTy).Contents (Elt F) → (⟨S4096, .f32⟩ : BufTy).Contents (Elt F) → (⟨S4096, .f32⟩ : BufTy).Contents (Elt F)),
    unary main_call4_v2 main_call4_v3 ((broadcastInDim S4096x1 ![0] bcast_S4096_S4096x1_0) : (⟨S4096, .f32⟩ : BufTy).Contents (Elt F) → (⟨S4096x1, .f32⟩ : BufTy).Contents (Elt F)),
    unary main_call4_v3 main_call4_v4 ((broadcastInDim S4096x32000 ![0, 1] bcast_S4096x1_S4096x32000_0_1) : (⟨S4096x1, .f32⟩ : BufTy).Contents (Elt F) → (⟨S4096x32000, .f32⟩ : BufTy).Contents (Elt F)),
    binary main_v22 main_call4_v4 main_call4_v5 ((subf) : (⟨S4096x32000, .f32⟩ : BufTy).Contents (Elt F) → (⟨S4096x32000, .f32⟩ : BufTy).Contents (Elt F) → (⟨S4096x32000, .f32⟩ : BufTy).Contents (Elt F)),
    unary main_call4_v5 main_call4_v6 ((Host.exp) : (⟨S4096x32000, .f32⟩ : BufTy).Contents (Elt F) → (⟨S4096x32000, .f32⟩ : BufTy).Contents (Elt F)),
    nullary main_call4_cst_1 (constant S_ .f32 0x00000000#32 : (⟨S_, .f32⟩ : BufTy).Contents (Elt F)),
    binary main_call4_v6 main_call4_cst_1 main_call4_v7 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    unary main_call4_v7 main_call4_v8 ((broadcastInDim S4096x1 ![0] bcast_S4096_S4096x1_0) : (⟨S4096, .f32⟩ : BufTy).Contents (Elt F) → (⟨S4096x1, .f32⟩ : BufTy).Contents (Elt F)),
    unary main_call4_v8 main_call4_v9 ((Host.log) : (⟨S4096x1, .f32⟩ : BufTy).Contents (Elt F) → (⟨S4096x1, .f32⟩ : BufTy).Contents (Elt F)),
    unary main_call4_v9 main_call4_v10 ((broadcastInDim S4096x32000 ![0, 1] bcast_S4096x1_S4096x32000_0_1) : (⟨S4096x1, .f32⟩ : BufTy).Contents (Elt F) → (⟨S4096x32000, .f32⟩ : BufTy).Contents (Elt F)),
    binary main_call4_v5 main_call4_v10 main_v23 ((subf) : (⟨S4096x32000, .f32⟩ : BufTy).Contents (Elt F) → (⟨S4096x32000, .f32⟩ : BufTy).Contents (Elt F) → (⟨S4096x32000, .f32⟩ : BufTy).Contents (Elt F)) ]

theorem opsF_eq : (opsF : List (HloOp τ sig (Elt F))) = opsF' :=
  cons_congr (nullary_plain ..)
  (cons_congr (binary_plain ..)
  (cons_congr (nullary_plain ..)
  (cons_congr (unary_plain ..)
  (cons_congr (binary_plain ..)
  (cons_congr (unary_plain ..)
  (cons_congr (unary_plain ..)
  (cons_congr (binary_plain ..)
  (cons_congr (unary_plain ..)
  (cons_congr (nullary_plain ..)
  (cons_congr (binary_plain ..)
  (cons_congr (unary_plain ..)
  (cons_congr (unary_plain ..)
  (cons_congr (unary_plain ..)
  (cons_congr (binary_plain ..) (rfl)))))))))))))))

/-- Stretch G over bare buffers. -/
abbrev opsG' : List (HloOp τ sig (Elt F)) :=
  [ nullary main_cst_9 (constant S_ .f32 0x00000000#32),
    unary main_cst_9 main_v24 (broadcastInDim S4096x32000 ![] bcast_S_S4096x32000 : (⟨S_, .f32⟩ : BufTy).Contents (Elt F) → (⟨S4096x32000, .f32⟩ : BufTy).Contents (Elt F)),
    binary main_arg2 main_v24 main_v25 (cmpf .une : (⟨S4096x32000, .f32⟩ : BufTy).Contents (Elt F) → (⟨S4096x32000, .f32⟩ : BufTy).Contents (Elt F) → (⟨S4096x32000, .i1⟩ : BufTy).Contents (Elt F)),
    binary main_arg2 main_arg2 main_v26 (cmpf .une : (⟨S4096x32000, .f32⟩ : BufTy).Contents (Elt F) → (⟨S4096x32000, .f32⟩ : BufTy).Contents (Elt F) → (⟨S4096x32000, .i1⟩ : BufTy).Contents (Elt F)),
    binary main_v25 main_v26 main_v27 (ori : (⟨S4096x32000, .i1⟩ : BufTy).Contents (Elt F) → (⟨S4096x32000, .i1⟩ : BufTy).Contents (Elt F) → (⟨S4096x32000, .i1⟩ : BufTy).Contents (Elt F)),
    unary main_arg2 main_v28 (Host.log : (⟨S4096x32000, .f32⟩ : BufTy).Contents (Elt F) → (⟨S4096x32000, .f32⟩ : BufTy).Contents (Elt F)),
    binary main_arg2 main_v28 main_v29 (mulf : (⟨S4096x32000, .f32⟩ : BufTy).Contents (Elt F) → (⟨S4096x32000, .f32⟩ : BufTy).Contents (Elt F) → (⟨S4096x32000, .f32⟩ : BufTy).Contents (Elt F)),
    nullary main_cst_10 (constant S_ .f32 0x00000000#32),
    unary main_cst_10 main_v30 (broadcastInDim S4096x32000 ![] bcast_S_S4096x32000 : (⟨S_, .f32⟩ : BufTy).Contents (Elt F) → (⟨S4096x32000, .f32⟩ : BufTy).Contents (Elt F)),
    ternary main_v27 main_v29 main_v30 main_v31 ((select) : (⟨S4096x32000, .i1⟩ : BufTy).Contents (Elt F) → (⟨S4096x32000, .f32⟩ : BufTy).Contents (Elt F) → (⟨S4096x32000, .f32⟩ : BufTy).Contents (Elt F) → (⟨S4096x32000, .f32⟩ : BufTy).Contents (Elt F)),
    binary main_arg2 main_v23 main_v32 (mulf : (⟨S4096x32000, .f32⟩ : BufTy).Contents (Elt F) → (⟨S4096x32000, .f32⟩ : BufTy).Contents (Elt F) → (⟨S4096x32000, .f32⟩ : BufTy).Contents (Elt F)),
    binary main_v31 main_v32 main_v33 (subf : (⟨S4096x32000, .f32⟩ : BufTy).Contents (Elt F) → (⟨S4096x32000, .f32⟩ : BufTy).Contents (Elt F) → (⟨S4096x32000, .f32⟩ : BufTy).Contents (Elt F)) ]

theorem opsG_eq : (opsG : List (HloOp τ sig (Elt F))) = opsG' :=
  cons_congr rfl (cons_congr rfl (cons_congr rfl (cons_congr rfl (cons_congr rfl (cons_congr rfl (cons_congr rfl (cons_congr rfl (cons_congr rfl (cons_congr (ternary_plain ..)
  (cons_congr rfl (cons_congr rfl (rfl))))))))))))

/-- Stretch H over bare buffers. -/
abbrev opsH' : List (HloOp τ sig (Elt F)) :=
  [ nullary main_cst_11 (constant S_ .f32 0x00000000#32),
    binary main_v33 main_cst_11 main_v34 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_cst_12 (constant S_ .f32 0x00000000#32),
    binary main_v34 main_cst_12 main_v35 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_13 (constant S_ .f32 0x45800000#32),
    binary main_v35 main_cst_13 main_v36 (Host.divf : (⟨S_, .f32⟩ : BufTy).Contents (Elt F) → (⟨S_, .f32⟩ : BufTy).Contents (Elt F) → (⟨S_, .f32⟩ : BufTy).Contents (Elt F)),
    nullary main_cst_14 (constant S_ .f32 0x3F000000#32),
    binary main_cst_14 main_v36 main_v37 (mulf : (⟨S_, .f32⟩ : BufTy).Contents (Elt F) → (⟨S_, .f32⟩ : BufTy).Contents (Elt F) → (⟨S_, .f32⟩ : BufTy).Contents (Elt F)),
    nullary main_cst_15 (constant S_ .f32 0x3F000000#32),
    binary main_cst_15 main_v5 main_v38 (mulf : (⟨S_, .f32⟩ : BufTy).Contents (Elt F) → (⟨S_, .f32⟩ : BufTy).Contents (Elt F) → (⟨S_, .f32⟩ : BufTy).Contents (Elt F)),
    binary main_v37 main_v38 main_v39 (addf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_v19 main_cst_16 main_v40 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_17 (constant S_ .f32 0x45800000#32),
    binary main_v40 main_cst_17 main_v41 (Host.divf : (⟨S_, .f32⟩ : BufTy).Contents (Elt F) → (⟨S_, .f32⟩ : BufTy).Contents (Elt F) → (⟨S_, .f32⟩ : BufTy).Contents (Elt F)) ]

theorem opsH_eq : (opsH : List (HloOp τ sig (Elt F))) = opsH' :=
  cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (rfl)))))))))))))))

end Cert.Loss.RefRun

end
-- ==== Proof.RefDefs.lean ====
/-
  The stages of the loss as the reference program composes them from its host operations, each a function of the
  arrays it reads, for any float family: the temperature vector; a row's maximum laid over the columns and the rows'
  log-softmax; the label column as a start index with its wrap of a negative index, the range mask and the indexed read;
  the entropy term of the soft labels; the quotient of the logits by the temperatures; and the means. The fold of each
  stretch of @main's operations is one of these applied to the stretch's inputs, and at the ideal values each is read
  at an index as the corresponding function of the specification.
-/
import proofs.«423406_j41034117546381_2_alg».proof.Proof.Gen.ReferenceIdeal

noncomputable section

namespace Cert.Loss.Ref

open Cert.ReferenceIdeal Cert.ReferenceIdeal.Gen Idealize.ShloMosaic

variable {F : FTy → Type} [FloatOps F]

/-- The temperature vector as the reference composes it from the confidences. -/
def tempVec (cf : FVec F S4096 .f32) : FVec F S4096 .f32 :=
  select (cmpf .ogt cf (broadcastInDim S4096 ![] bcast_S_S4096 (constant S_ .f32 0x3F666666#32))) (broadcastInDim S4096 ![] bcast_S_S4096 (id (constant S_ .f32 0x3FC00000#32))) (select (cmpf .ogt cf (broadcastInDim S4096 ![] bcast_S_S4096 (constant S_ .f32 0x3F19999A#32))) (broadcastInDim S4096 ![] bcast_S_S4096 (id (constant S_ .f32 0x40000000#32))) (minimumf (addf (broadcastInDim S4096 ![] bcast_S_S4096 (constant S_ .f32 0x40200000#32)) (mulf (subf (broadcastInDim S4096 ![] bcast_S_S4096 (constant S_ .f32 0x3F19999A#32)) cf) (broadcastInDim S4096 ![] bcast_S_S4096 (constant S_ .f32 0x40000000#32)))) (broadcastInDim S4096 ![] bcast_S_S4096 (constant S_ .f32 0x40400000#32))))

/-- The mean of a vector over the batch: the host's sum from 0, divided by the word 4096. -/
def meanVec (v : FVec F S4096 .f32) : FVec F S_ .f32 :=
  Host.divf (Host.reduceAdd v (constant S_ .f32 0x00000000#32) reducesTo_S4096_S_d0 h_S_) (constant S_ .f32 0x45800000#32)

/-- Each row's maximum, laid back over the columns. -/
def rowMaxArr (x : FVec F S4096x32000 .f32) : FVec F S4096x32000 .f32 :=
  broadcastInDim S4096x32000 ![0, 1] bcast_S4096x1_S4096x32000_0_1 (broadcastInDim S4096x1 ![0] bcast_S4096_S4096x1_0 (maximumf (broadcastInDim S4096 ![] bcast_S_S4096 (constant S_ .f32 0xFF800000#32)) (Host.reduce FloatOps.maximumf x (constant S_ .f32 0xFF800000#32) reducesTo_S4096x32000_S4096_d1 h_S_)))

/-- The log-softmax of every row. -/
def lsmArr (x : FVec F S4096x32000 .f32) : FVec F S4096x32000 .f32 :=
  subf (subf x (rowMaxArr x)) (broadcastInDim S4096x32000 ![0, 1] bcast_S4096x1_S4096x32000_0_1 (Host.log (broadcastInDim S4096x1 ![0] bcast_S4096_S4096x1_0 (Host.reduceAdd (Host.exp (subf x (rowMaxArr x))) (constant S_ .f32 0x00000000#32) reducesTo_S4096x32000_S4096_d1 h_S_))))

/-- The labels as a column. -/
def labCol (lab : IVec S4096 32) : IVec S4096x1 32 := broadcastInDim S4096x1 ![0] bcast_S4096_S4096x1_0 lab

/-- The start indices of the indexed read: the label column with a negative label moved up by 32000, as a
    [4096 × 1 × 1] array. -/
def idxArr (lab : IVec S4096 32) : IVec S4096x1x1 32 :=
  shapeCast S4096x1x1 (select (cmpi .slt (labCol lab) (broadcastInDim S4096x1 ![] bcast_S_S4096x1 (constantI S_ 32 0#32))) (addi (labCol lab) (broadcastInDim S4096x1 ![] bcast_S_S4096x1 (constantI S_ 32 32000#32))) (labCol lab)) shapeCasts_S4096x1_S4096x1x1

/-- The range mask of the indexed read: 0 ≤ index ≤ 31999, and-reduced over the index vector's unit axis. -/
def maskArr (lab : IVec S4096 32) : IVec S4096x1 1 :=
  Host.reduce IntOp.andi (andi (cmpi .sge (idxArr lab) (broadcastInDim S4096x1x1 ![] bcast_S_S4096x1x1 (constantI S_ 32 0#32))) (cmpi .sle (idxArr lab) (broadcastInDim S4096x1x1 ![0, 1, 2] bcast_S1x1x1_S4096x1x1_0_1_2 (broadcastInDim S1x1x1 ![2] bcast_S1_S1x1x1_2 (constantI S1 32 31999#32))))) (constantI S_ 1 1#1) reducesTo_S4096x1x1_S4096x1_d2 h_S_

/-- The indexed read of an array at the labels: where the mask holds, the array's entry at the start index of each row,
    and elsewhere the fill word 0x7FC00000. -/
def pickArr (L : FVec F S4096x32000 .f32) (lab : IVec S4096 32) : FVec F S4096x1 .f32 :=
  select (maskArr lab) (Host.gather gather_S4096x32000_S4096x1x1_S4096x1_n_1_0_0_1_2_11 L (idxArr lab)) (broadcastInDim S4096x1 ![] bcast_S_S4096x1 (constant S_ .f32 0x7FC00000#32))

/-- The cross-entropy from the picked column: its sum from 0 over both axes, divided by the word 4096, negated. -/
def ceOf (p : FVec F S4096x1 .f32) : FVec F S_ .f32 :=
  Host.negf (Host.divf (Host.reduceAdd p (constant S_ .f32 0x00000000#32) reducesTo_S4096x1_S_d0_1 h_S_) (constant S_ .f32 0x45800000#32))

/-- The logits divided, row by row, by the temperatures. -/
def divT (lg : FVec F S4096x32000 .f32) (t : FVec F S4096 .f32) : FVec F S4096x32000 .f32 :=
  Host.divf lg (broadcastInDim S4096x32000 ![0, 1] bcast_S4096x1_S4096x32000_0_1 (broadcastInDim S4096x1 ![0] bcast_S4096_S4096x1_0 t))

/-- The entropy term s · log s of the soft labels, 0 where s = 0. -/
def xlogyArr (sf : FVec F S4096x32000 .f32) : FVec F S4096x32000 .f32 :=
  select (ori (cmpf .une sf (broadcastInDim S4096x32000 ![] bcast_S_S4096x32000 (constant S_ .f32 0x00000000#32))) (cmpf .une sf sf)) (mulf sf (Host.log sf)) (broadcastInDim S4096x32000 ![] bcast_S_S4096x32000 (constant S_ .f32 0x00000000#32))

/-- The divergence's summand: the entropy term less s times a log-softmax array. -/
def klArr (sf L : FVec F S4096x32000 .f32) : FVec F S4096x32000 .f32 :=
  subf (xlogyArr sf) (mulf sf L)

/-- The mean over the batch of an array's row sums: the sum over the columns from 0, then over the rows from 0, divided
    by the word 4096. -/
def meanAll (y : FVec F S4096x32000 .f32) : FVec F S_ .f32 :=
  Host.divf (Host.reduceAdd (Host.reduceAdd y (constant S_ .f32 0x00000000#32) reducesTo_S4096x32000_S4096_d1 h_S_) (constant S_ .f32 0x00000000#32) reducesTo_S4096_S_d0 h_S_) (constant S_ .f32 0x45800000#32)

/-- The loss from the divergence and the cross-entropy: half of each. -/
def totalOf (kl ce : FVec F S_ .f32) : FVec F S_ .f32 :=
  addf (mulf (constant S_ .f32 0x3F000000#32) kl) (mulf (constant S_ .f32 0x3F000000#32) ce)

end Cert.Loss.Ref

end
-- ==== Proof.RefFold.lean ====
/-
  The fold of each stretch of @main's operations (over bare buffers) at the buffer the stretch hands on, as a stage of
  the loss applied to the contents the stretch reads, for any float family; and the buffers each stretch leaves as they
  were. A stretch's fold unrolls operation by operation: at the buffer an operation writes the result is its function of
  the operands' contents, at any other buffer what was there; the composed term is the stage's definition, symbol for
  symbol.
-/
import proofs.«423406_j41034117546381_2_alg».proof.Proof.RefPlain
import proofs.«423406_j41034117546381_2_alg».proof.Proof.RefDefs

noncomputable section

namespace Cert.Loss.RefRun

open Cert.ReferenceIdeal Cert.ReferenceIdeal.Gen Idealize.ShloMosaic Idealize.ShloMosaic.TcCoe Idealize.SL.Sem Idealize.ShloMosaic.StableHlo Cert.Loss.Ref

variable {F : FTy → Type} [FloatOps F]

/-! ## What each stretch computes -/

set_option maxHeartbeats 1000000 in
/-- Stretch A: the log-softmax of the logits. -/
theorem foldA (W : Valuation τ sig (Elt F)) :
    after opsA' W (Proc.devRef .tc main_v0) = lsmArr (W (Proc.devRef .tc main_arg0)) := by
  after_results_simp
  all_goals rfl

set_option maxHeartbeats 1000000 in
/-- Stretch B: the indexed read of the log-softmax at the labels. -/
theorem foldB (W : Valuation τ sig (Elt F)) :
    after opsB' W (Proc.devRef .tc main_v2) = pickArr (W (Proc.devRef .tc main_v0)) (W (Proc.devRef .tc main_arg1)) := by
  after_results_simp
  all_goals rfl

set_option maxHeartbeats 1000000 in
/-- Stretch C: the cross-entropy from the picked column. -/
theorem foldC (W : Valuation τ sig (Elt F)) :
    after opsC' W (Proc.devRef .tc main_v5) = ceOf (W (Proc.devRef .tc main_v2)) := by
  after_results_simp
  all_goals rfl

set_option maxHeartbeats 1000000 in
/-- Stretch D: the temperature vector. -/
theorem foldD (W : Valuation τ sig (Elt F)) :
    after opsD' W (Proc.devRef .tc main_v19) = tempVec (W (Proc.devRef .tc main_arg3)) := by
  after_results_simp
  all_goals rfl

set_option maxHeartbeats 1000000 in
/-- Stretch E: the logits divided by the temperatures. -/
theorem foldE (W : Valuation τ sig (Elt F)) :
    after opsE' W (Proc.devRef .tc main_v22) = divT (W (Proc.devRef .tc main_arg0)) (W (Proc.devRef .tc main_v19)) := by
  after_results_simp
  all_goals rfl

set_option maxHeartbeats 1000000 in
/-- Stretch F: the log-softmax of the divided logits. -/
theorem foldF (W : Valuation τ sig (Elt F)) :
    after opsF' W (Proc.devRef .tc main_v23) = lsmArr (W (Proc.devRef .tc main_v22)) := by
  after_results_simp
  all_goals rfl

set_option maxHeartbeats 1000000 in
/-- Stretch G: the divergence's summand. -/
theorem foldG (W : Valuation τ sig (Elt F)) :
    after opsG' W (Proc.devRef .tc main_v33) = klArr (W (Proc.devRef .tc main_arg2)) (W (Proc.devRef .tc main_v23)) := by
  after_results_simp
  all_goals rfl

set_option maxHeartbeats 1000000 in
/-- Stretch H: the mean divergence … -/
theorem foldH_kl (W : Valuation τ sig (Elt F)) :
    after opsH' W (Proc.devRef .tc main_v36) = meanAll (W (Proc.devRef .tc main_v33)) := by
  after_results_simp
  all_goals rfl

set_option maxHeartbeats 1000000 in
/-- … the loss … -/
theorem foldH_total (W : Valuation τ sig (Elt F)) :
    after opsH' W (Proc.devRef .tc main_v39) = totalOf (meanAll (W (Proc.devRef .tc main_v33))) (W (Proc.devRef .tc main_v5)) := by
  after_results_simp
  all_goals rfl

set_option maxHeartbeats 1000000 in
/-- … and the mean temperature. -/
theorem foldH_temp (W : Valuation τ sig (Elt F)) :
    after opsH' W (Proc.devRef .tc main_v41) = meanVec (W (Proc.devRef .tc main_v19)) := by
  after_results_simp
  all_goals rfl

/-! ## What each stretch leaves as it was -/

theorem keepA_arg0 (W : Valuation τ sig (Elt F)) :
    after opsA' W (Proc.devRef .tc main_arg0) = W (Proc.devRef .tc main_arg0) := by
  after_results
  all_goals rfl
theorem keepA_arg1 (W : Valuation τ sig (Elt F)) :
    after opsA' W (Proc.devRef .tc main_arg1) = W (Proc.devRef .tc main_arg1) := by
  after_results
  all_goals rfl
theorem keepA_arg2 (W : Valuation τ sig (Elt F)) :
    after opsA' W (Proc.devRef .tc main_arg2) = W (Proc.devRef .tc main_arg2) := by
  after_results
  all_goals rfl
theorem keepA_arg3 (W : Valuation τ sig (Elt F)) :
    after opsA' W (Proc.devRef .tc main_arg3) = W (Proc.devRef .tc main_arg3) := by
  after_results
  all_goals rfl

theorem keepB_arg0 (W : Valuation τ sig (Elt F)) :
    after opsB' W (Proc.devRef .tc main_arg0) = W (Proc.devRef .tc main_arg0) := by
  after_results
  all_goals rfl
theorem keepB_arg1 (W : Valuation τ sig (Elt F)) :
    after opsB' W (Proc.devRef .tc main_arg1) = W (Proc.devRef .tc main_arg1) := by
  after_results
  all_goals rfl
theorem keepB_arg2 (W : Valuation τ sig (Elt F)) :
    after opsB' W (Proc.devRef .tc main_arg2) = W (Proc.devRef .tc main_arg2) := by
  after_results
  all_goals rfl
theorem keepB_arg3 (W : Valuation τ sig (Elt F)) :
    after opsB' W (Proc.devRef .tc main_arg3) = W (Proc.devRef .tc main_arg3) := by
  after_results
  all_goals rfl

theorem keepC_arg0 (W : Valuation τ sig (Elt F)) :
    after opsC' W (Proc.devRef .tc main_arg0) = W (Proc.devRef .tc main_arg0) := by
  after_results
  all_goals rfl
theorem keepC_arg1 (W : Valuation τ sig (Elt F)) :
    after opsC' W (Proc.devRef .tc main_arg1) = W (Proc.devRef .tc main_arg1) := by
  after_results
  all_goals rfl
theorem keepC_arg2 (W : Valuation τ sig (Elt F)) :
    after opsC' W (Proc.devRef .tc main_arg2) = W (Proc.devRef .tc main_arg2) := by
  after_results
  all_goals rfl
theorem keepC_arg3 (W : Valuation τ sig (Elt F)) :
    after opsC' W (Proc.devRef .tc main_arg3) = W (Proc.devRef .tc main_arg3) := by
  after_results
  all_goals rfl

theorem keepD_arg0 (W : Valuation τ sig (Elt F)) :
    after opsD' W (Proc.devRef .tc main_arg0) = W (Proc.devRef .tc main_arg0) := by
  after_results
  all_goals rfl
theorem keepD_arg1 (W : Valuation τ sig (Elt F)) :
    after opsD' W (Proc.devRef .tc main_arg1) = W (Proc.devRef .tc main_arg1) := by
  after_results
  all_goals rfl
theorem keepD_arg2 (W : Valuation τ sig (Elt F)) :
    after opsD' W (Proc.devRef .tc main_arg2) = W (Proc.devRef .tc main_arg2) := by
  after_results
  all_goals rfl
theorem keepD_arg3 (W : Valuation τ sig (Elt F)) :
    after opsD' W (Proc.devRef .tc main_arg3) = W (Proc.devRef .tc main_arg3) := by
  after_results
  all_goals rfl
theorem keepD_v5 (W : Valuation τ sig (Elt F)) :
    after opsD' W (Proc.devRef .tc main_v5) = W (Proc.devRef .tc main_v5) := by
  after_results
  all_goals rfl

theorem keepE_arg0 (W : Valuation τ sig (Elt F)) :
    after opsE' W (Proc.devRef .tc main_arg0) = W (Proc.devRef .tc main_arg0) := by
  after_results
  all_goals rfl
theorem keepE_arg1 (W : Valuation τ sig (Elt F)) :
    after opsE' W (Proc.devRef .tc main_arg1) = W (Proc.devRef .tc main_arg1) := by
  after_results
  all_goals rfl
theorem keepE_arg2 (W : Valuation τ sig (Elt F)) :
    after opsE' W (Proc.devRef .tc main_arg2) = W (Proc.devRef .tc main_arg2) := by
  after_results
  all_goals rfl
theorem keepE_arg3 (W : Valuation τ sig (Elt F)) :
    after opsE' W (Proc.devRef .tc main_arg3) = W (Proc.devRef .tc main_arg3) := by
  after_results
  all_goals rfl
theorem keepE_v5 (W : Valuation τ sig (Elt F)) :
    after opsE' W (Proc.devRef .tc main_v5) = W (Proc.devRef .tc main_v5) := by
  after_results
  all_goals rfl
theorem keepE_v19 (W : Valuation τ sig (Elt F)) :
    after opsE' W (Proc.devRef .tc main_v19) = W (Proc.devRef .tc main_v19) := by
  after_results
  all_goals rfl

theorem keepF_arg0 (W : Valuation τ sig (Elt F)) :
    after opsF' W (Proc.devRef .tc main_arg0) = W (Proc.devRef .tc main_arg0) := by
  after_results
  all_goals rfl
theorem keepF_arg1 (W : Valuation τ sig (Elt F)) :
    after opsF' W (Proc.devRef .tc main_arg1) = W (Proc.devRef .tc main_arg1) := by
  after_results
  all_goals rfl
theorem keepF_arg2 (W : Valuation τ sig (Elt F)) :
    after opsF' W (Proc.devRef .tc main_arg2) = W (Proc.devRef .tc main_arg2) := by
  after_results
  all_goals rfl
theorem keepF_arg3 (W : Valuation τ sig (Elt F)) :
    after opsF' W (Proc.devRef .tc main_arg3) = W (Proc.devRef .tc main_arg3) := by
  after_results
  all_goals rfl
theorem keepF_v5 (W : Valuation τ sig (Elt F)) :
    after opsF' W (Proc.devRef .tc main_v5) = W (Proc.devRef .tc main_v5) := by
  after_results
  all_goals rfl
theorem keepF_v19 (W : Valuation τ sig (Elt F)) :
    after opsF' W (Proc.devRef .tc main_v19) = W (Proc.devRef .tc main_v19) := by
  after_results
  all_goals rfl

theorem keepG_arg0 (W : Valuation τ sig (Elt F)) :
    after opsG' W (Proc.devRef .tc main_arg0) = W (Proc.devRef .tc main_arg0) := by
  after_results
  all_goals rfl
theorem keepG_arg1 (W : Valuation τ sig (Elt F)) :
    after opsG' W (Proc.devRef .tc main_arg1) = W (Proc.devRef .tc main_arg1) := by
  after_results
  all_goals rfl
theorem keepG_arg2 (W : Valuation τ sig (Elt F)) :
    after opsG' W (Proc.devRef .tc main_arg2) = W (Proc.devRef .tc main_arg2) := by
  after_results
  all_goals rfl
theorem keepG_arg3 (W : Valuation τ sig (Elt F)) :
    after opsG' W (Proc.devRef .tc main_arg3) = W (Proc.devRef .tc main_arg3) := by
  after_results
  all_goals rfl
theorem keepG_v5 (W : Valuation τ sig (Elt F)) :
    after opsG' W (Proc.devRef .tc main_v5) = W (Proc.devRef .tc main_v5) := by
  after_results
  all_goals rfl
theorem keepG_v19 (W : Valuation τ sig (Elt F)) :
    after opsG' W (Proc.devRef .tc main_v19) = W (Proc.devRef .tc main_v19) := by
  after_results
  all_goals rfl

theorem keepH_arg0 (W : Valuation τ sig (Elt F)) :
    after opsH' W (Proc.devRef .tc main_arg0) = W (Proc.devRef .tc main_arg0) := by
  after_results
  all_goals rfl
theorem keepH_arg1 (W : Valuation τ sig (Elt F)) :
    after opsH' W (Proc.devRef .tc main_arg1) = W (Proc.devRef .tc main_arg1) := by
  after_results
  all_goals rfl
theorem keepH_arg2 (W : Valuation τ sig (Elt F)) :
    after opsH' W (Proc.devRef .tc main_arg2) = W (Proc.devRef .tc main_arg2) := by
  after_results
  all_goals rfl
theorem keepH_arg3 (W : Valuation τ sig (Elt F)) :
    after opsH' W (Proc.devRef .tc main_arg3) = W (Proc.devRef .tc main_arg3) := by
  after_results
  all_goals rfl
theorem keepH_v5 (W : Valuation τ sig (Elt F)) :
    after opsH' W (Proc.devRef .tc main_v5) = W (Proc.devRef .tc main_v5) := by
  after_results
  all_goals rfl

end Cert.Loss.RefRun

end
-- ==== Proof.RefRead.lean ====
/-
  Reading the reference's host operations at an index, at the shapes of this loss: the broadcasts that lay a scalar, a
  vector over the rows, or a one-column array over a larger shape; the host's elementwise logarithm, exponential,
  quotient and negation at the ideal values; and a sum over a rank-1 index set as the sum over its coordinate.
-/
import proofs.«423406_j41034117546381_2_alg».proof.Proof.Gen.ReferenceIdeal
import Idealize.ShloMosaic.Lib.ValueIdx
import Idealize.ShloMosaic.Lib.Pipeline.Value
import Mathlib.Algebra.BigOperators.Group.Finset.Basic

noncomputable section

namespace Cert.Loss.Ref

open Cert.ReferenceIdeal Cert.ReferenceIdeal.Gen Idealize.ShloMosaic Idealize.ShloMosaic.ValueIdx

section Bcast
variable {α : Type}

/-- A vector over the rows, as a one-column array, read at (i, 0): the vector at i. -/
theorem bc_col1 (v : S4096.Idx → α) (i : Fin 4096) :
    broadcastInDim S4096x1 ![0] bcast_S4096_S4096x1_0 v (ix2 i (0 : Fin 1)) = v (ix1 i) :=
  broadcastInDim_apply _ _ v _ (ix1 i) fun a => match a with | ⟨0, _⟩ => rfl

/-- A one-column array laid over the 32000 columns, read at (i, j): the column at (i, 0). -/
theorem bc_of_col (w : S4096x1.Idx → α) (i : Fin 4096) (j : Fin 32000) :
    broadcastInDim S4096x32000 ![0, 1] bcast_S4096x1_S4096x32000_0_1 w (ix2 i j) = w (ix2 i (0 : Fin 1)) :=
  broadcastInDim_apply _ _ w _ (ix2 i (0 : Fin 1)) fun a => match a with | ⟨0, _⟩ => rfl | ⟨1, _⟩ => rfl

/-- A scalar laid over any shape reads the scalar everywhere. -/
theorem bc_scalar {t : Shape} (h : S_.BroadcastsInDim t ![]) (v : S_.Idx → α) (j : t.Idx) :
    broadcastInDim t ![] h v j = v ix0 :=
  broadcastInDim_apply _ _ v _ ix0 fun a => a.elim0

end Bcast

section HostOps
variable {s : Shape}

/-- The host's logarithm at an index is the logarithm of the element … -/
theorem hostLog_apply (x : FVec Ideal s .f32) (i : s.Idx) : Host.log x i = Ideal.log (x i) := rfl
/-- … its exponential the exponential … -/
theorem hostExp_apply (x : FVec Ideal s .f32) (i : s.Idx) : Host.exp x i = Ideal.exp (x i) := rfl
/-- … its quotient the quotient … -/
theorem hostDivf_apply (x y : FVec Ideal s .f32) (i : s.Idx) : Host.divf x y i = Ideal.div (x i) (y i) := rfl
/-- … and its negation the negation of the element. -/
theorem hostNegf_apply (x : FVec Ideal s .f32) (i : s.Idx) : Host.negf x i = -(x i) := rfl

end HostOps

/-- A rank-1 index set is its coordinate's range, so a sum over it is the sum over the coordinate. -/
theorem sum_idx1 {n : Nat} (f : (⟨1, ![n]⟩ : Shape).Idx → EReal) : ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

end Cert.Loss.Ref

end
-- ==== Proof.RefTemp.lean ====
/-
  The reference's temperature vector and the mean over the batch, read at the ideal values. Each sample's temperature
  is chosen by two comparisons of its confidence with the words 0.9 and 0.6; read at a sample it is the specification's
  temperature of that confidence, every constant being a scalar laid over the batch. The mean is the host's sum over the
  batch from 0, divided by the word 4096.
-/
import proofs.«423406_j41034117546381_2_alg».proof.Proof.Spec
import proofs.«423406_j41034117546381_2_alg».proof.Proof.RefDefs
import proofs.«423406_j41034117546381_2_alg».proof.Proof.RefRead

noncomputable section

namespace Cert.Loss.Ref

open Cert.ReferenceIdeal Cert.ReferenceIdeal.Gen Idealize.ShloMosaic Idealize.ShloMosaic.ValueIdx

-- the host's sum is read through its lemma only; its body ranges over every entry of the array
attribute [local irreducible] Ideal.hostReduceAdd

/-- The temperature vector at sample i is the specification's temperature of that sample's confidence. -/
theorem tempVec_apply (cf : FVec Ideal S4096 .f32) (i : Fin 4096) : tempVec cf (ix1 i) = temp (cf (ix1 i)) := rfl

/-- The host's sum of a vector over the batch, from 0, is the sum over the samples. -/
theorem sumVec_apply (v : FVec Ideal S4096 .f32) (j : S_.Idx) :
    Host.reduceAdd v (constant (F := Ideal) S_ .f32 0x00000000#32) reducesTo_S4096_S_d0 h_S_ j = ∑ i : Fin 4096, v (ix1 i) := by
  show Ideal.hostReduceAdd reducesTo_S4096_S_d0 v (Ideal.ofBits .f32 0x00000000#32) j = _
  rw [Ideal.hostReduceAdd_total reducesTo_S4096_S_d0 (fun b => b.elim0) v _ j, Ideal.ofBits_zero_f32, zero_add]
  exact sum_idx1 v

/-- The mean of a vector over the batch: its sum divided by the word 4096. -/
theorem meanVec_apply (v : FVec Ideal S4096 .f32) (j : S_.Idx) :
    meanVec v j = Ideal.div (∑ i : Fin 4096, v (ix1 i)) w4096 := by
  unfold meanVec
  rw [hostDivf_apply, sumVec_apply, constant_apply]

/-- The reference's mean temperature is the specification's. -/
theorem meanTemp_eq (cf : FVec Ideal S4096 .f32) (j : S_.Idx) :
    meanVec (tempVec cf) j = avgTemp fun i => cf (ix1 i) := by
  rw [meanVec_apply]
  rfl

end Cert.Loss.Ref

end
-- ==== Proof.RefLsm.lean ====
/-
  A row's log-softmax as the reference's host operations compute it, read at the ideal values. For an array x of 4096
  rows and 32000 columns the reference takes each row's maximum (a maximum-reduce over the columns from −∞, and once
  more the maximum with −∞), subtracts it, exponentiates, sums each row from 0, takes the logarithm and subtracts that
  too; the row quantities are laid back over the columns by two broadcasts. Read at entry (i, j) the result is the
  specification's log-softmax of row i at column j.
-/
import proofs.«423406_j41034117546381_2_alg».proof.Proof.Spec
import proofs.«423406_j41034117546381_2_alg».proof.Proof.RowReduce
import proofs.«423406_j41034117546381_2_alg».proof.Proof.RefDefs
import proofs.«423406_j41034117546381_2_alg».proof.Proof.RefRead

noncomputable section

namespace Cert.Loss.Ref

open Cert.ReferenceIdeal Cert.ReferenceIdeal.Gen Idealize.ShloMosaic Idealize.ShloMosaic.ValueIdx Cert.Loss.Row

-- the two reductions are read through their lemmas only; their bodies range over every entry of the array
attribute [local irreducible] Host.reduce Ideal.hostReduceAdd

/-- The laid-back maximum at (i, j) is row i's maximum. -/
theorem rowMaxArr_apply (x : FVec Ideal S4096x32000 .f32) (i : Fin 4096) (j : Fin 32000) :
    rowMaxArr x (ix2 i j) = rowMax fun k => x (ix2 i k) := by
  unfold rowMaxArr
  rw [bc_of_col, bc_col1, maximumf_apply, bc_scalar, constant_apply, ofBits_negInf, max_bot_left]
  exact hostMax_row x reducesTo_S4096x32000_S4096_d1 (by decide) h_S_ i

/-- The host's sum of an array over the columns, from 0, at row i: the row's sum. -/
theorem rowSum_apply (y : FVec Ideal S4096x32000 .f32) (i : Fin 4096) :
    Host.reduceAdd y (constant (F := Ideal) S_ .f32 0x00000000#32) reducesTo_S4096x32000_S4096_d1 h_S_ (ix1 i)
      = ∑ k : Fin 32000, y (ix2 i k) := by
  have h : S4096x32000.Reduces [1] S4096 := by decide
  show Ideal.hostReduceAdd reducesTo_S4096x32000_S4096_d1 y (Ideal.ofBits .f32 0x00000000#32) (ix1 i) = _
  rw [Ideal.hostReduceAdd_single reducesTo_S4096x32000_S4096_d1 h y _ (ix1 i), Ideal.ofBits_zero_f32, zero_add]
  exact Finset.sum_congr rfl fun k _ => congrArg y (lift_row h i k)

/-- The reference's log-softmax array at (i, j) is the specification's log-softmax of row i at column j. -/
theorem lsmArr_apply (x : FVec Ideal S4096x32000 .f32) (i : Fin 4096) (j : Fin 32000) :
    lsmArr x (ix2 i j) = lsm (fun k => x (ix2 i k)) j := by
  have hs : (∑ k : Fin 32000, Host.exp (subf x (rowMaxArr x)) (ix2 i k))
      = ∑ k : Fin 32000, Ideal.exp (x (ix2 i k) - rowMax fun k => x (ix2 i k)) :=
    Finset.sum_congr rfl fun k _ => by rw [hostExp_apply, subf_apply, rowMaxArr_apply]
  unfold lsmArr
  rw [subf_apply, subf_apply, bc_of_col, hostLog_apply, bc_col1, rowSum_apply, rowMaxArr_apply, hs]
  rfl

end Cert.Loss.Ref

end
-- ==== Proof.RefPick.lean ====
/-
  The reference's indexed read of an array at the labels (take_along_axis along the columns), read at the ideal
  values under the label range 0 ≤ label < 32000. The label of row i, as a 32-bit word, is laid out as a start index:
  a negative label is moved up by 32000 (it is not negative here), the start index is tested against 0 and 31999 (it
  passes), and the read takes, at row i, the array's entry at column min (start index, 31999), which is the label's
  number. So the read at row i is the array at (i, label i); the fill word is not used.
-/
import proofs.«423406_j41034117546381_2_alg».proof.Proof.Labels
import proofs.«423406_j41034117546381_2_alg».proof.Proof.RefDefs
import proofs.«423406_j41034117546381_2_alg».proof.Proof.RefRead
import Idealize.ShloMosaic.PureOps.Reduce
import Idealize.ShloMosaic.Lib.StableHlo.Predicate

noncomputable section

namespace Cert.Loss.Ref

open Cert.ReferenceIdeal Cert.ReferenceIdeal.Gen Idealize.ShloMosaic Idealize.ShloMosaic.ValueIdx Cert.Loss.Label
open Idealize.ShloMosaic.StableHlo.Predicate (toInt_eq_toNat_of_lt)

section Words
variable {s : Shape} {w : Nat}

/-- An integer comparison at an index compares the elements … -/
theorem cmpi_apply (p : CmpIPredicate) (x y : IVec s w) (i : s.Idx) : cmpi p x y i = IntOp.cmpi p (x i) (y i) := rfl
/-- … a bitwise and at an index is the and of the elements. -/
theorem andi_apply (x y : IVec s w) (i : s.Idx) : andi x y i = IntOp.andi (x i) (y i) := rfl

end Words

/-- The label column at (i, 0) is the label of row i. -/
theorem labCol_apply (lab : IVec S4096 32) (i : Fin 4096) : labCol lab (ix2 i (0 : Fin 1)) = lab (ix1 i) :=
  bc_col1 lab i

/-- With the label in range the start index of row i is the label: the wrap of a negative index does not fire. -/
theorem idxArr_apply (lab : IVec S4096 32) (i : Fin 4096) (h : (lab (ix1 i)).toNat < 32000) :
    idxArr lab (ix3 i (0 : Fin 1) (0 : Fin 1)) = lab (ix1 i) := by
  have hc : cmpi .slt (labCol lab) (broadcastInDim S4096x1 ![] bcast_S_S4096x1 (constantI S_ 32 0#32)) (ix2 i (0 : Fin 1)) = 0#1 := by
    rw [cmpi_apply, labCol_apply, bc_scalar]
    exact eq_zero_of_ne_one (not_slt_zero h)
  unfold idxArr
  rw [shapeCast_apply _ _ _ (ix2 i (0 : Fin 1)) (by
    rw [Shape.rowMajor_val_two, Shape.rowMajor_val_three]
    show i.val * 1 + 0 = (i.val * 1 + 0) * 1 + 0
    omega)]
  rw [select_apply, hc, select_zero, labCol_apply]

/-- The index of [4096 × 1 × 1] over (i, 0) with coordinate 0 put back on the reduced axis is (i, 0, 0). -/
theorem lift_unit (hR : S4096x1x1.Reduces [2] S4096x1) (i : Fin 4096) (k : Fin (S4096x1x1.size 2)) :
    hR.lift (ix2 i (0 : Fin 1)) k = ix3 i (0 : Fin 1) (0 : Fin 1) := by
  have hk : k.val = 0 := by have := k.isLt; change k.val < 1 at this; omega
  funext c; apply Fin.ext
  fin_cases c
  · rfl
  · rfl
  · exact hk

/-- With the label in range the range mask holds at row i. -/
theorem maskArr_apply (lab : IVec S4096 32) (i : Fin 4096) (h : (lab (ix1 i)).toNat < 32000) :
    maskArr lab (ix2 i (0 : Fin 1)) = 1#1 := by
  have hR : S4096x1x1.Reduces [2] S4096x1 := by decide
  have hu : (Finset.univ : Finset (Fin (S4096x1x1.size 2))) = {(⟨0, Nat.one_pos⟩ : Fin (S4096x1x1.size 2))} := rfl
  obtain ⟨h0, h1⟩ := in_range h
  unfold maskArr
  rw [Host.reduce_eq_fold_single IntOp.andi _ _ reducesTo_S4096x1x1_S4096x1_d2 hR h_S_ (ix2 i (0 : Fin 1)), hu,
    Finset.fold_singleton, Function.comp_apply, lift_unit hR i, andi_apply, cmpi_apply, cmpi_apply, idxArr_apply lab i h]
  show IntOp.andi (IntOp.andi (IntOp.cmpi .sge (lab (ix1 i)) 0#32) (IntOp.cmpi .sle (lab (ix1 i)) 31999#32)) 1#1 = 1#1
  rw [h0, h1]
  rfl

/-- A start index read signed and clamped into the columns. -/
def clampCol (w : BitVec 32) : Fin 32000 := ⟨min w.toInt.toNat 31999, by omega⟩

/-- A word below 32000 is its own number as a column. -/
theorem clampCol_eq {w : BitVec 32} (h : w.toNat < 32000) : clampCol w = ⟨w.toNat, h⟩ := by
  apply Fin.ext
  show min w.toInt.toNat 31999 = w.toNat
  rw [toInt_eq_toNat_of_lt (by omega)]
  simp only [Int.toNat_natCast]
  omega

section Gather
variable {α : Type}

/-- The indexed read at row i: the array at (i, the start index of row i read signed and clamped). -/
theorem gather_apply (L : S4096x32000.Idx → α) (idx : IVec S4096x1x1 32) (i : Fin 4096) :
    Host.gather gather_S4096x32000_S4096x1x1_S4096x1_n_1_0_0_1_2_11 L idx (ix2 i (0 : Fin 1))
      = L (ix2 i (clampCol (idx (ix3 i (0 : Fin 1) (0 : Fin 1))))) := by
  have hsi : ∀ c, gather_S4096x32000_S4096x1x1_S4096x1_n_1_0_0_1_2_11.siIdx (ix2 i (0 : Fin 1)) c
      = ix3 i (0 : Fin 1) (0 : Fin 1) := fun c => by
    have hc : c.val = 0 := by have := c.isLt; change c.val < 1 at this; omega
    funext b; apply Fin.ext
    match b with
    | ⟨0, _⟩ => rfl
    | ⟨1, _⟩ => rfl
    | ⟨2, _⟩ => exact hc
  unfold Host.gather
  congr 1
  funext a
  apply Fin.ext
  match a with
  | ⟨0, _⟩ =>
    show gather_S4096x32000_S4096x1x1_S4096x1_n_1_0_0_1_2_11.start (ix2 i (0 : Fin 1)) idx 0
        + gather_S4096x32000_S4096x1x1_S4096x1_n_1_0_0_1_2_11.batchCoord (ix2 i (0 : Fin 1)) 0
        + gather_S4096x32000_S4096x1x1_S4096x1_n_1_0_0_1_2_11.offCoord (ix2 i (0 : Fin 1)) 0 = i.val
    rw [GatherDims.start_batching _ _ _ _ (by decide), GatherDims.offCoord_eq_zero _ _ _ (by decide), Nat.zero_add,
      Nat.add_zero]
    unfold GatherDims.batchCoord
    rw [dif_pos (by decide)]
    rfl
  | ⟨1, _⟩ =>
    show gather_S4096x32000_S4096x1x1_S4096x1_n_1_0_0_1_2_11.start (ix2 i (0 : Fin 1)) idx 1
        + gather_S4096x32000_S4096x1x1_S4096x1_n_1_0_0_1_2_11.batchCoord (ix2 i (0 : Fin 1)) 1
        + gather_S4096x32000_S4096x1x1_S4096x1_n_1_0_0_1_2_11.offCoord (ix2 i (0 : Fin 1)) 1 = _
    rw [GatherDims.batchCoord_eq_zero _ _ _ (by decide), GatherDims.offCoord_eq_zero _ _ _ (by decide)]
    unfold GatherDims.start
    rw [dif_pos (by decide), hsi]
    rfl

end Gather

/-- With the label of row i in range the reference's indexed read at row i is the array at (i, label i). -/
theorem pickArr_apply (L : FVec Ideal S4096x32000 .f32) (lab : IVec S4096 32) (i : Fin 4096)
    (h : (lab (ix1 i)).toNat < 32000) :
    pickArr L lab (ix2 i (0 : Fin 1)) = L (ix2 i (⟨(lab (ix1 i)).toNat, h⟩ : Fin 32000)) := by
  unfold pickArr
  rw [select_apply, maskArr_apply lab i h, select_one, gather_apply, idxArr_apply lab i h, clampCol_eq h]

end Cert.Loss.Ref

end
-- ==== Proof.RefKl.lean ====
/-
  The divergence's summand, the means and the loss as the reference composes them, read at the ideal values. The
  entropy term of a soft label s is the reference's guarded product: s · log s where s ≠ 0 (the second test, s ≠ s, never
  holds), else 0. The divided logits at (i, k) are the logit over the temperature of row i. The means are the host's sums
  from 0 (over the columns and then the rows, or over a one-column array's entries) divided by the word 4096.
-/
import proofs.«423406_j41034117546381_2_alg».proof.Proof.Spec
import proofs.«423406_j41034117546381_2_alg».proof.Proof.RefDefs
import proofs.«423406_j41034117546381_2_alg».proof.Proof.RefRead
import proofs.«423406_j41034117546381_2_alg».proof.Proof.RefTemp
import proofs.«423406_j41034117546381_2_alg».proof.Proof.RefLsm

noncomputable section

namespace Cert.Loss.Ref

open Cert.ReferenceIdeal Cert.ReferenceIdeal.Gen Idealize.ShloMosaic Idealize.ShloMosaic.ValueIdx

-- the host's sum is read through its lemmas only; its body ranges over every entry of the array
attribute [local irreducible] Ideal.hostReduceAdd

/-- A bitwise or at an index is the or of the elements. -/
theorem ori_apply {s : Shape} {w : Nat} (x y : IVec s w) (i : s.Idx) : ori x y i = IntOp.ori (x i) (y i) := rfl

/-- The reference's entropy term at (i, j) is the specification's, guarded as the reference guards it. -/
theorem xlogyArr_apply (sf : FVec Ideal S4096x32000 .f32) (i : Fin 4096) (j : Fin 32000) :
    xlogyArr sf (ix2 i j) = xlxRef (sf (ix2 i j)) := by
  unfold xlogyArr xlxRef
  rw [select_apply, ori_apply, cmpf_apply, cmpf_apply, mulf_apply, hostLog_apply, bc_scalar, constant_apply,
    Ideal.ofBits_zero_f32]
  rfl

/-- The divergence's summand at (i, j). -/
theorem klArr_apply (sf L : FVec Ideal S4096x32000 .f32) (i : Fin 4096) (j : Fin 32000) :
    klArr sf L (ix2 i j) = xlxRef (sf (ix2 i j)) - sf (ix2 i j) * L (ix2 i j) := by
  unfold klArr
  rw [subf_apply, mulf_apply, xlogyArr_apply]

/-- The divided logits at (i, k): the logit over row i's temperature. -/
theorem divT_apply (lg : FVec Ideal S4096x32000 .f32) (t : FVec Ideal S4096 .f32) (i : Fin 4096) (k : Fin 32000) :
    divT lg t (ix2 i k) = Ideal.div (lg (ix2 i k)) (t (ix1 i)) := by
  unfold divT
  rw [hostDivf_apply, bc_of_col, bc_col1]

/-- The mean over the batch of an array's row sums. -/
theorem meanAll_apply (y : FVec Ideal S4096x32000 .f32) (j : S_.Idx) :
    meanAll y j = Ideal.div (∑ i : Fin 4096, ∑ k : Fin 32000, y (ix2 i k)) w4096 := by
  unfold meanAll
  rw [hostDivf_apply, sumVec_apply, constant_apply]
  rw [Finset.sum_congr rfl fun i _ => rowSum_apply y i]

/-- The host's sum of a one-column array over both axes, from 0: the sum of its entries. -/
theorem sumCol_apply (p : FVec Ideal S4096x1 .f32) (j : S_.Idx) :
    Host.reduceAdd p (constant (F := Ideal) S_ .f32 0x00000000#32) reducesTo_S4096x1_S_d0_1 h_S_ j
      = ∑ i : Fin 4096, p (ix2 i (0 : Fin 1)) := by
  show Ideal.hostReduceAdd reducesTo_S4096x1_S_d0_1 p (Ideal.ofBits .f32 0x00000000#32) j = _
  rw [Ideal.hostReduceAdd_total reducesTo_S4096x1_S_d0_1 (fun b => b.elim0) p _ j, Ideal.ofBits_zero_f32, zero_add,
    sum_idx2]
  exact Finset.sum_congr rfl fun i _ => Fin.sum_univ_one _

/-- The cross-entropy from the picked column: the mean of its entries, negated. -/
theorem ceOf_apply (p : FVec Ideal S4096x1 .f32) (j : S_.Idx) :
    ceOf p j = -(Ideal.div (∑ i : Fin 4096, p (ix2 i (0 : Fin 1))) w4096) := by
  unfold ceOf
  rw [hostNegf_apply, hostDivf_apply, sumCol_apply, constant_apply]

/-- The loss from its two halves. -/
theorem totalOf_apply (kl ce : FVec Ideal S_ .f32) (j : S_.Idx) : totalOf kl ce j = w05 * kl j + w05 * ce j := by
  unfold totalOf
  rw [addf_apply, mulf_apply, mulf_apply, constant_apply]

end Cert.Loss.Ref

end
-- ==== Proof.RefValue.lean ====
/-
  The reference's value. The fold of @main's operations at each of the four result buffers is the composition of the
  stages of the loss, read off stretch by stretch; at the ideal values each stage is the specification's function of
  the argument arrays, given that every label is the number of a column (the indexed read then reads the labelled entry
  of the log-softmax) and every soft label is non-negative (the reference's guard of s · log s then selects what the
  specification's does). With the run of @main this gives what the assembly asks of the reference: every weakly fair
  execution terminates with the four results at the loss functions of the reference's own arguments, and the arguments
  unchanged.
-/
import proofs.«423406_j41034117546381_2_alg».proof.Proof.Assemble
import proofs.«423406_j41034117546381_2_alg».proof.Proof.RefFold
import proofs.«423406_j41034117546381_2_alg».proof.Proof.RefTemp
import proofs.«423406_j41034117546381_2_alg».proof.Proof.RefLsm
import proofs.«423406_j41034117546381_2_alg».proof.Proof.RefPick
import proofs.«423406_j41034117546381_2_alg».proof.Proof.RefKl

noncomputable section

namespace Cert.Loss.RefRun

open Cert.ReferenceIdeal Cert.ReferenceIdeal.Gen Idealize.ShloMosaic Idealize.ShloMosaic.TcCoe Idealize.SL.Sem Idealize.ShloMosaic.StableHlo Cert.Loss.Ref

section AnyFamily
variable {F : FTy → Type} [FloatOps F]

/-- The fold over @main's operations, over the bare stretches. -/
theorem after_ops' (V : Valuation τ sig (Elt F)) :
    after ops V = after opsH' (after opsG' (after opsF' (after opsE' (after opsD' (after opsC' (after opsB' (after opsA' V))))))) := by
  rw [after_ops, opsA_eq, opsB_eq, opsC_eq, opsD_eq, opsE_eq, opsF_eq, opsG_eq, opsH_eq]

/-- The cross-entropy result as the stages' composition. -/
theorem ce_eq (V : Valuation τ sig (Elt F)) :
    after ops V (Proc.devRef .tc main_v5)
      = ceOf (pickArr (lsmArr (V (Proc.devRef .tc main_arg0))) (V (Proc.devRef .tc main_arg1))) := by
  rw [after_ops', keepH_v5, keepG_v5, keepF_v5, keepE_v5, keepD_v5, foldC, foldB, foldA, keepA_arg1]

/-- The divergence result as the stages' composition. -/
theorem kl_eq (V : Valuation τ sig (Elt F)) :
    after ops V (Proc.devRef .tc main_v36)
      = meanAll (klArr (V (Proc.devRef .tc main_arg2))
          (lsmArr (divT (V (Proc.devRef .tc main_arg0)) (tempVec (V (Proc.devRef .tc main_arg3)))))) := by
  rw [after_ops', foldH_kl, foldG, foldF, foldE, foldD, keepF_arg2, keepE_arg2, keepD_arg2, keepC_arg2, keepB_arg2,
    keepA_arg2, keepD_arg0, keepC_arg0, keepB_arg0, keepA_arg0, keepC_arg3, keepB_arg3, keepA_arg3]

/-- The loss as the stages' composition. -/
theorem total_eq (V : Valuation τ sig (Elt F)) :
    after ops V (Proc.devRef .tc main_v39)
      = totalOf (meanAll (klArr (V (Proc.devRef .tc main_arg2))
            (lsmArr (divT (V (Proc.devRef .tc main_arg0)) (tempVec (V (Proc.devRef .tc main_arg3)))))))
          (ceOf (pickArr (lsmArr (V (Proc.devRef .tc main_arg0))) (V (Proc.devRef .tc main_arg1)))) := by
  rw [after_ops', foldH_total, foldG, foldF, foldE, foldD, keepF_arg2, keepE_arg2, keepD_arg2, keepC_arg2, keepB_arg2,
    keepA_arg2, keepD_arg0, keepC_arg0, keepB_arg0, keepA_arg0, keepC_arg3, keepB_arg3, keepA_arg3, keepG_v5, keepF_v5,
    keepE_v5, keepD_v5, foldC, foldB, foldA, keepA_arg1]

/-- The mean temperature as the stages' composition. -/
theorem temp_eq (V : Valuation τ sig (Elt F)) :
    after ops V (Proc.devRef .tc main_v41) = meanVec (tempVec (V (Proc.devRef .tc main_arg3))) := by
  rw [after_ops', foldH_temp, keepG_v19, keepF_v19, keepE_v19, foldD, keepC_arg3, keepB_arg3, keepA_arg3]

/-- The four arguments are left as they were. -/
theorem arg0_eq (V : Valuation τ sig (Elt F)) : after ops V (Proc.devRef .tc main_arg0) = V (Proc.devRef .tc main_arg0) := by
  rw [after_ops', keepH_arg0, keepG_arg0, keepF_arg0, keepE_arg0, keepD_arg0, keepC_arg0, keepB_arg0, keepA_arg0]
theorem arg1_eq (V : Valuation τ sig (Elt F)) : after ops V (Proc.devRef .tc main_arg1) = V (Proc.devRef .tc main_arg1) := by
  rw [after_ops', keepH_arg1, keepG_arg1, keepF_arg1, keepE_arg1, keepD_arg1, keepC_arg1, keepB_arg1, keepA_arg1]
theorem arg2_eq (V : Valuation τ sig (Elt F)) : after ops V (Proc.devRef .tc main_arg2) = V (Proc.devRef .tc main_arg2) := by
  rw [after_ops', keepH_arg2, keepG_arg2, keepF_arg2, keepE_arg2, keepD_arg2, keepC_arg2, keepB_arg2, keepA_arg2]
theorem arg3_eq (V : Valuation τ sig (Elt F)) : after ops V (Proc.devRef .tc main_arg3) = V (Proc.devRef .tc main_arg3) := by
  rw [after_ops', keepH_arg3, keepG_arg3, keepF_arg3, keepE_arg3, keepD_arg3, keepC_arg3, keepB_arg3, keepA_arg3]

end AnyFamily

end Cert.Loss.RefRun

namespace Cert.Loss.Ref

open Cert.ReferenceIdeal Cert.ReferenceIdeal.Gen Idealize.ShloMosaic Idealize.ShloMosaic.ValueIdx Idealize.SL.Sem
  Idealize.ShloMosaic.StableHlo

/-! ## The stages' compositions at the ideal values -/

/-- The cross-entropy: with every label a column's number, the mean of the labelled log-softmax entries, negated. -/
theorem ce_val (LG : FVec Ideal S4096x32000 .f32) (LAB : IVec S4096 32) (hlab : ∀ i, (LAB (ix1 i)).toNat < 32000)
    (j : S_.Idx) :
    ceOf (pickArr (lsmArr LG) LAB) j = ce (fun i k => LG (ix2 i k)) (fun i => LAB (ix1 i)) := by
  have h : ∀ i, pickArr (lsmArr LG) LAB (ix2 i (0 : Fin 1)) = ceRow (fun i k => LG (ix2 i k)) (fun i => LAB (ix1 i)) i :=
    fun i => (pickArr_apply (lsmArr LG) LAB i (hlab i)).trans ((lsmArr_apply LG i _).trans
      (ceRow_eq (fun i k => LG (ix2 i k)) (fun i => LAB (ix1 i)) i (hlab i)).symm)
  rw [ceOf_apply, Finset.sum_congr rfl fun i _ => h i]
  rfl

/-- The divergence: with every soft label non-negative, the mean of the rows' divergence terms. -/
theorem kl_val (LG SF : FVec Ideal S4096x32000 .f32) (CF : FVec Ideal S4096 .f32) (hsf : ∀ i k, 0 ≤ SF (ix2 i k))
    (j : S_.Idx) :
    meanAll (klArr SF (lsmArr (divT LG (tempVec CF)))) j
      = kl (fun i k => LG (ix2 i k)) (fun i k => SF (ix2 i k)) (fun i => CF (ix1 i)) := by
  have h : ∀ i, (∑ k : Fin 32000, klArr SF (lsmArr (divT LG (tempVec CF))) (ix2 i k))
      = klRow (fun i k => LG (ix2 i k)) (fun i k => SF (ix2 i k)) (fun i => CF (ix1 i)) i := fun i => by
    have hd : (fun k' => divT LG (tempVec CF) (ix2 i k')) = fun k' => Ideal.div (LG (ix2 i k')) (temp (CF (ix1 i))) :=
      funext fun k' => by rw [divT_apply, tempVec_apply]
    show _ = ∑ k : Fin 32000, (xlxKer (SF (ix2 i k))
      - SF (ix2 i k) * lsm (fun k' => Ideal.div (LG (ix2 i k')) (temp (CF (ix1 i)))) k)
    refine Finset.sum_congr rfl fun k _ => ?_
    rw [klArr_apply, lsmArr_apply, hd, xlx_agree (hsf i k)]
  rw [meanAll_apply, Finset.sum_congr rfl fun i _ => h i]
  rfl

/-- The loss: half the divergence plus half the cross-entropy. -/
theorem total_val (LG SF : FVec Ideal S4096x32000 .f32) (LAB : IVec S4096 32) (CF : FVec Ideal S4096 .f32)
    (hlab : ∀ i, (LAB (ix1 i)).toNat < 32000) (hsf : ∀ i k, 0 ≤ SF (ix2 i k)) (j : S_.Idx) :
    totalOf (meanAll (klArr SF (lsmArr (divT LG (tempVec CF))))) (ceOf (pickArr (lsmArr LG) LAB)) j
      = total (fun i k => LG (ix2 i k)) (fun i k => SF (ix2 i k)) (fun i => LAB (ix1 i)) (fun i => CF (ix1 i)) := by
  rw [totalOf_apply, kl_val LG SF CF hsf j, ce_val LG LAB hlab j]
  rfl

/-! ## The reference's run -/

/-- From any memory whose labels are numbers of columns and whose soft labels are non-negative, every weakly fair
    execution of the reference terminates with its four results at the loss functions of its own argument arrays, and
    the arguments unchanged. -/
theorem runs : Cert.Loss.Asm.RefRuns := by
  intro m' ρ' hlab hsf
  refine (θ_run (Cert.ReferenceIdeal.defs (F := Ideal)) _ _).mono (fun r h c => ?_)
    (Cert.Loss.RefRun.run_main (F := Ideal) m' ρ')
  have hv := h c
  refine ⟨?_, ?_, ?_, ?_, ?_, ?_, ?_, ?_⟩
  · exact (hv main_v39).trans (funext fun j => (congrFun (Cert.Loss.RefRun.total_eq (launchContents m' c)) j).trans
      (total_val _ _ _ _ (hlab c) (hsf c) j))
  · exact (hv main_v5).trans (funext fun j => (congrFun (Cert.Loss.RefRun.ce_eq (launchContents m' c)) j).trans
      (ce_val _ _ (hlab c) j))
  · exact (hv main_v36).trans (funext fun j => (congrFun (Cert.Loss.RefRun.kl_eq (launchContents m' c)) j).trans
      (kl_val _ _ _ (hsf c) j))
  · exact (hv main_v41).trans (funext fun j => (congrFun (Cert.Loss.RefRun.temp_eq (launchContents m' c)) j).trans
      (meanTemp_eq _ j))
  · exact (hv main_arg0).trans (Cert.Loss.RefRun.arg0_eq (launchContents m' c))
  · exact (hv main_arg1).trans (Cert.Loss.RefRun.arg1_eq (launchContents m' c))
  · exact (hv main_arg2).trans (Cert.Loss.RefRun.arg2_eq (launchContents m' c))
  · exact (hv main_arg3).trans (Cert.Loss.RefRun.arg3_eq (launchContents m' c))

end Cert.Loss.Ref

end
-- ==== Proof.lean ====
/-
  The certificate of the adaptive-temperature distillation loss: a kernel that scans the batch in blocks of 32 rows against
  its jnp reference, over the extended reals.

  Both programs compute, from logits, labels, soft labels and confidences of 4096 samples over 32000 classes,
    ce = -(1/4096) ∑ᵢ lsm(logitsᵢ)(labelᵢ),   kl = (1/4096) ∑ᵢ ∑ⱼ (s log s - s · lsm(logitsᵢ / Tᵢ)ⱼ) with s = softᵢⱼ,
    total = kl/2 + ce/2,   avgTemp = (1/4096) ∑ᵢ Tᵢ,
  where lsm is a row's log-softmax and Tᵢ the sample's temperature, a piecewise function of its confidence
  (Proof/Spec.lean states these as functions of the four argument arrays).
  The kernel keeps three one-element accumulators over its 128 grid points: the first point stores zero and adds its
  block, every later point adds its block, and the last point divides by 4096 and writes the four results; its value is
  read off the frame of its run, point by point (Proof/Pieces, Accum, AccumValue, Outputs, InputBlocks, KernelValue,
  KernelRun). The reference reduces whole arrays; its run is written out operation by operation and read stage by stage
  (Proof/Ref*.lean). The two agree because a finite sum over the extended reals may be regrouped freely; because, for a
  label that is the number of a column, the sum of the log-softmax against that column's indicator is the log-softmax at
  that column, which is what the reference's indexed read returns; and because, for a non-negative soft label, the
  kernel's guard s > 0 and the reference's guard s ≠ 0 select the same value of s log s. Those two conditions on the
  inputs are the precondition's (Proof/PreDecode.lean); that the float inputs are finite is not needed.
  The word-level kernel and its idealization are one text (no idealizing rewrite was applied), and each program's frame is
  its run with the results dropped.
-/
import proofs.«423406_j41034117546381_2_alg».proof.Defs
import proofs.«423406_j41034117546381_2_alg».proof.Proof.Gen.Kernel
import proofs.«423406_j41034117546381_2_alg».proof.Proof.Gen.Kernel.Skeleton
import proofs.«423406_j41034117546381_2_alg».proof.Proof.Gen.Kernel.Launch
import proofs.«423406_j41034117546381_2_alg».proof.Proof.Gen.Kernel.Points
import proofs.«423406_j41034117546381_2_alg».proof.Proof.Gen.Kernel.Frame
import proofs.«423406_j41034117546381_2_alg».proof.Proof.Gen.KernelIdeal
import proofs.«423406_j41034117546381_2_alg».proof.Proof.Gen.KernelIdeal.Skeleton
import proofs.«423406_j41034117546381_2_alg».proof.Proof.Gen.KernelIdeal.Launch
import proofs.«423406_j41034117546381_2_alg».proof.Proof.Gen.KernelIdeal.Points
import proofs.«423406_j41034117546381_2_alg».proof.Proof.Gen.KernelIdeal.Frame
import proofs.«423406_j41034117546381_2_alg».proof.Proof.Gen.ReferenceIdeal
import proofs.«423406_j41034117546381_2_alg».proof.Proof.Gen.Pre_finite_inputs
import proofs.«423406_j41034117546381_2_alg».proof.Proof.Assemble
import proofs.«423406_j41034117546381_2_alg».proof.Proof.RefValue
import Idealize.ShloMosaic.Adequacy
import Idealize.ShloMosaic.Init

noncomputable section

namespace Cert.Proof

open Idealize.ShloMosaic Idealize.SL.Sem Cert.Kernel

/-- The five claims: the three programs run and leave their arguments unchanged; the idealized kernel is the kernel's own
    text; and the idealized kernel and the idealized reference end with equal results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Loss.Asm.frame_ref_of Cert.Loss.Ref.runs,
  trivial,
  Cert.Loss.Asm.algebraic_of Cert.Loss.Ref.runs⟩

end Cert.Proof

end
